-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x1 : Shape := ⟨2, ![100000, 1]⟩
abbrev S2x3200000 : Shape := ⟨2, ![2, 3200000]⟩
abbrev S3200000x5 : Shape := ⟨2, ![3200000, 5]⟩
abbrev S100000 : Shape := ⟨1, ![100000]⟩
abbrev S6x16 : Shape := ⟨2, ![6, 16]⟩
abbrev S17x16 : Shape := ⟨2, ![17, 16]⟩
abbrev S16 : Shape := ⟨1, ![16]⟩
abbrev S16x16 : Shape := ⟨2, ![16, 16]⟩
abbrev S37x16 : Shape := ⟨2, ![37, 16]⟩
abbrev S16x1 : Shape := ⟨2, ![16, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S3200000x5 : S_.BroadcastsInDim S3200000x5 (![] : Fin 0 → Fin S3200000x5.rank)
  reducesTo_S3200000x5_S_d0_1 : S3200000x5.ReducesTo [0, 1] S_
  bcast_S_S6x16 : S_.BroadcastsInDim S6x16 (![] : Fin 0 → Fin S6x16.rank)
  reducesTo_S6x16_S_d0_1 : S6x16.ReducesTo [0, 1] S_
  bcast_S_S17x16 : S_.BroadcastsInDim S17x16 (![] : Fin 0 → Fin S17x16.rank)
  reducesTo_S17x16_S_d0_1 : S17x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S37x16 : S_.BroadcastsInDim S37x16 (![] : Fin 0 → Fin S37x16.rank)
  reducesTo_S37x16_S_d0_1 : S37x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S100000x64 : S_.BroadcastsInDim S100000x64 (![] : Fin 0 → Fin S100000x64.rank)
  reducesTo_S100000x64_S_d0_1 : S100000x64.ReducesTo [0, 1] S_

variable [Facts]

def fn_part3 {F : FTy → Type} [FloatOps F] (main_arg0 : IVec S100000x64 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S100000x64 32 := broadcastInDim S100000x64 ![] bcast_S_S100000x64 main_c_20
  let main_v55 : IVec S100000x64 1 := cmpi .sge main_arg0 main_v54
  let main_c_21 : IVec S_ 1 := constantI S_ 1 1#1
  let main_v56 : IVec S_ 1 := (fun x v => Host.reduce IntOp.andi x v reducesTo_S100000x64_S_d0_1 h_S_) main_v55 main_c_21
  let main_v57 : IVec S_ 1 := andi main_v53 main_v56
  main_v57

def fn_part2 {F : FTy → Type} [FloatOps F] (main_arg0 : IVec S100000x64 32) (main_arg10 : FVec F S37x16 .f32) (main_arg11 : FVec F S16 .f32) (main_arg12 : FVec F S16x1 .f32) (main_arg13 : FVec F S1 .f32) (main_v33 : IVec S_ 1) : IVec S_ 1 :=
  let main_v34 : FVec F S37x16 .f32 := Host.absf main_arg10
  let main_cst_12 : FVec F S_ .f32 := constant S_ .f32 0x7F800000#32
  let main_v35 : FVec F S37x16 .f32 := broadcastInDim S37x16 ![] bcast_S_S37x16 main_cst_12
  let main_v36 : IVec S37x16 1 := cmpf .olt main_v34 main_v35
  let main_c_13 : IVec S_ 1 := constantI S_ 1 1#1
  let main_v37 : IVec S_ 1 := (fun x v => Host.reduce IntOp.andi x v reducesTo_S37x16_S_d0_1 h_S_) main_v36 main_c_13
  let main_v38 : IVec S_ 1 := andi main_v33 main_v37
  let main_v39 : FVec F S16 .f32 := Host.absf main_arg11
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg12
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_arg0 main_v48 main_v49 main_v50

def fn_part1 {F : FTy → Type} [FloatOps F] (main_arg0 : IVec S100000x64 32) (main_arg7 : FVec F S16 .f32) (main_arg8 : FVec F S16x16 .f32) (main_arg9 : FVec F S16 .f32) (main_arg10 : FVec F S37x16 .f32) (main_arg11 : FVec F S16 .f32) (main_arg12 : FVec F S16x1 .f32) (main_arg13 : FVec F S1 .f32) (main_v13 : IVec S_ 1) (main_v16 : IVec S17x16 1) : IVec S_ 1 :=
  let main_c_5 : IVec S_ 1 := constantI S_ 1 1#1
  let main_v17 : IVec S_ 1 := (fun x v => Host.reduce IntOp.andi x v reducesTo_S17x16_S_d0_1 h_S_) main_v16 main_c_5
  let main_v18 : IVec S_ 1 := andi main_v13 main_v17
  let main_v19 : FVec F S16 .f32 := Host.absf main_arg7
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg8
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg0 main_arg10 main_arg11 main_arg12 main_arg13 main_v33

def fn {F : FTy → Type} [FloatOps F] (main_arg0 : IVec S100000x64 32) (main_arg1 : FVec F S100000x1 .f32) (main_arg2 : IVec S2x3200000 32) (main_arg3 : FVec F S3200000x5 .f32) (main_arg4 : IVec S100000 32) (main_arg5 : FVec F S6x16 .f32) (main_arg6 : FVec F S17x16 .f32) (main_arg7 : FVec F S16 .f32) (main_arg8 : FVec F S16x16 .f32) (main_arg9 : FVec F S16 .f32) (main_arg10 : FVec F S37x16 .f32) (main_arg11 : FVec F S16 .f32) (main_arg12 : FVec F S16x1 .f32) (main_arg13 : FVec F S1 .f32) : IVec S_ 1 :=
  let main_v0 : FVec F S100000x1 .f32 := Host.absf main_arg1
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S3200000x5 .f32 := Host.absf main_arg3
  let main_cst_0 : FVec F S_ .f32 := constant S_ .f32 0x7F800000#32
  let main_v5 : FVec F S3200000x5 .f32 := broadcastInDim S3200000x5 ![] bcast_S_S3200000x5 main_cst_0
  let main_v6 : IVec S3200000x5 1 := cmpf .olt main_v4 main_v5
  let main_c_1 : IVec S_ 1 := constantI S_ 1 1#1
  let main_v7 : IVec S_ 1 := (fun x v => Host.reduce IntOp.andi x v reducesTo_S3200000x5_S_d0_1 h_S_) main_v6 main_c_1
  let main_v8 : IVec S_ 1 := andi main_v3 main_v7
  let main_v9 : FVec F S6x16 .f32 := Host.absf main_arg5
  let main_cst_2 : FVec F S_ .f32 := constant S_ .f32 0x7F800000#32
  let main_v10 : FVec F S6x16 .f32 := broadcastInDim S6x16 ![] bcast_S_S6x16 main_cst_2
  let main_v11 : IVec S6x16 1 := cmpf .olt main_v9 main_v10
  let main_c_3 : IVec S_ 1 := constantI S_ 1 1#1
  let main_v12 : IVec S_ 1 := (fun x v => Host.reduce IntOp.andi x v reducesTo_S6x16_S_d0_1 h_S_) main_v11 main_c_3
  let main_v13 : IVec S_ 1 := andi main_v8 main_v12
  let main_v14 : FVec F S17x16 .f32 := Host.absf main_arg6
  let main_cst_4 : FVec F S_ .f32 := constant S_ .f32 0x7F800000#32
  let main_v15 : FVec F S17x16 .f32 := broadcastInDim S17x16 ![] bcast_S_S17x16 main_cst_4
  let main_v16 : IVec S17x16 1 := cmpf .olt main_v14 main_v15
  fn_part1 (F := F) main_arg0 main_arg7 main_arg8 main_arg9 main_arg10 main_arg11 main_arg12 main_arg13 main_v13 main_v16
-- ==== Kernel.lean ====
abbrev S100000x64 : Shape := ⟨2, ![100000, 64]⟩
abbrev S100000x1 : Shape := ⟨2, ![100000, 1]⟩
abbrev S2x3200000 : Shape := ⟨2, ![2, 3200000]⟩
abbrev S3200000x5 : Shape := ⟨2, ![3200000, 5]⟩
abbrev S100000 : Shape := ⟨1, ![100000]⟩
abbrev S6x16 : Shape := ⟨2, ![6, 16]⟩
abbrev S17x16 : Shape := ⟨2, ![17, 16]⟩
abbrev S16 : Shape := ⟨1, ![16]⟩
abbrev S16x16 : Shape := ⟨2, ![16, 16]⟩
abbrev S37x16 : Shape := ⟨2, ![37, 16]⟩
abbrev S16x1 : Shape := ⟨2, ![16, 1]⟩
abbrev S1 : Shape := ⟨1, ![1]⟩
abbrev S1x16 : Shape := ⟨2, ![1, 16]⟩
abbrev S100000x16 : Shape := ⟨2, ![100000, 16]⟩
abbrev S2000x64 : Shape := ⟨2, ![2000, 64]⟩
abbrev S2000x1 : Shape := ⟨2, ![2000, 1]⟩
abbrev S2000x16 : Shape := ⟨2, ![2000, 16]⟩
abbrev S2000 : Shape := ⟨1, ![2000]⟩
abbrev S2000x17 : Shape := ⟨2, ![2000, 17]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S5x16 : Shape := ⟨2, ![5, 16]⟩
abbrev S1x1 : Shape := ⟨2, ![1, 1]⟩
abbrev S5120x16 : Shape := ⟨2, ![5120, 16]⟩
abbrev S5120x5 : Shape := ⟨2, ![5120, 5]⟩
abbrev S5120 : Shape := ⟨1, ![5120]⟩
abbrev S5120x1 : Shape := ⟨2, ![5120, 1]⟩

abbrev nBuf : Space → Nat
  | .hbm => 124
  | .vmem => 41
  | .smem => 0
  | _ => 0

abbrev bufTy : (tb : Table) → Fin (tcTables nBuf tb) → BufTy
  | .hbm, ⟨0, _⟩ => ⟨S100000x64, .i32⟩
  | .hbm, ⟨1, _⟩ => ⟨S100000x1, .f32⟩
  | .hbm, ⟨2, _⟩ => ⟨S2x3200000, .i32⟩
  | .hbm, ⟨3, _⟩ => ⟨S3200000x5, .f32⟩
  | .hbm, ⟨4, _⟩ => ⟨S100000, .i32⟩
  | .hbm, ⟨5, _⟩ => ⟨S6x16, .f32⟩
  | .hbm, ⟨6, _⟩ => ⟨S17x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S37x16, .f32⟩
  | .hbm, ⟨11, _⟩ => ⟨S16, .f32⟩
  | .hbm, ⟨12, _⟩ => ⟨S16x1, .f32⟩
  | .hbm, ⟨13, _⟩ => ⟨S1, .f32⟩
  | .hbm, ⟨14, _⟩ => ⟨S1x16, .f32⟩
  | .hbm, ⟨15, _⟩ => ⟨S100000x16, .f32⟩
  | .hbm, ⟨16, _⟩ => ⟨S1x3200000, .i32⟩
  | .hbm, ⟨17, _⟩ => ⟨S3200000, .i32⟩
  | .hbm, ⟨18, _⟩ => ⟨S1x3200000, .i32⟩
  | .hbm, ⟨19, _⟩ => ⟨S3200000, .i32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .i32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .i32⟩
  | .hbm, ⟨38, _⟩ => ⟨S3200000, .i1⟩
  | .hbm, ⟨39, _⟩ => ⟨S3200000, .f32⟩
  | .hbm, ⟨40, _⟩ => ⟨S_, .f32⟩
  | .hbm, ⟨41, _⟩ => ⟨S100000, .f32⟩
  | .hbm, ⟨42, _⟩ => ⟨S3200000x1, .i32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S_, .i32⟩
  | .hbm, ⟨55, _⟩ => ⟨S3200000, .i32⟩
  | .hbm, ⟨56, _⟩ => ⟨S3200000, .i1⟩
  | .hbm, ⟨57, _⟩ => ⟨S_, .i32⟩
  | .hbm, ⟨58, _⟩ => ⟨S3200000, .i32⟩
  | .hbm, ⟨59, _⟩ => ⟨S3200000, .i32⟩
  | .hbm, ⟨60, _⟩ => ⟨S3200000, .i32⟩
  | .hbm, ⟨61, _⟩ => ⟨S3200000x1, .i32⟩
  | .hbm, ⟨62, _⟩ => ⟨S3200000, .f32⟩
  | .hbm, ⟨63, _⟩ => ⟨S3200000, .f32⟩
  | .hbm, ⟨64, _⟩ => ⟨S3200000x1, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S3200000x16, .f32⟩
  | .hbm, ⟨74, _⟩ => ⟨S3200000x16, .f32⟩
  | .hbm, ⟨75, _⟩ => ⟨S3200000x16, .f32⟩
  | .hbm, ⟨76, _⟩ => ⟨S_, .f32⟩
  | .hbm, ⟨77, _⟩ => ⟨S100000x16, .f32⟩
  | .hbm, ⟨78, _⟩ => ⟨S3200000x1, .i32⟩
  | .hbm, ⟨79, _⟩ => ⟨S100000x16, .f32⟩
  | .hbm, ⟨80, _⟩ => ⟨S1x16, .f32⟩
  | .hbm, ⟨81, _⟩ => ⟨S100000x16, .f32⟩
  | .hbm, ⟨82, _⟩ => ⟨S_, .i32⟩
  | .hbm, ⟨83, _⟩ => ⟨S3200000, .i32⟩
  | .hbm, ⟨84, _⟩ => ⟨S3200000, .i1⟩
  | .hbm, ⟨85, _⟩ => ⟨S_, .i32⟩
  | .hbm, ⟨86, _⟩ => ⟨S3200000, .i32⟩
  | .hbm, ⟨87, _⟩ => ⟨S3200000, .i32⟩
  | .hbm, ⟨88, _⟩ => ⟨S3200000, .i32⟩
  | .hbm, ⟨89, _⟩ => ⟨S3200000x1, .i32⟩
  | .hbm, ⟨90, _⟩ => ⟨S3200000x16, .f32⟩
  | .hbm, ⟨91, _⟩ => ⟨S3200000x16, .f32⟩
  | .hbm, ⟨92, _⟩ => ⟨S3200000x16, .f32⟩
  | .hbm, ⟨93, _⟩ => ⟨S_, .f32⟩
  | .hbm, ⟨94, _⟩ => ⟨S100000x16, .f32⟩
  | .hbm, ⟨95, _⟩ => ⟨S3200000x1, .i32⟩
  | .hbm, ⟨96, _⟩ => ⟨S100000x16, .f32⟩
  | .hbm, ⟨97, _⟩ => ⟨S100000x16, .f32⟩
  | .hbm, ⟨98, _⟩ => ⟨S100000x16, .bf16⟩
  | .hbm, ⟨99, _⟩ => ⟨S_, .i32⟩
  | .hbm, ⟨100, _⟩ => ⟨S3200000, .i32⟩
  | .hbm, ⟨101, _⟩ => ⟨S3200000, .i1⟩
  | .hbm, ⟨102, _⟩ => ⟨S_, .i32⟩
  | .hbm, ⟨103, _⟩ => ⟨S3200000, .i32⟩
  | .hbm, ⟨104, _⟩ => ⟨S3200000, .i32⟩
  | .hbm, ⟨105, _⟩ => ⟨S3200000, .i32⟩
  | .hbm, ⟨106, _⟩ => ⟨S3200000x1, .i32⟩
  | .hbm, ⟨107, _⟩ => ⟨S3200000x16, .bf16⟩
  | .hbm, ⟨108, _⟩ => ⟨S_, .i32⟩
  | .hbm, ⟨109, _⟩ => ⟨S3200000, .i32⟩
  | .hbm, ⟨110, _⟩ => ⟨S3200000, .i1⟩
  | .hbm, ⟨111, _⟩ => ⟨S_, .i32⟩
  | .hbm, ⟨112, _⟩ => ⟨S3200000, .i32⟩
  | .hbm, ⟨113, _⟩ => ⟨S3200000, .i32⟩
  | .hbm, ⟨114, _⟩ => ⟨S3200000, .i32⟩
  | .hbm, ⟨115, _⟩ => ⟨S3200000x1, .i32⟩
  | .hbm, ⟨116, _⟩ => ⟨S3200000x16, .bf16⟩
  | .hbm, ⟨117, _⟩ => ⟨S3200000x5, .bf16⟩
  | .hbm, ⟨118, _⟩ => ⟨S16x16, .f32⟩
  | .hbm, ⟨119, _⟩ => ⟨S16x16, .f32⟩
  | .hbm, ⟨120, _⟩ => ⟨S5x16, .f32⟩
  | .hbm, ⟨121, _⟩ => ⟨S1x16, .f32⟩
  | .hbm, ⟨122, _⟩ => ⟨S1x1, .f32⟩
  | .hbm, ⟨123, _⟩ => ⟨S3200000, .f32⟩
  | .local _ .vmem, ⟨0, _⟩ => ⟨S2000x64, .i32⟩
  | .local _ .vmem, ⟨1, _⟩ => ⟨S2000x64, .i32⟩
  | .local _ .vmem, ⟨2, _⟩ => ⟨S2000x1, .f32⟩
  | .local _ .vmem, ⟨3, _⟩ => ⟨S2000x1, .f32⟩
  | .local _ .vmem, ⟨4, _⟩ => ⟨S6x16, .f32⟩
  | .local _ .vmem, ⟨5, _⟩ => ⟨S17x16, .f32⟩
  | .local _ .vmem, ⟨6, _⟩ => ⟨S1x16, .f32⟩
  | .local _ .vmem, ⟨7, _⟩ => ⟨S2000x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x1, .f32⟩
  | .local _ .vmem, ⟨14, _⟩ => ⟨S2000x1, .f32⟩
  | .local _ .vmem, ⟨15, _⟩ => ⟨S16x16, .f32⟩
  | .local _ .vmem, ⟨16, _⟩ => ⟨S1x16, .f32⟩
  | .local _ .vmem, ⟨17, _⟩ => ⟨S2000x16, .f32⟩
  | .local _ .vmem, ⟨18, _⟩ => ⟨S2000x16, .f32⟩
  | .local _ .vmem, ⟨19, _⟩ => ⟨S2000x16, .f32⟩
  | .local _ .vmem, ⟨20, _⟩ => ⟨S2000x16, .f32⟩
  | .local _ .vmem, ⟨21, _⟩ => ⟨S2000x16, .f32⟩
  | .local _ .vmem, ⟨22, _⟩ => ⟨S2000x16, .f32⟩
  | .local _ .vmem, ⟨23, _⟩ => ⟨S2000x1, .f32⟩
  | .local _ .vmem, ⟨24, _⟩ => ⟨S2000x1, .f32⟩
  | .local _ .vmem, ⟨25, _⟩ => ⟨S2000x16, .f32⟩
  | .local _ .vmem, ⟨26, _⟩ => ⟨S2000x16, .f32⟩
  | .local _ .vmem, ⟨27, _⟩ => ⟨S5120x16, .bf16⟩
  | .local _ .vmem, ⟨28, _⟩ => ⟨S5120x16, .bf16⟩
  | .local _ .vmem, ⟨29, _⟩ => ⟨S5120x16, .bf16⟩
  | .local _ .vmem, ⟨30, _⟩ => ⟨S5120x16, .bf16⟩
  | .local _ .vmem, ⟨31, _⟩ => ⟨S5120x5, .bf16⟩
  | .local _ .vmem, ⟨32, _⟩ => ⟨S5120x5, .bf16⟩
  | .local _ .vmem, ⟨33, _⟩ => ⟨S16x16, .f32⟩
  | .local _ .vmem, ⟨34, _⟩ => ⟨S16x16, .f32⟩
  | .local _ .vmem, ⟨35, _⟩ => ⟨S5x16, .f32⟩
  | .local _ .vmem, ⟨36, _⟩ => ⟨S1x16, .f32⟩
  | .local _ .vmem, ⟨37, _⟩ => ⟨S16x1, .f32⟩
  | .local _ .vmem, ⟨38, _⟩ => ⟨S1x1, .f32⟩
  | .local _ .vmem, ⟨39, _⟩ => ⟨S5120, .f32⟩
  | .local _ .vmem, ⟨40, _⟩ => ⟨S5120, .f32⟩
  | _, _ => ⟨S100000x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg9_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem9_0 : DmaSem sig := 39
abbrev cc3_sem9_1 : DmaSem sig := 40

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S17x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![625], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S5120x16 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5120x16 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5120x5 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S5x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5120 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  shapeCasts_S16_S1x16 : S16.ShapeCasts S1x16
  inb_S2000x64_S2000x64_0_0 : ∀ a, (![0, 0] : Fin 2 → Nat) a + S2000x64.size a ≤ S2000x64.size a
  h_S2000x64 : 0 < S2000x64.numel
  natLt_1_32 : 1 < 32
  reduces_S2000x64_S2000 : S2000x64.Reduces [1] S2000
  shapeCasts_S2000_S2000x1 : S2000.ShapeCasts S2000x1
  inb_S6x16_S1x16_1_0 : ∀ a, (![1, 0] : Fin 2 → Nat) a + S1x16.size a ≤ S6x16.size a
  h_S1x16 : 0 < S1x16.numel
  shapeCasts_S1x16_S16 : S1x16.ShapeCasts S16
  broadcasts_S2000x1_S2000x16 : S2000x1.Broadcasts S2000x16
  broadcasts_S1x16_S2000x16 : S1x16.Broadcasts S2000x16
  inb_S6x16_S1x16_2_0 : ∀ a, (![2, 0] : Fin 2 → Nat) a + S1x16.size a ≤ S6x16.size a
  inb_S6x16_S1x16_3_0 : ∀ a, (![3, 0] : Fin 2 → Nat) a + S1x16.size a ≤ S6x16.size a
  inb_S6x16_S1x16_4_0 : ∀ a, (![4, 0] : Fin 2 → Nat) a + S1x16.size a ≤ S6x16.size a
  inb_S6x16_S1x16_5_0 : ∀ a, (![5, 0] : Fin 2 → Nat) a + S1x16.size a ≤ S6x16.size a
  inb_S2000x1_S2000x1_0_0 : ∀ a, (![0, 0] : Fin 2 → Nat) a + S2000x1.size a ≤ S2000x1.size a
  h_S2000x1 : 0 < S2000x1.numel
  concatenates_S2000x16_S2000x1_S2000x17_d1 : Shape.Concatenates [S2000x16, S2000x1] S2000x17 1
  bitsLt_bf16_f32 : FTy.bits .bf16 < FTy.bits .f32
  inb_S17x16_S17x16_0_0 : ∀ a, (![0, 0] : Fin 2 → Nat) a + S17x16.size a ≤ S17x16.size a
  h_S17x16 : 0 < S17x16.numel
  inb_S1x16_S1x16_0_0 : ∀ a, (![0, 0] : Fin 2 → Nat) a + S1x16.size a ≤ S1x16.size a
  shapeCasts_S1x16_S1x16 : S1x16.ShapeCasts S1x16
  inb_S2000x16_S2000x16_0_0 : ∀ a, (![0, 0] : Fin 2 → Nat) a + S2000x16.size a ≤ S2000x16.size a
  h_S2000x16 : 0 < S2000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  shapeCasts_S100000_S100000x1 : S100000.ShapeCasts S100000x1
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S2000x1_S2000x1 : S2000x1.ShapeCasts S2000x1
  shapeCasts_S2000x16_S2000x16 : S2000x16.ShapeCasts S2000x16
  inb_S16x16_S16x16_0_0 : ∀ a, (![0, 0] : Fin 2 → Nat) a + S16x16.size a ≤ S16x16.size a
  h_S16x16 : 0 < S16x16.numel
  slices_S37x16_S16x16_0_0 : S37x16.Slices ![0, 0] S16x16
  slices_S37x16_S16x16_16_0 : S37x16.Slices ![16, 0] S16x16
  slices_S37x16_S5x16_32_0 : S37x16.Slices ![32, 0] S5x16
  shapeCasts_S1_S1x1 : S1.ShapeCasts S1x1
  inb_S5120x16_S5120x16_0_0 : ∀ a, (![0, 0] : Fin 2 → Nat) a + S5120x16.size a ≤ S5120x16.size a
  h_S5120x16 : 0 < S5120x16.numel
  shapeCasts_S5120x16_S5120x16 : S5120x16.ShapeCasts S5120x16
  inb_S5120x5_S5120x5_0_0 : ∀ a, (![0, 0] : Fin 2 → Nat) a + S5120x5.size a ≤ S5120x5.size a
  h_S5120x5 : 0 < S5120x5.numel
  shapeCasts_S5120x5_S5120x5 : S5120x5.ShapeCasts S5120x5
  shapeCasts_S16x16_S16x16 : S16x16.ShapeCasts S16x16
  inb_S5x16_S5x16_0_0 : ∀ a, (![0, 0] : Fin 2 → Nat) a + S5x16.size a ≤ S5x16.size a
  h_S5x16 : 0 < S5x16.numel
  shapeCasts_S5x16_S5x16 : S5x16.ShapeCasts S5x16
  broadcasts_S1x16_S5120x16 : S1x16.Broadcasts S5120x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5120x1 : S1x1.Broadcasts S5120x1
  shapeCasts_S5120x1_S5120 : S5120x1.ShapeCasts S5120
  inb_S5120_S5120_0 : ∀ a, (![0] : Fin 1 → Nat) a + S5120.size a ≤ S5120.size a
  h_S5120 : 0 < S5120.numel
  dot_S2000x17_S17x16_S2000x16_1_0_0_1_n_n_wf : DotDims.WF S2000x17 S17x16 S2000x16 [1] [0] [0] [1] [] []
  gather_S100000_S3200000x1_S3200000_n_0_n_n_0_1_1_wf : GatherDims.WF S100000 S3200000x1 S3200000 [] [0] [] [0] [] 1 ![1]
  scatter_S100000_S3200000x1_S3200000_n_0_0_1_wf : ScatterDims.WF S100000 S3200000x1 S3200000 [] [0] [0] 1
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x16_S2000x16_1_0_0_1_n_n_wf : DotDims.WF S2000x16 S16x16 S2000x16 [1] [0] [0] [1] [] []
  dot_S5120x16_S16x16_S5120x16_1_0_0_1_n_n_wf : DotDims.WF S5120x16 S16x16 S5120x16 [1] [0] [0] [1] [] []
  dot_S5120x5_S5x16_S5120x16_1_0_0_1_n_n_wf : DotDims.WF S5120x5 S5x16 S5120x16 [1] [0] [0] [1] [] []
  dot_S5120x16_S16x1_S5120x1_1_0_0_1_n_n_wf : DotDims.WF S5120x16 S16x1 S5120x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .i32 = 32 ∨ (Rect.block (s := S100000x64) S2000x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x16.size a ≤ S6x16.size a
  hwx0_2 : ∀ i : grid0.Coords, EltTy.bits .f32 = 32 ∨ (Rect.block (s := S6x16) S6x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S17x16.size a ≤ S17x16.size a
  hwx0_3 : ∀ i : grid0.Coords, EltTy.bits .f32 = 32 ∨ (Rect.block (s := S17x16) S17x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x16.size a ≤ S100000x16.size a
  hwx0_5 : ∀ i : grid0.Coords, EltTy.bits .f32 = 32 ∨ (Rect.block (s := S100000x16) S2000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x16.size a ≤ S100000x16.size a
  hwx1_5 : ∀ i : grid1.Coords, EltTy.bits .f32 = 32 ∨ (Rect.block (s := S100000x16) S2000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x16.size a ≤ S100000x16.size a
  hwx2_1 : ∀ i : grid2.Coords, EltTy.bits .f32 = 32 ∨ (Rect.block (s := S100000x16) S2000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x16.size a ≤ S100000x16.size a
  hwx2_3 : ∀ i : grid2.Coords, EltTy.bits .f32 = 32 ∨ (Rect.block (s := S100000x16) S2000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5120x16.size a ≤ S3200000x16.size a
  hwx3_0 : ∀ i : grid3.Coords, EltTy.bits .bf16 = 32 ∨ (Rect.block (s := S3200000x16) S5120x16.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5120x16.size a ≤ S3200000x16.size a
  hwx3_1 : ∀ i : grid3.Coords, EltTy.bits .bf16 = 32 ∨ (Rect.block (s := S3200000x16) S5120x16.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5120x5.size a ≤ S3200000x5.size a
  hwx3_2 : ∀ i : grid3.Coords, EltTy.bits .bf16 = 32 ∨ (Rect.block (s := S3200000x5) S5120x5.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x16.size a ≤ S16x16.size a
  hwx3_4 : ∀ i : grid3.Coords, EltTy.bits .f32 = 32 ∨ (Rect.block (s := S16x16) S16x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S5x16.size a ≤ S5x16.size a
  hwx3_5 : ∀ i : grid3.Coords, EltTy.bits .f32 = 32 ∨ (Rect.block (s := S5x16) S5x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x16.size a ≤ S1x16.size a
  hwx3_6 : ∀ i : grid3.Coords, EltTy.bits .f32 = 32 ∨ (Rect.block (s := S1x16) S1x16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S16x1.size a ≤ S16x1.size a
  hwx3_7 : ∀ i : grid3.Coords, EltTy.bits .f32 = 32 ∨ (Rect.block (s := S16x1) S16x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5120.size a ≤ S3200000.size a
  hwx3_9 : ∀ i : grid3.Coords, EltTy.bits .f32 = 32 ∨ (Rect.block (s := S3200000) S5120.size (cc3_transform_9 i) (hinb3_9 i)).WholeWords (EltTy.packing .f32)

variable [Facts₀]

def dot_S2000x17_S17x16_S2000x16_1_0_0_1_n_n : DotDims S2000x17 S17x16 S2000x16 where
  lhsContracting := [1]
  rhsContracting := [0]
  lhsNonContracting := [0]
  rhsNonContracting := [1]
  lhsBatch := []
  rhsBatch := []
  wf := dot_S2000x17_S17x16_S2000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf
def dot_S5120x16_S16x16_S5120x16_1_0_0_1_n_n : DotDims S5120x16 S16x16 S5120x16 where
  lhsContracting := [1]
  rhsContracting := [0]
  lhsNonContracting := [0]
  rhsNonContracting := [1]
  lhsBatch := []
  rhsBatch := []
  wf := dot_S5120x16_S16x16_S5120x16_1_0_0_1_n_n_wf
def dot_S5120x5_S5x16_S5120x16_1_0_0_1_n_n : DotDims S5120x5 S5x16 S5120x16 where
  lhsContracting := [1]
  rhsContracting := [0]
  lhsNonContracting := [0]
  rhsNonContracting := [1]
  lhsBatch := []
  rhsBatch := []
  wf := dot_S5120x5_S5x16_S5120x16_1_0_0_1_n_n_wf
def dot_S5120x16_S16x1_S5120x1_1_0_0_1_n_n : DotDims S5120x16 S16x1 S5120x1 where
  lhsContracting := [1]
  rhsContracting := [0]
  lhsNonContracting := [0]
  rhsNonContracting := [1]
  lhsBatch := []
  rhsBatch := []
  wf := dot_S5120x16_S16x1_S5120x1_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S6x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S17x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v52) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S2000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S2000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S2000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S5120x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S5120x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S5120x5.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v84) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S16x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86) S5x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v87) S1x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg12) S16x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v88) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v89) S5120.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x64 : Shape := ⟨2, ![100000, 64]⟩
abbrev S100000x1 : Shape := ⟨2, ![100000, 1]⟩
abbrev S2x3200000 : Shape := ⟨2, ![2, 3200000]⟩
abbrev S3200000x5 : Shape := ⟨2, ![3200000, 5]⟩
abbrev S100000 : Shape := ⟨1, ![100000]⟩
abbrev S6x16 : Shape := ⟨2, ![6, 16]⟩
abbrev S17x16 : Shape := ⟨2, ![17, 16]⟩
abbrev S16 : Shape := ⟨1, ![16]⟩
abbrev S16x16 : Shape := ⟨2, ![16, 16]⟩
abbrev S37x16 : Shape := ⟨2, ![37, 16]⟩
abbrev S16x1 : Shape := ⟨2, ![16, 1]⟩
abbrev S1 : Shape := ⟨1, ![1]⟩
abbrev S_ : Shape := ⟨0, ![]⟩
abbrev S100000x64x1 : Shape := ⟨3, ![100000, 64, 1]⟩
abbrev S100000x64x16 : Shape := ⟨3, ![100000, 64, 16]⟩
abbrev S100000x16 : Shape := ⟨2, ![100000, 16]⟩
abbrev S100000x17 : Shape := ⟨2, ![100000, 17]⟩
abbrev S1x3200000 : Shape := ⟨2, ![1, 3200000]⟩
abbrev S3200000 : Shape := ⟨1, ![3200000]⟩
abbrev S3200000x1 : Shape := ⟨2, ![3200000, 1]⟩
abbrev S1x16 : Shape := ⟨2, ![1, 16]⟩
abbrev S3200000x16 : Shape := ⟨2, ![3200000, 16]⟩
abbrev S3200000x37 : Shape := ⟨2, ![3200000, 37]⟩
abbrev S1x1 : Shape := ⟨2, ![1, 1]⟩

abbrev nBuf : Space → Nat
  | .hbm => 188
  | .vmem => 0
  | .smem => 0
  | _ => 0

abbrev hbmTy0_0 (i : Nat) : BufTy := match i % 128 with
  | 0 => ⟨S100000x64, .i32⟩
  | 1 => ⟨S100000x1, .f32⟩
  | 2 => ⟨S2x3200000, .i32⟩
  | 3 => ⟨S3200000x5, .f32⟩
  | 4 => ⟨S100000, .i32⟩
  | 5 => ⟨S6x16, .f32⟩
  | 6 => ⟨S17x16, .f32⟩
  | 7 => ⟨S16, .f32⟩
  | 8 => ⟨S16x16, .f32⟩
  | 9 => ⟨S16, .f32⟩
  | 10 => ⟨S37x16, .f32⟩
  | 11 => ⟨S16, .f32⟩
  | 12 => ⟨S16x1, .f32⟩
  | 13 => ⟨S1, .f32⟩
  | 14 => ⟨S_, .i32⟩
  | 15 => ⟨S100000x64, .i32⟩
  | 16 => ⟨S100000x64, .i1⟩
  | 17 => ⟨S_, .i32⟩
  | 18 => ⟨S100000x64, .i32⟩
  | 19 => ⟨S100000x64, .i32⟩
  | 20 => ⟨S100000x64, .i32⟩
  | 21 => ⟨S100000x64x1, .i32⟩
  | 22 => ⟨S100000x64x16, .f32⟩
  | 23 => ⟨S_, .i32⟩
  | 24 => ⟨S100000x64, .i32⟩
  | 25 => ⟨S100000x64, .i1⟩
  | 26 => ⟨S100000x64, .f32⟩
  | 27 => ⟨S100000x64x1, .f32⟩
  | 28 => ⟨S_, .f32⟩
  | 29 => ⟨S100000x1, .f32⟩
  | 30 => ⟨S_, .f32⟩
  | 31 => ⟨S100000x1, .f32⟩
  | 32 => ⟨S100000x1, .f32⟩
  | 33 => ⟨S100000x64x16, .f32⟩
  | 34 => ⟨S100000x64x16, .f32⟩
  | 35 => ⟨S_, .f32⟩
  | 36 => ⟨S100000x16, .f32⟩
  | 37 => ⟨S100000x16, .f32⟩
  | 38 => ⟨S100000x16, .f32⟩
  | 39 => ⟨S100000x17, .f32⟩
  | 40 => ⟨S1x3200000, .i32⟩
  | 41 => ⟨S3200000, .i32⟩
  | 42 => ⟨S1x3200000, .i32⟩
  | 43 => ⟨S3200000, .i32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000, .i32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S3200000, .i32⟩
  | 62 => ⟨S3200000, .i1⟩
  | 63 => ⟨S3200000, .f32⟩
  | 64 => ⟨S_, .f32⟩
  | 65 => ⟨S100000, .f32⟩
  | 66 => ⟨S3200000x1, .i32⟩
  | 67 => ⟨S100000, .f32⟩
  | 68 => ⟨S_, .f32⟩
  | 69 => ⟨S100000, .f32⟩
  | 70 => ⟨S100000, .f32⟩
  | 71 => ⟨S_, .f32⟩
  | 72 => ⟨S100000, .f32⟩
  | 73 => ⟨S100000, .f32⟩
  | 74 => ⟨S_, .f32⟩
  | 75 => ⟨S100000, .f32⟩
  | 76 => ⟨S100000, .f32⟩
  | 77 => ⟨S100000x16, .f32⟩
  | 78 => ⟨S1x16, .f32⟩
  | 79 => ⟨S100000x16, .f32⟩
  | 80 => ⟨S100000x16, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000, .f32⟩
  | 90 => ⟨S3200000, .f32⟩
  | 91 => ⟨S3200000x1, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x16, .f32⟩
  | 101 => ⟨S3200000x16, .f32⟩
  | 102 => ⟨S3200000x16, .f32⟩
  | 103 => ⟨S_, .f32⟩
  | 104 => ⟨S100000x16, .f32⟩
  | 105 => ⟨S3200000x1, .i32⟩
  | 106 => ⟨S100000x16, .f32⟩
  | 107 => ⟨S100000x1, .f32⟩
  | 108 => ⟨S100000x1, .f32⟩
  | 109 => ⟨S100000x16, .f32⟩
  | 110 => ⟨S100000x16, .f32⟩
  | 111 => ⟨S100000x16, .f32⟩
  | 112 => ⟨S100000x16, .f32⟩
  | 113 => ⟨S100000x16, .f32⟩
  | 114 => ⟨S_, .f32⟩
  | 115 => ⟨S100000x16, .f32⟩
  | 116 => ⟨S100000x16, .f32⟩
  | 117 => ⟨S100000x16, .f32⟩
  | 118 => ⟨S1x16, .f32⟩
  | 119 => ⟨S100000x16, .f32⟩
  | 120 => ⟨S100000x16, .f32⟩
  | 121 => ⟨S_, .i32⟩
  | 122 => ⟨S3200000, .i32⟩
  | 123 => ⟨S3200000, .i1⟩
  | 124 => ⟨S_, .i32⟩
  | 125 => ⟨S3200000, .i32⟩
  | 126 => ⟨S3200000, .i32⟩
  | 127 => ⟨S3200000, .i32⟩
  | _ => ⟨S100000x64, .i32⟩

abbrev hbmTy0_1 (i : Nat) : BufTy := match i % 128 with
  | 0 => ⟨S3200000x1, .i32⟩
  | 1 => ⟨S3200000, .f32⟩
  | 2 => ⟨S3200000, .f32⟩
  | 3 => ⟨S3200000x1, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000x16, .f32⟩
  | 13 => ⟨S3200000x16, .f32⟩
  | 14 => ⟨S3200000x16, .f32⟩
  | 15 => ⟨S_, .f32⟩
  | 16 => ⟨S100000x16, .f32⟩
  | 17 => ⟨S3200000x1, .i32⟩
  | 18 => ⟨S100000x16, .f32⟩
  | 19 => ⟨S100000x1, .f32⟩
  | 20 => ⟨S100000x1, .f32⟩
  | 21 => ⟨S100000x16, .f32⟩
  | 22 => ⟨S100000x16, .f32⟩
  | 23 => ⟨S100000x16, .f32⟩
  | 24 => ⟨S100000x16, .f32⟩
  | 25 => ⟨S100000x16, .f32⟩
  | 26 => ⟨S_, .f32⟩
  | 27 => ⟨S100000x16, .f32⟩
  | 28 => ⟨S100000x16, .f32⟩
  | 29 => ⟨S_, .i32⟩
  | 30 => ⟨S3200000, .i32⟩
  | 31 => ⟨S3200000, .i1⟩
  | 32 => ⟨S_, .i32⟩
  | 33 => ⟨S3200000, .i32⟩
  | 34 => ⟨S3200000, .i32⟩
  | 35 => ⟨S3200000, .i32⟩
  | 36 => ⟨S3200000x1, .i32⟩
  | 37 => ⟨S3200000x16, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000x16, .f32⟩
  | 47 => ⟨S3200000x37, .f32⟩
  | 48 => ⟨S3200000x16, .f32⟩
  | 49 => ⟨S1x16, .f32⟩
  | 50 => ⟨S3200000x16, .f32⟩
  | 51 => ⟨S3200000x16, .f32⟩
  | 52 => ⟨S_, .f32⟩
  | 53 => ⟨S3200000x16, .f32⟩
  | 54 => ⟨S3200000x16, .f32⟩
  | 55 => ⟨S3200000x1, .f32⟩
  | 56 => ⟨S1x1, .f32⟩
  | 57 => ⟨S3200000x1, .f32⟩
  | 58 => ⟨S3200000x1, .f32⟩
  | 59 => ⟨S3200000, .f32⟩
  | _ => ⟨S100000x64, .i32⟩

abbrev hbmTy (i : Nat) : BufTy := match i / 128 with
  | 0 => hbmTy0_0 i
  | 1 => hbmTy0_1 i
  | _ => ⟨S100000x64, .i32⟩

abbrev bufTy : (tb : Table) → Fin (tcTables nBuf tb) → BufTy
  | .hbm, ⟨i, _⟩ => hbmTy i
  | _, _ => ⟨S100000x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_c_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call0_cst : Ref sig .tc := ⟨.hbm, 114, rfl⟩
abbrev main_call0_v0 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_17 : Ref sig .tc := ⟨.hbm, 121, rfl⟩
abbrev main_v86 : Ref sig .tc := ⟨.hbm, 122, rfl⟩
abbrev main_v87 : Ref sig .tc := ⟨.hbm, 123, rfl⟩
abbrev main_c_18 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_19 : Ref sig .tc := ⟨.hbm, 132, rfl⟩
abbrev main_v95 : Ref sig .tc := ⟨.hbm, 133, rfl⟩
abbrev main_v96 : Ref sig .tc := ⟨.hbm, 134, rfl⟩
abbrev main_c_20 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_21 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_call1_cst : Ref sig .tc := ⟨.hbm, 154, rfl⟩
abbrev main_call1_v0 : Ref sig .tc := ⟨.hbm, 155, rfl⟩
abbrev main_v114 : Ref sig .tc := ⟨.hbm, 156, rfl⟩
abbrev main_c_22 : Ref sig .tc := ⟨.hbm, 157, rfl⟩
abbrev main_v115 : Ref sig .tc := ⟨.hbm, 158, rfl⟩
abbrev main_v116 : Ref sig .tc := ⟨.hbm, 159, rfl⟩
abbrev main_c_23 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_c_24 : Ref sig .tc := ⟨.hbm, 166, rfl⟩
abbrev main_v122 : Ref sig .tc := ⟨.hbm, 167, rfl⟩
abbrev main_v123 : Ref sig .tc := ⟨.hbm, 168, rfl⟩
abbrev main_c_25 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_call2_cst : Ref sig .tc := ⟨.hbm, 180, rfl⟩
abbrev main_call2_v0 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S100000x64_S100000x64x1_0_1 : S100000x64.BroadcastsInDim S100000x64x1 (![0, 1] : Fin 2 → Fin S100000x64x1.rank)
  reducesTo_S100000x64x1_S100000x1_d1 : S100000x64x1.ReducesTo [1] S100000x1
  h_S_ : 0 < S_.numel
  bcast_S_S100000x1 : S_.BroadcastsInDim S100000x1 (![] : Fin 0 → Fin S100000x1.rank)
  bcast_S100000x64x1_S100000x64x16_0_1_2 : S100000x64x1.BroadcastsInDim S100000x64x16 (![0, 1, 2] : Fin 3 → Fin S100000x64x16.rank)
  reducesTo_S100000x64x16_S100000x16_d1 : S100000x64x16.ReducesTo [1] S100000x16
  bcast_S100000x1_S100000x16_0_1 : S100000x1.BroadcastsInDim S100000x16 (![0, 1] : Fin 2 → Fin S100000x16.rank)
  concatenates_S100000x16_S100000x1_S100000x17_d1 : Shape.Concatenates [S100000x16, S100000x1] S100000x17 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  concatenates_S3200000x16_S3200000x16_S3200000x5_S3200000x37_d1 : Shape.Concatenates [S3200000x16, S3200000x16, S3200000x5] S3200000x37 1
  bcast_S1x16_S3200000x16_0_1 : S1x16.BroadcastsInDim S3200000x16 (![0, 1] : Fin 2 → Fin S3200000x16.rank)
  bcast_S_S3200000x16 : S_.BroadcastsInDim S3200000x16 (![] : Fin 0 → Fin S3200000x16.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  shapeCasts_S3200000x1_S3200000 : S3200000x1.ShapeCasts S3200000
  gather_S6x16_S100000x64x1_S100000x64x16_2_0_n_n_0_2_116_wf : GatherDims.WF S6x16 S100000x64x1 S100000x64x16 [2] [0] [] [0] [] 2 ![1, 16]
  gather_S100000_S3200000x1_S3200000_n_0_n_n_0_1_1_wf : GatherDims.WF S100000 S3200000x1 S3200000 [] [0] [] [0] [] 1 ![1]
  scatter_S100000_S3200000x1_S3200000_n_0_0_1_wf : ScatterDims.WF S100000 S3200000x1 S3200000 [] [0] [0] 1
  dot_S100000x17_S17x16_S100000x16_1_0_0_1_n_n_wf : DotDims.WF S100000x17 S17x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S3200000x37_S37x16_S3200000x16_1_0_0_1_n_n_wf : DotDims.WF S3200000x37 S37x16 S3200000x16 [1] [0] [0] [1] [] []
  dot_S3200000x16_S16x1_S3200000x1_1_0_0_1_n_n_wf : DotDims.WF S3200000x16 S16x1 S3200000x1 [1] [0] [0] [1] [] []

variable [Facts₀]

def gather_S6x16_S100000x64x1_S100000x64x16_2_0_n_n_0_2_116 : GatherDims S6x16 S100000x64x1 S100000x64x16 where
  offsetDims := [2]
  collapsedSliceDims := [0]
  operandBatchingDims := []
  startIndicesBatchingDims := []
  startIndexMap := [0]
  indexVectorDim := 2
  sliceSizes := ![1, 16]
  wf := gather_S6x16_S100000x64x1_S100000x64x16_2_0_n_n_0_2_116_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x17_S17x16_S100000x16_1_0_0_1_n_n : DotDims S100000x17 S17x16 S100000x16 where
  lhsContracting := [1]
  rhsContracting := [0]
  lhsNonContracting := [0]
  rhsNonContracting := [1]
  lhsBatch := []
  rhsBatch := []
  wf := dot_S100000x17_S17x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S3200000x37_S37x16_S3200000x16_1_0_0_1_n_n : DotDims S3200000x37 S37x16 S3200000x16 where
  lhsContracting := [1]
  rhsContracting := [0]
  lhsNonContracting := [0]
  rhsNonContracting := [1]
  lhsBatch := []
  rhsBatch := []
  wf := dot_S3200000x37_S37x16_S3200000x16_1_0_0_1_n_n_wf
def dot_S3200000x16_S16x1_S3200000x1_1_0_0_1_n_n : DotDims S3200000x16 S16x1 S3200000x1 where
  lhsContracting := [1]
  rhsContracting := [0]
  lhsNonContracting := [0]
  rhsNonContracting := [1]
  lhsBatch := []
  rhsBatch := []
  wf := dot_S3200000x16_S16x1_S3200000x1_1_0_0_1_n_n_wf

class Facts : Prop extends Facts₀ where

variable [Facts]
-- ==== Proof.Spec.lean ====
/-
  The functions both programs compute, index by index on the extended reals, over the literal shapes.

  Node encoding: a node's 64 tokens pick rows of the 6-row embedding table (a token past the table reads the last
  row; token 0 is padding and is masked out), the rows are added and divided by the number of unmasked tokens (at least 1);
  the covariate is appended as a 17th feature and a 17 x 16 matrix and a bias are applied.  The kernel reaches the same
  sum through a histogram: it counts, per node, the tokens equal to 1, 2, 3, 4 and the tokens at least 5, and adds count
  times row.  Graph layers: relu (dinv * (agg + dinv * M)), then a 16 x 16 matrix and a bias.  Edge scores: the two end
  nodes' features and the 5 edge attributes meet the three row blocks of a 37 x 16 matrix, a bias, relu, a 16 x 1
  matrix and a bias.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal
/-- The token array. -/
abbrev Tok : Type := (⟨2, ![100000, 64]⟩ : Shape).Idx → BitVec 32

/-- A rank-2 array from its entries by coordinates. -/
def arr2 {a b : Nat} (f : Fin a → Fin b → EReal) : A2 a b := fun i => f ⟨(i 0).val, idx2_lt0 i⟩ ⟨(i 1).val, idx2_lt1 i⟩
/-- A rank-1 array from its entries. -/
def arr1 {a : Nat} (f : Fin a → EReal) : A1 a := fun i => f ⟨(i 0).val, (i 0).isLt⟩

/-- The f32 words the programs carry: 0, 1 and 64. -/
def c0 : EReal := Ideal.ofBits .f32 0x00000000#32
def c1 : EReal := Ideal.ofBits .f32 0x3F800000#32
def c64 : EReal := Ideal.ofBits .f32 0x42800000#32

/-- 1 where a condition holds, 0 elsewhere. -/
def ind (p : Prop) [Decidable p] : EReal := if p then 1 else 0

/-! ## Node encoding, as the reference sums it -/

/-- The table row a token reads: the token itself, clamped to the last row. -/
def tokRow (t : BitVec 32) : Fin 6 := ⟨min t.toInt.toNat 5, by omega⟩

/-- The masked mean of a node's token embeddings. -/
def hseq (tok : Tok) (embed : A2 6 16) (n : Fin 100000) (j : Fin 16) : EReal :=
  Ideal.div (∑ l : Fin 64, embed (ix2 (tokRow (tok (ix2 n l))) j) * ind (tok (ix2 n l) ≠ 0#32))
    (max (∑ l : Fin 64, ind (tok (ix2 n l) ≠ 0#32)) c1)

/-- A node's 17 features: the 16 sequence features, then the covariate. -/
def feat (tok : Tok) (xcov : A2 100000 1) (embed : A2 6 16) (n : Fin 100000) (k : Fin 17) : EReal :=
  if h : k.val < 16 then hseq tok embed n ⟨k.val, h⟩ else xcov (ix2 n 0)

def m1At (tok : Tok) (xcov : A2 100000 1) (embed : A2 6 16) (w1 : A2 17 16) (b1r : A2 1 16) (n : Fin 100000) (j : Fin 16) : EReal :=
  (∑ k : Fin 17, feat tok xcov embed n k * w1 (ix2 k j)) + b1r (ix2 0 j)

/-- The first dense layer of the encoded nodes. -/
def m1 (tok : Tok) (xcov : A2 100000 1) (embed : A2 6 16) (w1 : A2 17 16) (b1r : A2 1 16) : A2 100000 16 :=
  arr2 (m1At tok xcov embed w1 b1r)

/-! ## Node encoding, as the kernel sums it: a histogram of the tokens -/

/-- How many of a node's tokens satisfy `p`. -/
def cnt (tok : Tok) (p : BitVec 32 → Prop) [DecidablePred p] (n : Fin 100000) : EReal :=
  ∑ l : Fin 64, ind (p (tok (ix2 n l)))

/-- Count times row, over the buckets 1, 2, 3, 4 and "at least 5", added in that order onto zero. -/
def accK (tok : Tok) (embed : A2 6 16) (n : Fin 100000) (j : Fin 16) : EReal :=
  ((((c0 + cnt tok (fun t => t = 1#32) n * embed (ix2 1 j)) + cnt tok (fun t => t = 2#32) n * embed (ix2 2 j))
      + cnt tok (fun t => t = 3#32) n * embed (ix2 3 j)) + cnt tok (fun t => t = 4#32) n * embed (ix2 4 j))
    + cnt tok (fun t => (5 : Int) ≤ t.toInt) n * embed (ix2 5 j)

def hseqK (tok : Tok) (embed : A2 6 16) (n : Fin 100000) (j : Fin 16) : EReal :=
  Ideal.div (accK tok embed n j) (max (c64 - cnt tok (fun t => t = 0#32) n) c1)

def featK (tok : Tok) (xcov : A2 100000 1) (embed : A2 6 16) (n : Fin 100000) (k : Fin 17) : EReal :=
  if h : k.val < 16 then hseqK tok embed n ⟨k.val, h⟩ else xcov (ix2 n 0)

def m1KAt (tok : Tok) (xcov : A2 100000 1) (embed : A2 6 16) (w1 : A2 17 16) (b1r : A2 1 16) (n : Fin 100000) (j : Fin 16) : EReal :=
  (∑ k : Fin 17, featK tok xcov embed n k * w1 (ix2 k j)) + b1r (ix2 0 j)

def m1K (tok : Tok) (xcov : A2 100000 1) (embed : A2 6 16) (w1 : A2 17 16) (b1r : A2 1 16) : A2 100000 16 :=
  arr2 (m1KAt tok xcov embed w1 b1r)

/-! ## A graph layer's closing step, and the dense layer after it -/

def finAt (agg M : A2 100000 16) (dinv2 : A2 100000 1) (n : Fin 100000) (k : Fin 16) : EReal :=
  max (dinv2 (ix2 n 0) * (agg (ix2 n k) + dinv2 (ix2 n 0) * M (ix2 n k))) c0

/-- relu (dinv * (agg + dinv * M)). -/
def hfin (agg M : A2 100000 16) (dinv2 : A2 100000 1) : A2 100000 16 := arr2 (finAt agg M dinv2)

def m2At (agg M : A2 100000 16) (dinv2 : A2 100000 1) (w2 : A2 16 16) (b2r : A2 1 16) (n : Fin 100000) (j : Fin 16) : EReal :=
  (∑ k : Fin 16, finAt agg M dinv2 n k * w2 (ix2 k j)) + b2r (ix2 0 j)

/-- relu (dinv * (agg + dinv * M)) times a 16 x 16 matrix, plus a bias. -/
def m2 (agg M : A2 100000 16) (dinv2 : A2 100000 1) (w2 : A2 16 16) (b2r : A2 1 16) : A2 100000 16 :=
  arr2 (m2At agg M dinv2 w2 b2r)

/-! ## The edge scores -/

def hidAt (Hs Hd : A2 3200000 16) (ea : A2 3200000 5) (ws wd : A2 16 16) (we : A2 5 16) (be1r : A2 1 16)
    (e : Fin 3200000) (j : Fin 16) : EReal :=
  max ((((∑ k : Fin 16, Hs (ix2 e k) * ws (ix2 k j)) + (∑ k : Fin 16, Hd (ix2 e k) * wd (ix2 k j)))
      + (∑ k : Fin 5, ea (ix2 e k) * we (ix2 k j))) + be1r (ix2 0 j)) c0

def logitAt (Hs Hd : A2 3200000 16) (ea : A2 3200000 5) (ws wd : A2 16 16) (we : A2 5 16) (be1r : A2 1 16)
    (we2 : A2 16 1) (be2r : A2 1 1) (e : Fin 3200000) : EReal :=
  (∑ j : Fin 16, hidAt Hs Hd ea ws wd we be1r e j * we2 (ix2 j 0)) + be2r (ix2 0 0)

def logit (Hs Hd : A2 3200000 16) (ea : A2 3200000 5) (ws wd : A2 16 16) (we : A2 5 16) (be1r : A2 1 16)
    (we2 : A2 16 1) (be2r : A2 1 1) : A1 3200000 :=
  arr1 (logitAt Hs Hd ea ws wd we be1r we2 be2r)

/-! ## The same data in another layout -/

/-- A vector as a one-row matrix. -/
def row {a : Nat} (b : A1 a) : A2 1 a := fun i => b (ix1 ⟨(i 1).val, idx2_lt1 i⟩)
/-- A vector as a one-column matrix. -/
def col {a : Nat} (d : A1 a) : A2 a 1 := fun i => d (ix1 ⟨(i 0).val, idx2_lt0 i⟩)
/-- Rows `off … off + n − 1` of a 37-row matrix. -/
def rows (w : A2 37 16) (off n : Nat) (h : off + n ≤ 37) : A2 n 16 :=
  fun i => w (ix2 ⟨off + (i 0).val, by have := idx2_lt0 i; omega⟩ ⟨(i 1).val, idx2_lt1 i⟩)

end Cert.Spec

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.HostK.lean ====
import proofs.«411721_j41652592837293_3_alg».proof.Proof.Gen.KernelIdeal.Frame
import proofs.«411721_j41652592837293_3_alg».proof.Proof.Spec
import Idealize.ShloMosaic.Lib.StableHlo.Run
import Idealize.ShloMosaic.Lib.Pipeline.Value
import Idealize.ShloMosaic.Lib.ValueIdx
import Idealize.ShloMosaic.Lib.ValueLayout
import proofs.«411721_j41652592837293_3_alg».proof.Proof.LibKeepdims

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostK
open Cert.KernelIdeal Cert.KernelIdeal.Gen

variable (m : (ℓ : Loc nD τ sig) → Buf (Elt Ideal) ℓ) (ρ : Dev nD → PrngReg)

/-- A buffer no operation of a host stretch writes holds after the stretch what it held before. -/
macro "not_written " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! One step back across a boundary, for a buffer that the region is not an array of (`back`), or that the host
    stretch does not write (`over`). -/
set_option hygiene false in
macro "back2" : tactic => `(tactic| refine (W2_of_ne m ρ c _ (by decide)).trans ?_)
set_option hygiene false in
macro "back4" : tactic => `(tactic| refine (W4_of_ne m ρ c _ (by decide)).trans ?_)
set_option hygiene false in
macro "back6" : tactic => `(tactic| refine (W6_of_ne m ρ c _ (by decide)).trans ?_)
set_option hygiene false in
macro "over0" : tactic => `(tactic| refine Eq.trans (show _ = W0 m ρ c _ by not_written hostOps0) ?_)
set_option hygiene false in
macro "over1" : tactic => `(tactic| refine Eq.trans (show _ = W2 m ρ c _ by not_written hostOps1) ?_)
set_option hygiene false in
macro "over2" : tactic => `(tactic| refine Eq.trans (show _ = W4 m ρ c _ by not_written hostOps2) ?_)
set_option hygiene false in
macro "over3" : tactic => `(tactic| refine Eq.trans (show _ = W6 m ρ c _ by not_written hostOps3) ?_)

/-! ## The arguments are as launched at every boundary they are read at -/

theorem V1_arg0 (c : Dev nD) : V1 m ρ c main_arg0 = m ((c : Thread nD τ).loc main_arg0) := by
  show W1 m ρ c (Proc.devRef .tc main_arg0) = _; over0; rfl
theorem V1_arg1 (c : Dev nD) : V1 m ρ c main_arg1 = m ((c : Thread nD τ).loc main_arg1) := by
  show W1 m ρ c (Proc.devRef .tc main_arg1) = _; over0; rfl
theorem V1_arg5 (c : Dev nD) : V1 m ρ c main_arg5 = m ((c : Thread nD τ).loc main_arg5) := by
  show W1 m ρ c (Proc.devRef .tc main_arg5) = _; over0; rfl
theorem V1_arg6 (c : Dev nD) : V1 m ρ c main_arg6 = m ((c : Thread nD τ).loc main_arg6) := by
  show W1 m ρ c (Proc.devRef .tc main_arg6) = _; over0; rfl
theorem W2_arg2 (c : Dev nD) : W2 m ρ c (Proc.devRef .tc main_arg2) = m ((c : Thread nD τ).loc main_arg2) := by
  back2; over0; rfl
theorem W2_arg4 (c : Dev nD) : W2 m ρ c (Proc.devRef .tc main_arg4) = m ((c : Thread nD τ).loc main_arg4) := by
  back2; over0; rfl
theorem W2_arg9 (c : Dev nD) : W2 m ρ c (Proc.devRef .tc main_arg9) = m ((c : Thread nD τ).loc main_arg9) := by
  back2; over0; rfl
theorem V3_arg8 (c : Dev nD) : V3 m ρ c main_arg8 = m ((c : Thread nD τ).loc main_arg8) := by
  show W3 m ρ c (Proc.devRef .tc main_arg8) = _; over1; back2; over0; rfl
theorem W6_arg3 (c : Dev nD) : W6 m ρ c (Proc.devRef .tc main_arg3) = m ((c : Thread nD τ).loc main_arg3) := by
  back6; over2; back4; over1; back2; over0; rfl
theorem W6_arg10 (c : Dev nD) : W6 m ρ c (Proc.devRef .tc main_arg10) = m ((c : Thread nD τ).loc main_arg10) := by
  back6; over2; back4; over1; back2; over0; rfl
theorem W6_arg11 (c : Dev nD) : W6 m ρ c (Proc.devRef .tc main_arg11) = m ((c : Thread nD τ).loc main_arg11) := by
  back6; over2; back4; over1; back2; over0; rfl
theorem W6_arg13 (c : Dev nD) : W6 m ρ c (Proc.devRef .tc main_arg13) = m ((c : Thread nD τ).loc main_arg13) := by
  back6; over2; back4; over1; back2; over0; rfl
theorem V7_arg12 (c : Dev nD) : V7 m ρ c main_arg12 = m ((c : Thread nD τ).loc main_arg12) := by
  show W7 m ρ c (Proc.devRef .tc main_arg12) = _; over3; back6; over2; back4; over1; back2; over0; rfl

/-! ## The edge endpoints, computed before region 1, as the later stretches find them -/

theorem W4_v3 (c : Dev nD) : W4 m ρ c (Proc.devRef .tc main_v3) = W3 m ρ c (Proc.devRef .tc main_v3) := by
  back4; rfl
theorem W4_v5 (c : Dev nD) : W4 m ρ c (Proc.devRef .tc main_v5) = W3 m ρ c (Proc.devRef .tc main_v5) := by
  back4; rfl
theorem W4_v40 (c : Dev nD) : W4 m ρ c (Proc.devRef .tc main_v40) = W3 m ρ c (Proc.devRef .tc main_v40) := by
  back4; rfl
theorem W6_v3 (c : Dev nD) : W6 m ρ c (Proc.devRef .tc main_v3) = W3 m ρ c (Proc.devRef .tc main_v3) := by
  back6; over2; back4; rfl
theorem W6_v5 (c : Dev nD) : W6 m ρ c (Proc.devRef .tc main_v5) = W3 m ρ c (Proc.devRef .tc main_v5) := by
  back6; over2; back4; rfl

/-! ## The bias vectors enter their regions as one-row matrices -/

/-- The bias of the first dense layer enters region 0 as a one-row matrix. -/
theorem V1_v0 (c : Dev nD) : V1 m ρ c main_v0 = Cert.Spec.row (m ((c : Thread nD τ).loc main_arg7)) := by
  show StableHlo.after hostOps0 (W0 m ρ c) (Proc.devRef .tc main_v0) = _
  after_results_simp
  funext i
  obtain ⟨u, j, rfl⟩ : ∃ (u : Fin 1) (j : Fin 16), i = ix2 u j := ⟨i 0, i 1, eq_ix2 i⟩
  refine shapeCast_apply _ _ _ _ ?_
  show ((⟨1, ![16]⟩ : Shape).rowMajor (ix1 j)).val = ((⟨2, ![1, 16]⟩ : Shape).rowMajor (ix2 u j)).val
  rw [Shape.rowMajor_val_two, Shape.rowMajor_val_one]
  have hu : u.val = 0 := by omega
  show j.val = u.val * 16 + j.val
  omega

/-- The bias of the second dense layer enters region 1 as a one-row matrix. -/
theorem V3_v53 (c : Dev nD) : V3 m ρ c main_v53 = Cert.Spec.row (m ((c : Thread nD τ).loc main_arg9)) := by
  show StableHlo.after hostOps1 (W2 m ρ c) (Proc.devRef .tc main_v53) = _
  after_results_simp
  rw [W2_arg9]
  funext i
  obtain ⟨u, j, rfl⟩ : ∃ (u : Fin 1) (j : Fin 16), i = ix2 u j := ⟨i 0, i 1, eq_ix2 i⟩
  refine shapeCast_apply _ _ _ _ ?_
  show ((⟨1, ![16]⟩ : Shape).rowMajor (ix1 j)).val = ((⟨2, ![1, 16]⟩ : Shape).rowMajor (ix2 u j)).val
  rw [Shape.rowMajor_val_two, Shape.rowMajor_val_one]
  have hu : u.val = 0 := by omega
  show j.val = u.val * 16 + j.val
  omega

end Cert.KernelIdeal.HostK
end
-- ==== Proof.Bridge.lean ====
/-
  The host operations the two programs share, grouped so that a region's output is a parameter: an aggregate (gather the
  rows of a dense output at the edges' destinations, scale by the edge coefficient, scatter-add at the sources) and the
  two gathers of the node features at the edges' ends.  The reference's stages are these groups of its earlier stages
  (by definition), and so are the kernel program's host stretches, at every float instance and from any buffer contents.
-/
import proofs.«411721_j41652592837293_3_alg».proof.Proof.Gen.ReferenceIdeal.Read
import proofs.«411721_j41652592837293_3_alg».proof.Proof.Gen.KernelIdeal.Launch
import Idealize.ShloMosaic.Lib.StableHlo.Run

set_option maxRecDepth 16384

noncomputable section

open Idealize.ShloMosaic Idealize.ShloMosaic.TcCoe Idealize.SL.Sem
open Cert.ReferenceIdeal.Read

namespace Cert.Bridge

variable {F : FTy → Type} [FloatOps F]

section Reference
open Cert.ReferenceIdeal

/-- The first layer's aggregate of a dense output `M`. -/
def agg1 (x2 : IVec S2x3200000 32) (x4 : IVec S100000 32) (M : FVec F S100000x16 .f32) : FVec F S100000x16 .f32 :=
  Host.scatterAdd scatter_S100000x16_S3200000x1_S3200000x16_1_0_0_1 (val_main_v71 (F := F)) (val_main_v72 (F := F) x2)
    (mulf (val_main_v69 (F := F) x2 x4)
      (Host.gather gather_S100000x16_S3200000x1_S3200000x16_1_0_n_n_0_1_116 M (val_main_v67 (F := F) x2)))

/-- The second layer's aggregate of a dense output `M` (the reference computes the edge coefficient anew). -/
def agg2 (x2 : IVec S2x3200000 32) (x4 : IVec S100000 32) (M : FVec F S100000x16 .f32) : FVec F S100000x16 .f32 :=
  Host.scatterAdd scatter_S100000x16_S3200000x1_S3200000x16_1_0_0_1 (val_main_v104 (F := F)) (val_main_v105 (F := F) x2)
    (mulf (val_main_v102 (F := F) x2 x4)
      (Host.gather gather_S100000x16_S3200000x1_S3200000x16_1_0_n_n_0_1_116 M (val_main_v100 (F := F) x2)))

/-- Node features gathered at the edges' sources. -/
def gsrc {α : Type} (x2 : IVec S2x3200000 32) (H : S100000x16.Idx → α) : S3200000x16.Idx → α :=
  Host.gather gather_S100000x16_S3200000x1_S3200000x16_1_0_n_n_0_1_116 H (val_main_v120 (F := F) x2)

/-- Node features gathered at the edges' destinations. -/
def gdst {α : Type} (x2 : IVec S2x3200000 32) (H : S100000x16.Idx → α) : S3200000x16.Idx → α :=
  Host.gather gather_S100000x16_S3200000x1_S3200000x16_1_0_n_n_0_1_116 H (val_main_v127 (F := F) x2)

variable (x0 : IVec S100000x64 32) (x1 : FVec F S100000x1 .f32) (x2 : IVec S2x3200000 32) (x4 : IVec S100000 32)
  (x5 : FVec F S6x16 .f32) (x6 : FVec F S17x16 .f32) (x7 : FVec F S16 .f32) (x8 : FVec F S16x16 .f32) (x9 : FVec F S16 .f32)

theorem v73_eq : val_main_v73 (F := F) x0 x1 x2 x4 x5 x6 x7 = agg1 x2 x4 (val_main_v52 (F := F) x0 x1 x5 x6 x7) := rfl
theorem v106_eq : val_main_v106 (F := F) x0 x1 x2 x4 x5 x6 x7 x8 x9 = agg2 x2 x4 (val_main_v85 (F := F) x0 x1 x2 x4 x5 x6 x7 x8 x9) := rfl
theorem v121_eq : val_main_v121 (F := F) x0 x1 x2 x4 x5 x6 x7 x8 x9 = gsrc (F := F) x2 (val_main_v114 (F := F) x0 x1 x2 x4 x5 x6 x7 x8 x9) := rfl
theorem v128_eq : val_main_v128 (F := F) x0 x1 x2 x4 x5 x6 x7 x8 x9 = gdst (F := F) x2 (val_main_v114 (F := F) x0 x1 x2 x4 x5 x6 x7 x8 x9) := rfl

end Reference

section Kernel
open Cert.KernelIdeal Cert.KernelIdeal.Gen Cert.KernelIdeal.Facts₀ Cert.KernelIdeal.Facts

variable (W : Valuation τ sig (Elt F))

/-- The edges' sources, as the stretch before region 1 computes them. -/
theorem host1_v3 : StableHlo.after (hostOps1 (F := F)) W (Proc.devRef .tc main_v3) = val_main_v21 (F := F) (W (Proc.devRef .tc main_arg2)) := by
  after_results_simp
  rfl

/-- The edges' destinations. -/
theorem host1_v5 : StableHlo.after (hostOps1 (F := F)) W (Proc.devRef .tc main_v5) = val_main_v23 (F := F) (W (Proc.devRef .tc main_arg2)) := by
  after_results_simp
  rfl

/-- The edge coefficient, as a column. -/
theorem host1_v40 : StableHlo.after (hostOps1 (F := F)) W (Proc.devRef .tc main_v40)
    = val_main_v61 (F := F) (W (Proc.devRef .tc main_arg2)) (W (Proc.devRef .tc main_arg4)) := by
  after_results_simp
  rfl

/-- dinv, cast to a column. -/
theorem host1_v31 : StableHlo.after (hostOps1 (F := F)) W (Proc.devRef .tc main_v31)
    = shapeCast S100000x1 (val_main_v48 (F := F) (W (Proc.devRef .tc main_arg2)) (W (Proc.devRef .tc main_arg4))) Facts₀.shapeCasts_S100000_S100000x1 := by
  after_results_simp
  rfl

/-- The first aggregate, of whatever region 0 left. -/
theorem host1_v52 : StableHlo.after (hostOps1 (F := F)) W (Proc.devRef .tc main_v52)
    = agg1 (F := F) (W (Proc.devRef .tc main_arg2)) (W (Proc.devRef .tc main_arg4)) (W (Proc.devRef .tc main_v1)) := by
  after_results_simp
  rfl

/-- The second aggregate, of whatever region 1 left, from the endpoints and the coefficient computed before region 1. -/
theorem host2_v66 (x2 : IVec S2x3200000 32) (x4 : IVec S100000 32)
    (h3 : W (Proc.devRef .tc main_v3) = val_main_v21 (F := F) x2) (h5 : W (Proc.devRef .tc main_v5) = val_main_v23 (F := F) x2)
    (h40 : W (Proc.devRef .tc main_v40) = val_main_v61 (F := F) x2 x4) :
    StableHlo.after (hostOps2 (F := F)) W (Proc.devRef .tc main_v66) = agg2 (F := F) x2 x4 (W (Proc.devRef .tc main_v54)) := by
  after_results_simp
  rw [h3, h5, h40]
  rfl

/-- The source features, gathered from whatever region 2 left (through the change of float format). -/
theorem host3_v75 (x2 : IVec S2x3200000 32) (h3 : W (Proc.devRef .tc main_v3) = val_main_v21 (F := F) x2) :
    StableHlo.after (hostOps3 (F := F)) W (Proc.devRef .tc main_v75)
      = gsrc (F := F) x2 (truncf .bf16 (W (Proc.devRef .tc main_v67)) Facts₀.bitsLt_bf16_f32) := by
  after_results_simp
  rw [h3]
  rfl

/-- The destination features. -/
theorem host3_v82 (x2 : IVec S2x3200000 32) (h5 : W (Proc.devRef .tc main_v5) = val_main_v23 (F := F) x2) :
    StableHlo.after (hostOps3 (F := F)) W (Proc.devRef .tc main_v82)
      = gdst (F := F) x2 (truncf .bf16 (W (Proc.devRef .tc main_v67)) Facts₀.bitsLt_bf16_f32) := by
  after_results_simp
  rw [h5]
  rfl

end Kernel

end Cert.Bridge

end
-- ==== Proof.K0.lean ====
import proofs.«411721_j41652592837293_3_alg».proof.Proof.Gen.KernelIdeal.Frame
import proofs.«411721_j41652592837293_3_alg».proof.Proof.Spec
import proofs.«411721_j41652592837293_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.K0
open Cert.KernelIdeal Cert.KernelIdeal.Gen

variable (V : (c : Dev nD) → (b : Ref sig .tc) → Buf (Elt Ideal) ((c : Thread nD τ).loc b))

/-! ## Words: a compare, widened and converted, is an indicator -/

/-- A compare-equal of two words, widened and read as a signed integer, is 1 where the words agree and 0 elsewhere. -/
theorem word_eq_ind (t v : BitVec 32) :
    (FloatOps.sitofp (F := Ideal) .f32 ((IntOp.cmpi .eq t v).setWidth 32) : EReal) = Cert.Spec.ind (t = v) := by
  show ((((IntOp.cmpi .eq t v).setWidth 32).toInt : ℝ) : EReal) = _
  unfold IntOp.cmpi Cert.Spec.ind
  by_cases h : t = v
  · simp [h]
  · have hb : (t == v) = false := beq_eq_false_iff_ne.mpr h
    simp [h, hb]

/-- A signed compare "at least 5" of a word, widened and read as a signed integer, is 1 where the word's signed value is at least 5 and 0 elsewhere. -/
theorem word_sge_ind (t : BitVec 32) :
    (FloatOps.sitofp (F := Ideal) .f32 ((IntOp.cmpi .sge t 5#32).setWidth 32) : EReal) = Cert.Spec.ind ((5 : Int) ≤ t.toInt) := by
  show ((((IntOp.cmpi .sge t 5#32).setWidth 32).toInt : ℝ) : EReal) = _
  unfold IntOp.cmpi Cert.Spec.ind
  by_cases h : (5 : Int) ≤ t.toInt
  · simp [BitVec.sle, h]
  · simp [BitVec.sle, h]

open Idealize.ShloMosaic.Keepdims

/-- A row's count column: the lane sum of the widened compare, as a column, read at (r, u), is the sum over the row's
    64 words of the compare's 0/1 value. -/
theorem col_apply (x0 : Vec Ideal S2000x64 .i32) (p : CmpIPredicate) (v : BitVec 32)
    (h3 : 1 < 32) (h1 : S2000x64.Reduces [1] S2000) (hφ : FKind.Formats .f32)
    (hacc : (0x00000000#32 : BitVec FTy.f32.bits) = FKind.add.neutral .f32 hφ)
    (h2 : S2000.ShapeCasts S2000x1) (r : Fin 2000) (u : Fin 1) :
    shapeCast S2000x1 (multiReduction .add [1] S2000
        (sitofp (F := Ideal) .f32 (extui 32 (cmpi p x0 (broadcast S2000x64 v)) h3)) 0x00000000#32 h1 hφ hacc) h2 (ix2 r u)
      = ∑ l : Fin 64, (FloatOps.sitofp (F := Ideal) .f32 ((IntOp.cmpi p (x0 (ix2 r l)) v).setWidth 32) : EReal) := by
  refine (shapeCast_a_a1_apply _ _ r u).trans ?_
  refine (laneSum_apply _ _ _ _ _ r).trans ?_
  rfl

/-- A count column times a table row, both broadcast to the block: at (r, j) the column's entry at row r times the
    row's entry at lane j. -/
theorem term_apply (col : FVec Ideal S2000x1 .f32) (row : FVec Ideal S1x16 .f32)
    (h1 : S2000x1.Broadcasts S2000x16) (h2 : S1x16.ShapeCasts S16) (h3 : S16.ShapeCasts S1x16) (h4 : S1x16.Broadcasts S2000x16)
    (r : Fin 2000) (j : Fin 16) :
    mulf (broadcastTo S2000x16 col h1) (broadcastTo S2000x16 (shapeCast S1x16 (shapeCast S16 row h2) h3) h4) (ix2 r j)
      = col (ix2 r 0) * row (ix2 0 j) := by
  rw [mulf_apply, broadcastTo_a1_ab_apply, broadcastTo_1b_ab_apply, shapeCast_a_1a_apply, shapeCast_1a_a_apply]

/-- The padding count column at row r: how many of the row's 64 words are 0. -/
theorem pay2_apply (x0 : Vec Ideal S2000x64 .i32) (r : Fin 2000) (u : Fin 1) :
    k0_pay2 (F := Ideal) x0 (ix2 r u) = ∑ l : Fin 64, Cert.Spec.ind (x0 (ix2 r l) = 0#32) := by
  unfold k0_pay2
  refine (col_apply x0 .eq 0#32 _ _ _ _ _ r u).trans ?_
  exact Finset.sum_congr rfl fun l _ => word_eq_ind _ _

/-- The third bucket's count column at row r: how many of the row's 64 words are 3. -/
theorem pay4_apply (x0 : Vec Ideal S2000x64 .i32) (r : Fin 2000) (u : Fin 1) :
    k0_pay4 (F := Ideal) x0 (ix2 r u) = ∑ l : Fin 64, Cert.Spec.ind (x0 (ix2 r l) = 3#32) := by
  unfold k0_pay4
  refine (col_apply x0 .eq 3#32 _ _ _ _ _ r u).trans ?_
  exact Finset.sum_congr rfl fun l _ => word_eq_ind _ _

/-- A bucket's term: the count of the row's words equal to `v`, times the table row, at (r, j). -/
theorem bucket_eq_apply (x0 : Vec Ideal S2000x64 .i32) (v : BitVec 32) (row : FVec Ideal S1x16 .f32)
    (h3 : 1 < 32) (h1 : S2000x64.Reduces [1] S2000) (hφ : FKind.Formats .f32)
    (hacc : (0x00000000#32 : BitVec FTy.f32.bits) = FKind.add.neutral .f32 hφ) (h2 : S2000.ShapeCasts S2000x1)
    (hb1 : S2000x1.Broadcasts S2000x16) (hs1 : S1x16.ShapeCasts S16) (hs2 : S16.ShapeCasts S1x16) (hb2 : S1x16.Broadcasts S2000x16)
    (r : Fin 2000) (j : Fin 16) :
    mulf (broadcastTo S2000x16 (shapeCast S2000x1 (multiReduction .add [1] S2000
          (sitofp (F := Ideal) .f32 (extui 32 (cmpi .eq x0 (broadcast S2000x64 v)) h3)) 0x00000000#32 h1 hφ hacc) h2) hb1)
        (broadcastTo S2000x16 (shapeCast S1x16 (shapeCast S16 row hs1) hs2) hb2) (ix2 r j)
      = (∑ l : Fin 64, Cert.Spec.ind (x0 (ix2 r l) = v)) * row (ix2 0 j) :=
  (term_apply _ row hb1 hs1 hs2 hb2 r j).trans (congrArg (· * row (ix2 0 j))
    ((col_apply x0 .eq v h3 h1 hφ hacc h2 r 0).trans (Finset.sum_congr rfl fun l _ => word_eq_ind _ _)))

/-- The last bucket's term: the count of the row's words at least 5 (signed), times the table row, at (r, j). -/
theorem bucket_sge_apply (x0 : Vec Ideal S2000x64 .i32) (row : FVec Ideal S1x16 .f32)
    (h3 : 1 < 32) (h1 : S2000x64.Reduces [1] S2000) (hφ : FKind.Formats .f32)
    (hacc : (0x00000000#32 : BitVec FTy.f32.bits) = FKind.add.neutral .f32 hφ) (h2 : S2000.ShapeCasts S2000x1)
    (hb1 : S2000x1.Broadcasts S2000x16) (hs1 : S1x16.ShapeCasts S16) (hs2 : S16.ShapeCasts S1x16) (hb2 : S1x16.Broadcasts S2000x16)
    (r : Fin 2000) (j : Fin 16) :
    mulf (broadcastTo S2000x16 (shapeCast S2000x1 (multiReduction .add [1] S2000
          (sitofp (F := Ideal) .f32 (extui 32 (cmpi .sge x0 (broadcast S2000x64 5#32)) h3)) 0x00000000#32 h1 hφ hacc) h2) hb1)
        (broadcastTo S2000x16 (shapeCast S1x16 (shapeCast S16 row hs1) hs2) hb2) (ix2 r j)
      = (∑ l : Fin 64, Cert.Spec.ind ((5 : Int) ≤ (x0 (ix2 r l)).toInt)) * row (ix2 0 j) :=
  (term_apply _ row hb1 hs1 hs2 hb2 r j).trans (congrArg (· * row (ix2 0 j))
    ((col_apply x0 .sge 5#32 h3 h1 hφ hacc h2 r 0).trans (Finset.sum_congr rfl fun l _ => word_sge_ind _)))

/-- The running sum after the first two buckets, at (r, j): zero, plus the count of 1s times the first table row, plus the count of 2s times the second. -/
theorem pay3_apply (x0 : Vec Ideal S2000x64 .i32) (v14 v27 : Vec Ideal S1x16 .f32) (r : Fin 2000) (j : Fin 16) :
    k0_pay3 (F := Ideal) x0 v14 v27 (ix2 r j)
      = (Cert.Spec.c0 + (∑ l : Fin 64, Cert.Spec.ind (x0 (ix2 r l) = 1#32)) * v14 (ix2 0 j))
        + (∑ l : Fin 64, Cert.Spec.ind (x0 (ix2 r l) = 2#32)) * v27 (ix2 0 j) := by
  unfold k0_pay3
  exact congrArg₂ (· + ·) (congrArg₂ (· + ·) rfl (bucket_eq_apply x0 1#32 v14 _ _ _ _ _ _ _ _ _ r j))
    (bucket_eq_apply x0 2#32 v27 _ _ _ _ _ _ _ _ _ r j)

/-! The matrix product's index maps, one axis at a time. -/

/-- The left operand is read at the output's row … -/
theorem dot_lhs_0 (i : S2000x16.Idx) (q : dot_S2000x17_S17x16_S2000x16_1_0_0_1_n_n.contr.Idx) :
    (dot_S2000x17_S17x16_S2000x16_1_0_0_1_n_n.lhsIdx i q 0).val = (i 0).val := by
  unfold DotDims.lhsIdx
  rw [dif_neg (show ¬(0 : Fin S2000x17.rank) ∈ dot_S2000x17_S17x16_S2000x16_1_0_0_1_n_n.lhsBatch by decide), dif_pos (show (0 : Fin S2000x17.rank) ∈ dot_S2000x17_S17x16_S2000x16_1_0_0_1_n_n.lhsNonContracting by decide)]
  rfl
/-- … and at the contracted coordinate; -/
theorem dot_lhs_1 (i : S2000x16.Idx) (q : dot_S2000x17_S17x16_S2000x16_1_0_0_1_n_n.contr.Idx) :
    (dot_S2000x17_S17x16_S2000x16_1_0_0_1_n_n.lhsIdx i q 1).val = (q ⟨0, by decide⟩).val :=
  dot_S2000x17_S17x16_S2000x16_1_0_0_1_n_n.lhsIdx_val_of_single rfl i q
/-- the right operand is read at the contracted coordinate … -/
theorem dot_rhs_0 (i : S2000x16.Idx) (q : dot_S2000x17_S17x16_S2000x16_1_0_0_1_n_n.contr.Idx) :
    (dot_S2000x17_S17x16_S2000x16_1_0_0_1_n_n.rhsIdx i q 0).val = (q ⟨0, by decide⟩).val :=
  dot_S2000x17_S17x16_S2000x16_1_0_0_1_n_n.rhsIdx_val_of_single rfl i q
/-- … and at the output's lane. -/
theorem dot_rhs_1 (i : S2000x16.Idx) (q : dot_S2000x17_S17x16_S2000x16_1_0_0_1_n_n.contr.Idx) :
    (dot_S2000x17_S17x16_S2000x16_1_0_0_1_n_n.rhsIdx i q 1).val = (i 1).val := by
  unfold DotDims.rhsIdx
  rw [dif_neg (show ¬(1 : Fin S17x16.rank) ∈ dot_S2000x17_S17x16_S2000x16_1_0_0_1_n_n.rhsBatch by decide), dif_pos (show (1 : Fin S17x16.rank) ∈ dot_S2000x17_S17x16_S2000x16_1_0_0_1_n_n.rhsNonContracting by decide)]
  rfl

/-- The block's matrix product into the zero accumulator, at (r, j): the sum over the 17 features. -/
theorem dot_apply (lhs : FVec Ideal S2000x17 .bf16) (rhs : FVec Ideal S17x16 .bf16) (r : Fin 2000) (j : Fin 16) :
    matmul dot_S2000x17_S17x16_S2000x16_1_0_0_1_n_n none lhs rhs (constant (F := Ideal) S2000x16 .f32 0x00000000#32) (ix2 r j)
      = ∑ k : Fin 17, lhs (ix2 r k) * rhs (ix2 k j) := by
  simp only [matmul]
  rw [Ideal.matmul_constant_zero_apply, ← Equiv.sum_comp (ValueIdx.contrEquiv1 dot_S2000x17_S17x16_S2000x16_1_0_0_1_n_n 17 rfl rfl).symm]
  refine Finset.sum_congr rfl fun k _ => ?_
  have hk := ValueIdx.contrEquiv1_symm_val dot_S2000x17_S17x16_S2000x16_1_0_0_1_n_n 17 rfl rfl k
  have el : dot_S2000x17_S17x16_S2000x16_1_0_0_1_n_n.lhsIdx (ix2 r j) ((ValueIdx.contrEquiv1 dot_S2000x17_S17x16_S2000x16_1_0_0_1_n_n 17 rfl rfl).symm k) = ix2 r k := funext fun a => Fin.ext (by
    match a with
    | ⟨0, _⟩ => exact dot_lhs_0 _ _
    | ⟨1, _⟩ => exact (dot_lhs_1 _ _).trans hk)
  have er : dot_S2000x17_S17x16_S2000x16_1_0_0_1_n_n.rhsIdx (ix2 r j) ((ValueIdx.contrEquiv1 dot_S2000x17_S17x16_S2000x16_1_0_0_1_n_n 17 rfl rfl).symm k) = ix2 k j := funext fun a => Fin.ext (by
    match a with
    | ⟨0, _⟩ => exact (dot_rhs_0 _ _).trans hk
    | ⟨1, _⟩ => exact dot_rhs_1 _ _)
  rw [el, er]

/-- The 16 sequence features and the covariate side by side, at (r, k): a sequence feature for k < 16, else the covariate. -/
theorem feat_apply (a : FVec Ideal S2000x16 .f32) (b : FVec Ideal S2000x1 .f32)
    (h : Shape.Concatenates [S2000x16, S2000x1] S2000x17 1) (r : Fin 2000) (k : Fin 17) :
    concatenate S2000x17 1 [⟨S2000x16, a⟩, ⟨S2000x1, b⟩] h (ix2 r k)
      = if hk : k.val < 16 then a (ix2 r ⟨k.val, hk⟩) else b (ix2 r 0) := by
  split
  · rename_i hk
    refine concatenate_pair_apply_left 1 a b h (ix2 r k) rfl (ix2 r ⟨k.val, hk⟩) fun ax => ?_
    match ax with
    | ⟨0, _⟩ => rfl
    | ⟨1, _⟩ => rfl
  · rename_i hk
    refine concatenate_pair_apply_right 1 a b h (ix2 r k) rfl rfl (ix2 r 0) (fun ax hne => ?_) ?_
    · match ax with
      | ⟨0, _⟩ => rfl
      | ⟨1, _⟩ => exact absurd rfl hne
    · show 0 + 16 = k.val
      have := k.isLt
      omega

/-- A count column times a table row held as a vector, both broadcast to the block, at (r, j). -/
theorem term1_apply (col : FVec Ideal S2000x1 .f32) (row : FVec Ideal S16 .f32)
    (h1 : S2000x1.Broadcasts S2000x16) (h3 : S16.ShapeCasts S1x16) (h4 : S1x16.Broadcasts S2000x16)
    (r : Fin 2000) (j : Fin 16) :
    mulf (broadcastTo S2000x16 col h1) (broadcastTo S2000x16 (shapeCast S1x16 row h3) h4) (ix2 r j)
      = col (ix2 r 0) * row (ix1 j) := by
  rw [mulf_apply, broadcastTo_a1_ab_apply, broadcastTo_1b_ab_apply, shapeCast_a_1a_apply]

/-- The matrix product's value at (r, j): the sum over the 17 features of the feature times the weight, a sequence feature being the
    running sum with the last three buckets added, divided by the number of unmasked words (at least 1), and the 17th the covariate. -/
theorem pay6_apply (x0 : Vec Ideal S2000x64 .i32) (v6 : FVec Ideal S2000x1 .f32) (v33 : FVec Ideal S2000x16 .f32)
    (v39 : FVec Ideal S2000x1 .f32) (v41 : FVec Ideal S16 .f32) (v53 v66 : Vec Ideal S1x16 .f32)
    (v79 : Vec Ideal S2000x1 .f32) (v82 : Vec Ideal S17x16 .f32) (r : Fin 2000) (j : Fin 16) :
    k0_pay6 (F := Ideal) x0 v6 v33 v39 v41 v53 v66 v79 v82 (ix2 r j)
      = ∑ k : Fin 17, (if hk : k.val < 16 then
            Ideal.div (((v33 (ix2 r ⟨k.val, hk⟩) + v39 (ix2 r 0) * v41 (ix1 ⟨k.val, hk⟩))
                + (∑ l : Fin 64, Cert.Spec.ind (x0 (ix2 r l) = 4#32)) * v53 (ix2 0 ⟨k.val, hk⟩))
                + (∑ l : Fin 64, Cert.Spec.ind ((5 : Int) ≤ (x0 (ix2 r l)).toInt)) * v66 (ix2 0 ⟨k.val, hk⟩))
              (max (Cert.Spec.c64 - v6 (ix2 r 0)) Cert.Spec.c1)
          else v79 (ix2 r 0)) * v82 (ix2 k j) := by
  unfold k0_pay6
  refine (dot_apply _ _ r j).trans (Finset.sum_congr rfl fun k _ => congrArg₂ (· * ·) ?_ rfl)
  rw [truncf_apply]
  refine (feat_apply _ _ _ r k).trans ?_
  split
  · rename_i hk
    refine congrArg₂ Ideal.div ?_ ?_
    · exact congrArg₂ (· + ·) (congrArg₂ (· + ·) (congrArg₂ (· + ·) rfl (term1_apply v39 v41 _ _ _ r _))
        (bucket_eq_apply x0 4#32 v53 _ _ _ _ _ _ _ _ _ r _)) (bucket_sge_apply x0 v66 _ _ _ _ _ _ _ _ _ r _)
    · exact broadcastTo_a1_ab_apply _ _ r _
  · rfl

/-- A one-row table slice held as a vector reads, at lane j, the slice at (0, j). -/
theorem pay5_apply (v40 : Vec Ideal S1x16 .f32) (j : Fin 16) : k0_pay5 (F := Ideal) v40 (ix1 j) = v40 (ix2 0 j) := by
  unfold k0_pay5
  exact shapeCast_1a_a_apply _ _ j

/-- The stored value at (r, j): the matrix product there plus the bias at lane j. -/
theorem pay1_apply (v84 : FVec Ideal S2000x16 .f32) (v85 : Vec Ideal S1x16 .f32) (r : Fin 2000) (j : Fin 16) :
    k0_pay1 (F := Ideal) v84 v85 (ix2 r j) = v84 (ix2 r j) + v85 (ix2 0 j) := by
  unfold k0_pay1
  rw [addf_apply, broadcastTo_1b_ab_apply, shapeCast_self]

/-- A one-row load of the table at row `a` reads, at lane j, the table at (a, j). -/
theorem ld_row (x2 : Vec Ideal S6x16 .f32) (a : Nat) (ha : a < 6) (inb : ∀ ax, (![a, 0] : Fin 2 → Nat) ax + S1x16.size ax ≤ S6x16.size ax)
    (j : Fin 16) : View.ld x2 (Rect.unit (s := S6x16) ![a, 0] S1x16.size inb) (ix2 0 j) = x2 (ix2 ⟨a, ha⟩ j) := by
  refine congrArg x2 (funext fun ax => Fin.ext ?_)
  match ax with
  | ⟨0, _⟩ => show a + 1 * 0 = a; omega
  | ⟨1, _⟩ => show 0 + 1 * j.val = j.val; omega

/-- THE BODY'S STORED VALUE at row r and lane j of a block, for a block whose row r holds node n's words and covariate:
    the histogram form of the first dense layer at (n, j). -/
theorem payload_apply (x0 : Vec Ideal S2000x64 .i32) (x1 : Vec Ideal S2000x1 .f32) (x2 : Vec Ideal S6x16 .f32)
    (x3 : Vec Ideal S17x16 .f32) (x4 : Vec Ideal S1x16 .f32) (tok : Cert.Spec.Tok) (xcov : Cert.Spec.A2 100000 1)
    (n : Fin 100000) (r : Fin 2000) (j : Fin 16)
    (h0 : ∀ l : Fin 64, x0 (ix2 r l) = tok (ix2 n l)) (h1 : x1 (ix2 r 0) = xcov (ix2 n 0)) :
    k0_pay1 (F := Ideal) (k0_pay6 x0 (k0_pay2 x0) (k0_pay3 x0 (View.ld x2 r0_1) (View.ld x2 r0_2)) (k0_pay4 x0)
        (k0_pay5 (View.ld x2 r0_3)) (View.ld x2 r0_4) (View.ld x2 r0_5) x1 x3) x4 (ix2 r j)
      = Cert.Spec.m1KAt tok xcov x2 x3 x4 n j := by
  rw [pay1_apply, pay6_apply]
  unfold Cert.Spec.m1KAt
  refine congrArg₂ (· + ·) (Finset.sum_congr rfl fun k _ => congrArg₂ (· * ·) ?_ rfl) rfl
  unfold Cert.Spec.featK
  split
  · rename_i hk
    rw [pay3_apply, pay2_apply, pay4_apply, pay5_apply, ld_row x2 1 (by decide), ld_row x2 2 (by decide),
      ld_row x2 3 (by decide), ld_row x2 4 (by decide), ld_row x2 5 (by decide)]
    unfold Cert.Spec.hseqK Cert.Spec.accK Cert.Spec.cnt
    simp only [h0]
    rfl
  · exact h1

/-! ## From blocks to the array -/

/-- The zero offsets, however spelt. -/
theorem hz : (![0, 0] : Fin 2 → Nat) = fun _ => 0 := funext fun a => by fin_cases a <;> rfl

/-- The printed index maps over the grid: the token, covariate and output windows' block row is the point; every other
    block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of the token block at point t is node 2000 t + r's row of the token array. -/
theorem tok_blk (c : Dev nD) (t : Fin cfg0.N) (r : Fin 2000) (l : Fin 64) (n : Fin 100000) (hn : n.val = 2000 * t.val + r.val) :
    (iblk0 (F := Ideal) V c 0 t : Vec Ideal S2000x64 .i32) (ix2 r l) = (V c main_arg0 : Vec Ideal S100000x64 .i32) (ix2 n l) := by
  obtain ⟨e00, e01, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * r.val = n.val; omega
  | ⟨1, _⟩ => show win0_0.index t (1 : Fin 2) * 64 + 1 * l.val = l.val; omega

/-- Row r of the covariate block at point t is node 2000 t + r's covariate. -/
theorem cov_blk (c : Dev nD) (t : Fin cfg0.N) (r : Fin 2000) (n : Fin 100000) (hn : n.val = 2000 * t.val + r.val) :
    (iblk0 (F := Ideal) V c 1 t : Vec Ideal S2000x1 .f32) (ix2 r 0) = (V c main_arg1 : Vec Ideal S100000x1 .f32) (ix2 n 0) := by
  obtain ⟨-, -, e10, e11, -⟩ := idx_facts t
  unfold iblk0
  rw [View.read_apply]
  show V c main_arg1 _ = V c main_arg1 _
  congr 1
  funext a
  apply Fin.ext
  match a with
  | ⟨0, _⟩ => show win0_1.index t (0 : Fin 2) * 2000 + 1 * r.val = n.val; omega
  | ⟨1, _⟩ => show win0_1.index t (1 : Fin 2) * 1 + 1 * 0 = 0; omega

/-- The table's block at every point is the whole table. -/
theorem embed_blk (c : Dev nD) (t : Fin cfg0.N) :
    (iblk0 (F := Ideal) V c 2 t : Vec Ideal S6x16 .f32) = V c main_arg5 := by
  obtain ⟨-, -, -, -, e20, e21, -⟩ := idx_facts t
  funext y
  unfold iblk0
  rw [View.read_apply]
  show V c main_arg5 _ = V c main_arg5 _
  congr 1
  funext a
  apply Fin.ext
  match a with
  | ⟨0, _⟩ => show win0_2.index t (0 : Fin 2) * 6 + 1 * (y 0).val = (y 0).val; omega
  | ⟨1, _⟩ => show win0_2.index t (1 : Fin 2) * 16 + 1 * (y 1).val = (y 1).val; omega

/-- The weight matrix's block at every point is the whole matrix. -/
theorem w1_blk (c : Dev nD) (t : Fin cfg0.N) :
    (iblk0 (F := Ideal) V c 3 t : Vec Ideal S17x16 .f32) = V c main_arg6 := by
  obtain ⟨-, -, -, -, -, -, e30, e31, -⟩ := idx_facts t
  funext y
  unfold iblk0
  rw [View.read_apply]
  show V c main_arg6 _ = V c main_arg6 _
  congr 1
  funext a
  apply Fin.ext
  match a with
  | ⟨0, _⟩ => show win0_3.index t (0 : Fin 2) * 17 + 1 * (y 0).val = (y 0).val; omega
  | ⟨1, _⟩ => show win0_3.index t (1 : Fin 2) * 16 + 1 * (y 1).val = (y 1).val; omega

/-- The bias row's block at every point is the whole row. -/
theorem b1_blk (c : Dev nD) (t : Fin cfg0.N) :
    (iblk0 (F := Ideal) V c 4 t : Vec Ideal S1x16 .f32) = V c main_v0 := by
  obtain ⟨-, -, -, -, -, -, -, -, e40, e41, -⟩ := idx_facts t
  funext y
  unfold iblk0
  rw [View.read_apply]
  show V c main_v0 _ = V c main_v0 _
  congr 1
  funext a
  apply Fin.ext
  match a with
  | ⟨0, _⟩ => show win0_4.index t (0 : Fin 2) * 1 + 1 * (y 0).val = (y 0).val; omega
  | ⟨1, _⟩ => show win0_4.index t (1 : Fin 2) * 16 + 1 * (y 1).val = (y 1).val; omega

/-- WHAT POINT t WRITES BACK is block t of the histogram form of the first dense layer of the five arrays. -/
theorem flushed_eq (c : Dev nD) (t : Fin cfg0.N) :
    (dat0 (F := Ideal) V c).flushed 5 t = ((cfg0.win 5).blk t).view.read (Elt Ideal)
      (Cert.Spec.m1K (V c main_arg0) (V c main_arg1) (V c main_arg5) (V c main_arg6) (V c main_v0)) := by
  show (cfg0.win 5).cut (grid0.coords t) ((dat0 V c).after 5 t) = _
  rw [after0_5]
  unfold out0_5
  rw [View.canon_unit_zero hz]
  simp only [View.ld_unit_zero (S := S2000x64) hz, View.ld_unit_zero (S := S2000x1) hz,
    View.ld_unit_zero (S := S17x16) hz, View.ld_unit_zero (S := S1x16) hz]
  rw [embed_blk, w1_blk, b1_blk]
  obtain ⟨-, -, -, -, -, -, -, -, -, -, e50, e51⟩ := idx_facts t
  have ht : t.val < 50 := lt_of_lt_of_eq t.isLt (show cfg0.N = 50 from N_0)
  funext y
  obtain ⟨r, j, rfl⟩ : ∃ (r : Fin 2000) (j : Fin 16), y = ix2 r j := ⟨y 0, y 1, eq_ix2 y⟩
  have hr := r.isLt
  rw [View.read_apply]
  have hy : ((cfg0.win 5).blk t).view.emb (ix2 r j) = ix2 (⟨2000 * t.val + r.val, by omega⟩ : Fin 100000) j := by
    funext a
    apply Fin.ext
    match a with
    | ⟨0, _⟩ => show win0_5.index t (0 : Fin 2) * 2000 + 1 * r.val = 2000 * t.val + r.val; omega
    | ⟨1, _⟩ => show win0_5.index t (1 : Fin 2) * 16 + 1 * j.val = j.val; omega
  rw [hy]
  exact payload_apply (iblk0 V c 0 t) (iblk0 V c 1 t) (V c main_arg5) (V c main_arg6) (V c main_v0)
    (V c main_arg0) (V c main_arg1) ⟨2000 * t.val + r.val, by omega⟩ r j
    (fun l => tok_blk V c t r l _ rfl) (cov_blk V c t r _ rfl)

/-- An index of the array is in point t's block iff each coordinate is in the block's range on its axis. -/
theorem mem_blk (t : Fin cfg0.N) (i : S100000x16.Idx) :
    i ∈ ((cfg0.win 5).blk t).view.set ↔ ∀ a : Fin 2, win0_5.index t a * S2000x16.size a ≤ (i a).val
      ∧ (i a).val < win0_5.index t a * S2000x16.size a + S2000x16.size a := by
  show i ∈ ((View.whole main_v1).slice (win0_5.rect t)).set ↔ _
  rw [View.set_slice_whole, Rect.mem_set_unit]
  exact Iff.rfl

/-- Row n of the array is in the block of point n / 2000. -/
theorem cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 50 := N_0
  let t : Fin cfg0.N := ⟨(i 0).val / 2000, by rw [hN]; omega⟩
  refine ⟨t, flush0_5 t, ?_⟩
  obtain ⟨-, -, -, -, -, -, -, -, -, -, e50, e51⟩ := idx_facts t
  have e50' : win0_5.index t (0 : Fin 2) = (i 0).val / 2000 := e50
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 16 ≤ (i 1).val ∧ (i 1).val < win0_5.index t (1 : Fin 2) * 16 + 16; omega

/-- After region 0 the output array holds the histogram form of the first dense layer, as a function of the five arrays the region reads, whatever contents `V` the region is entered with. -/
theorem final0 (c : Dev nD) :
    (dat0 (F := Ideal) V c).arrAt 5 cfg0.N
      = Cert.Spec.m1K (V c main_arg0) (V c main_arg1) (V c main_arg5) (V c main_arg6) (V c main_v0) := by
  exact (dat0 (F := Ideal) V c).arrAt_eq_of_cover 5 _ (fun t _ => flushed_eq V c t) cover

end Cert.KernelIdeal.K0

end
-- ==== Proof.K1.lean ====
import proofs.«411721_j41652592837293_3_alg».proof.Proof.Gen.KernelIdeal.Frame
import proofs.«411721_j41652592837293_3_alg».proof.Proof.Spec
import proofs.«411721_j41652592837293_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.K1
open Cert.KernelIdeal Cert.KernelIdeal.Gen

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- A one-row array broadcast along the rows reads, at (r, q), the row at lane q. -/
theorem row_bcast (v : Vec Ideal S1x16 .f32) (h : S1x16.Broadcasts S2000x16) (r : Fin 2000) (q : Fin 16) :
    broadcastTo S2000x16 v h (ix2 r q) = v (ix2 (0 : Fin 1) q) := by
  refine broadcastTo_apply v h (ix2 r q) (ix2 (0 : Fin 1) q) fun ax => ?_
  match ax with
  | ⟨0, _⟩ => rfl
  | ⟨1, _⟩ => rfl

/-- The product's left operand index at output (i0, i1) and contraction index k is (i0, k): its row. -/
theorem lhs_0 (i : S2000x16.Idx) (q : dot_S2000x16_S16x16_S2000x16_1_0_0_1_n_n.contr.Idx) :
    (dot_S2000x16_S16x16_S2000x16_1_0_0_1_n_n.lhsIdx i q 0).val = (i 0).val := by
  unfold DotDims.lhsIdx
  rw [dif_neg (show ¬(0 : Fin S2000x16.rank) ∈ dot_S2000x16_S16x16_S2000x16_1_0_0_1_n_n.lhsBatch by decide), dif_pos (show (0 : Fin S2000x16.rank) ∈ dot_S2000x16_S16x16_S2000x16_1_0_0_1_n_n.lhsNonContracting by decide)]
  rfl
/-- Its column. -/
theorem lhs_1 (i : S2000x16.Idx) (q : dot_S2000x16_S16x16_S2000x16_1_0_0_1_n_n.contr.Idx) :
    (dot_S2000x16_S16x16_S2000x16_1_0_0_1_n_n.lhsIdx i q 1).val = (q ⟨0, by decide⟩).val :=
  dot_S2000x16_S16x16_S2000x16_1_0_0_1_n_n.lhsIdx_val_of_single rfl i q
/-- The right operand index is (k, i1): its row. -/
theorem rhs_0 (i : S2000x16.Idx) (q : dot_S2000x16_S16x16_S2000x16_1_0_0_1_n_n.contr.Idx) :
    (dot_S2000x16_S16x16_S2000x16_1_0_0_1_n_n.rhsIdx i q 0).val = (q ⟨0, by decide⟩).val :=
  dot_S2000x16_S16x16_S2000x16_1_0_0_1_n_n.rhsIdx_val_of_single rfl i q
/-- Its column. -/
theorem rhs_1 (i : S2000x16.Idx) (q : dot_S2000x16_S16x16_S2000x16_1_0_0_1_n_n.contr.Idx) :
    (dot_S2000x16_S16x16_S2000x16_1_0_0_1_n_n.rhsIdx i q 1).val = (i 1).val := by
  unfold DotDims.rhsIdx
  rw [dif_neg (show ¬(1 : Fin S16x16.rank) ∈ dot_S2000x16_S16x16_S2000x16_1_0_0_1_n_n.rhsBatch by decide), dif_pos (show (1 : Fin S16x16.rank) ∈ dot_S2000x16_S16x16_S2000x16_1_0_0_1_n_n.rhsNonContracting by decide)]
  rfl

/-- The body's arithmetic at row r, lane q of its blocks: the relu row times the matrix's column q, plus the bias. -/
theorem pay_apply (d : Vec Ideal S2000x1 .f32) (a m : Vec Ideal S2000x16 .f32) (w : Vec Ideal S16x16 .f32)
    (b : Vec Ideal S1x16 .f32) (r : Fin 2000) (q : Fin 16) :
    k1_pay1 (F := Ideal) d a m w b (ix2 r q)
      = (∑ k : Fin 16, max (d (ix2 r (0 : Fin 1)) * (a (ix2 r k) + d (ix2 r (0 : Fin 1)) * m (ix2 r k))) Cert.Spec.c0
            * w (ix2 k q)) + b (ix2 (0 : Fin 1) q) := by
  unfold k1_pay1
  rw [addf_apply, row_bcast, shapeCast_self b]
  congr 1
  simp only [matmul]
  rw [Ideal.matmul_constant_zero_apply, ← Equiv.sum_comp (contrEquiv1 dot_S2000x16_S16x16_S2000x16_1_0_0_1_n_n 16 rfl rfl).symm]
  refine Finset.sum_congr rfl fun k _ => ?_
  have hk := contrEquiv1_symm_val dot_S2000x16_S16x16_S2000x16_1_0_0_1_n_n 16 rfl rfl k
  have el : dot_S2000x16_S16x16_S2000x16_1_0_0_1_n_n.lhsIdx (ix2 r q) ((contrEquiv1 dot_S2000x16_S16x16_S2000x16_1_0_0_1_n_n 16 rfl rfl).symm k) = ix2 r k := funext fun ax => Fin.ext (by
    match ax with
    | ⟨0, _⟩ => exact lhs_0 _ _
    | ⟨1, _⟩ => exact (lhs_1 _ _).trans hk)
  have er : dot_S2000x16_S16x16_S2000x16_1_0_0_1_n_n.rhsIdx (ix2 r q) ((contrEquiv1 dot_S2000x16_S16x16_S2000x16_1_0_0_1_n_n 16 rfl rfl).symm k) = ix2 k q := funext fun ax => Fin.ext (by
    match ax with
    | ⟨0, _⟩ => exact (rhs_0 _ _).trans hk
    | ⟨1, _⟩ => exact rhs_1 _ _)
  rw [el, er, truncf_apply, truncf_apply]
  rw [maximumf_apply, mulf_apply, addf_apply, mulf_apply, broadcast_apply, shapeCast_self, shapeCast_self, shapeCast_self,
    Keepdims.broadcastTo_a1_ab_apply]
  rfl

/-- The printed index maps, decided over the grid: at point t the three row-blocked inputs and the output sit at block
    row t, block column 0; the matrix and the bias row are whole, at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row 2000 t + p is a row of the array. -/
theorem row_lt (t : Fin cfg1.N) (p : Fin 2000) : t.val * 2000 + p.val < 100000 := by
  have ht : t.val < 50 := Nat.lt_of_lt_of_eq t.isLt N_1
  have := p.isLt; omega

/-- Row p, lane q of the first window's block at point t is row 2000 t + p, lane q of its array. -/
theorem agg_blk (c : Dev nD) (t : Fin cfg1.N) (p : Fin 2000) (q : Fin 16) :
    (iblk1 V c 0 t : Vec Ideal S2000x16 .f32) (ix2 p q)
      = (V c main_v52 : S100000x16.Idx → EReal) (ix2 ⟨t.val * 2000 + p.val, row_lt t p⟩ q) := by
  obtain ⟨e00, e01, -⟩ := idx_facts t
  unfold iblk1
  rw [View.read_apply]
  show V c main_v52 _ = V c main_v52 _
  congr 1
  funext a; apply Fin.ext
  match a with
  | ⟨0, _⟩ => show win1_0.index t (0 : Fin 2) * 2000 + 1 * p.val = t.val * 2000 + p.val; omega
  | ⟨1, _⟩ => show win1_0.index t (1 : Fin 2) * 16 + 1 * q.val = q.val; omega

/-- The same for the second window's block and its array. -/
theorem m_blk (c : Dev nD) (t : Fin cfg1.N) (p : Fin 2000) (q : Fin 16) :
    (iblk1 V c 1 t : Vec Ideal S2000x16 .f32) (ix2 p q)
      = (V c main_v1 : S100000x16.Idx → EReal) (ix2 ⟨t.val * 2000 + p.val, row_lt t p⟩ q) := by
  obtain ⟨-, -, e10, e11, -⟩ := idx_facts t
  unfold iblk1
  rw [View.read_apply]
  show V c main_v1 _ = V c main_v1 _
  congr 1
  funext a; apply Fin.ext
  match a with
  | ⟨0, _⟩ => show win1_1.index t (0 : Fin 2) * 2000 + 1 * p.val = t.val * 2000 + p.val; omega
  | ⟨1, _⟩ => show win1_1.index t (1 : Fin 2) * 16 + 1 * q.val = q.val; omega

/-- Row p of the column block at point t is row 2000 t + p of the column array. -/
theorem dinv_blk (c : Dev nD) (t : Fin cfg1.N) (p : Fin 2000) :
    (iblk1 V c 2 t : Vec Ideal S2000x1 .f32) (ix2 p (0 : Fin 1))
      = (V c main_v31 : S100000x1.Idx → EReal) (ix2 ⟨t.val * 2000 + p.val, row_lt t p⟩ (0 : Fin 1)) := by
  obtain ⟨-, -, -, -, e20, e21, -⟩ := idx_facts t
  unfold iblk1
  rw [View.read_apply]
  show V c main_v31 _ = V c main_v31 _
  congr 1
  funext a; apply Fin.ext
  match a with
  | ⟨0, _⟩ => show win1_2.index t (0 : Fin 2) * 2000 + 1 * p.val = t.val * 2000 + p.val; omega
  | ⟨1, _⟩ => show win1_2.index t (1 : Fin 2) * 1 + 1 * 0 = 0; omega

/-- The matrix's block at every point is the matrix. -/
theorem w_blk (c : Dev nD) (t : Fin cfg1.N) (k q : Fin 16) :
    (iblk1 V c 3 t : Vec Ideal S16x16 .f32) (ix2 k q) = (V c main_arg8 : S16x16.Idx → EReal) (ix2 k q) := by
  obtain ⟨-, -, -, -, -, -, e30, e31, -⟩ := idx_facts t
  unfold iblk1
  rw [View.read_apply]
  show V c main_arg8 _ = V c main_arg8 _
  congr 1
  funext a; apply Fin.ext
  match a with
  | ⟨0, _⟩ => show win1_3.index t (0 : Fin 2) * 16 + 1 * k.val = k.val; omega
  | ⟨1, _⟩ => show win1_3.index t (1 : Fin 2) * 16 + 1 * q.val = q.val; omega

/-- The bias row's block at every point is the bias row. -/
theorem b_blk (c : Dev nD) (t : Fin cfg1.N) (q : Fin 16) :
    (iblk1 V c 4 t : Vec Ideal S1x16 .f32) (ix2 (0 : Fin 1) q) = (V c main_v53 : S1x16.Idx → EReal) (ix2 (0 : Fin 1) q) := by
  obtain ⟨-, -, -, -, -, -, -, -, e40, e41, -⟩ := idx_facts t
  unfold iblk1
  rw [View.read_apply]
  show V c main_v53 _ = V c main_v53 _
  congr 1
  funext a; apply Fin.ext
  match a with
  | ⟨0, _⟩ => show win1_4.index t (0 : Fin 2) * 1 + 1 * 0 = 0; omega
  | ⟨1, _⟩ => show win1_4.index t (1 : Fin 2) * 16 + 1 * q.val = q.val; omega

/-- Row p, lane q of the output block at point t sits at row 2000 t + p, lane q of the output array. -/
theorem out_emb (t : Fin cfg1.N) (p : Fin 2000) (q : Fin 16) :
    (((cfg1.win 5).blk t).view.emb (ix2 p q) : S100000x16.Idx) = ix2 ⟨t.val * 2000 + p.val, row_lt t p⟩ q := by
  obtain ⟨-, -, -, -, -, -, -, -, -, -, e50, e51⟩ := idx_facts t
  funext a; apply Fin.ext
  match a with
  | ⟨0, _⟩ => show win1_5.index t (0 : Fin 2) * 2000 + 1 * p.val = t.val * 2000 + p.val; omega
  | ⟨1, _⟩ => show win1_5.index t (1 : Fin 2) * 16 + 1 * q.val = q.val; omega

/-- What point t writes back is block t of the dense layer of relu (dinv * (agg + dinv * M)). -/
theorem flushed_eq (c : Dev nD) (t : Fin cfg1.N) :
    (dat1 (F := Ideal) V c).flushed 5 t
      = ((cfg1.win 5).blk t).view.read (Elt Ideal)
          (Cert.Spec.m2 (V c main_v52) (V c main_v1) (V c main_v31) (V c main_arg8) (V c main_v53)) := by
  show (cfg1.win 5).cut (grid1.coords t) ((dat1 V c).after 5 t) = _
  rw [after1_5]
  unfold out1_5
  rw [View.canon_unit_zero hz]
  simp only [View.ld_unit_zero (S := S2000x16) hz, View.ld_unit_zero (S := S2000x1) hz,
    View.ld_unit_zero (S := S16x16) hz, View.ld_unit_zero (S := S1x16) hz]
  refine funext fun (j : S2000x16.Idx) => ?_
  obtain ⟨p, q, rfl⟩ : ∃ (p : Fin 2000) (q : Fin 16), j = ix2 p q := ⟨j 0, j 1, eq_ix2 j⟩
  show k1_pay1 (iblk1 V c 2 t) (iblk1 V c 0 t) (iblk1 V c 1 t) (iblk1 V c 3 t) (iblk1 V c 4 t) (ix2 p q)
    = Cert.Spec.m2 (V c main_v52) (V c main_v1) (V c main_v31) (V c main_arg8) (V c main_v53)
        (((cfg1.win 5).blk t).view.emb (ix2 p q))
  rw [out_emb t p q, pay_apply]
  refine congrArg₂ (· + ·) (Finset.sum_congr rfl fun k _ => ?_) (b_blk V c t q)
  rw [agg_blk V c t p k, m_blk V c t p k, dinv_blk V c t p, w_blk V c t k q]
  rfl

/-- An index of the array is in point t's block iff each coordinate is in the block's range on its axis. -/
theorem mem_blk (t : Fin cfg1.N) (i : S100000x16.Idx) :
    i ∈ ((cfg1.win 5).blk t).view.set ↔ ∀ a : Fin 2, win1_5.index t a * S2000x16.size a ≤ (i a).val
      ∧ (i a).val < win1_5.index t a * S2000x16.size a + S2000x16.size a := by
  show i ∈ ((View.whole main_v54).slice (win1_5.rect t)).set ↔ _
  rw [View.set_slice_whole, Rect.mem_set_unit]
  exact Iff.rfl

/-- Row r of the array is in the block of point r / 2000. -/
theorem cover (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  obtain ⟨t, ht⟩ : ∃ t : Fin cfg1.N, t.val = (i 0).val / 2000 :=
    ⟨⟨(i 0).val / 2000, Nat.lt_of_lt_of_eq (by omega) N_1.symm⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 16 ≤ (i 1).val ∧ (i 1).val < win1_5.index t (1 : Fin 2) * 16 + 16
    omega

/-- After region 1 the output array is relu (dinv * (agg + dinv * M)) times the 16 x 16 matrix plus the bias row. -/
theorem final1 (c : Dev nD) :
    (dat1 (F := Ideal) V c).arrAt 5 cfg1.N
      = Cert.Spec.m2 (V c main_v52) (V c main_v1) (V c main_v31) (V c main_arg8) (V c main_v53) :=
  (dat1 (F := Ideal) V c).arrAt_eq_of_cover 5 _ (fun t _ => flushed_eq V c t) cover

end Cert.KernelIdeal.K1

end
-- ==== Proof.K2.lean ====
import proofs.«411721_j41652592837293_3_alg».proof.Proof.Gen.KernelIdeal.Frame
import proofs.«411721_j41652592837293_3_alg».proof.Proof.Spec
import proofs.«411721_j41652592837293_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.K2
open Cert.KernelIdeal Cert.KernelIdeal.Gen

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The body's arithmetic at row r, lane q of its blocks: relu (d r * (a r q + d r * m r q)). -/
theorem pay_apply (d : Vec Ideal S2000x1 .f32) (a m : Vec Ideal S2000x16 .f32) (r : Fin 2000) (q : Fin 16) :
    k2_pay1 (F := Ideal) d a m (ix2 r q)
      = max (d (ix2 r (0 : Fin 1)) * (a (ix2 r q) + d (ix2 r (0 : Fin 1)) * m (ix2 r q))) Cert.Spec.c0 := by
  unfold k2_pay1
  rw [maximumf_apply, mulf_apply, addf_apply, mulf_apply, broadcast_apply, shapeCast_self, shapeCast_self, shapeCast_self,
    Keepdims.broadcastTo_a1_ab_apply]
  rfl

/-- The printed index maps, decided over the grid: at point t every window's block is block row t, block column 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row 2000 t + p is a row of the array. -/
theorem row_lt (t : Fin cfg2.N) (p : Fin 2000) : t.val * 2000 + p.val < 100000 := by
  have ht : t.val < 50 := Nat.lt_of_lt_of_eq t.isLt N_2
  have := p.isLt; omega

/-- Row p, lane q of the first window's block at point t is row 2000 t + p, lane q of its array. -/
theorem agg_blk (c : Dev nD) (t : Fin cfg2.N) (p : Fin 2000) (q : Fin 16) :
    (iblk2 V c 0 t : Vec Ideal S2000x16 .f32) (ix2 p q)
      = (V c main_v66 : S100000x16.Idx → EReal) (ix2 ⟨t.val * 2000 + p.val, row_lt t p⟩ q) := by
  obtain ⟨e00, e01, -⟩ := idx_facts t
  unfold iblk2
  rw [View.read_apply]
  show V c main_v66 _ = V c main_v66 _
  congr 1
  funext a; apply Fin.ext
  match a with
  | ⟨0, _⟩ => show win2_0.index t (0 : Fin 2) * 2000 + 1 * p.val = t.val * 2000 + p.val; omega
  | ⟨1, _⟩ => show win2_0.index t (1 : Fin 2) * 16 + 1 * q.val = q.val; omega

/-- The same for the second window's block and its array. -/
theorem m_blk (c : Dev nD) (t : Fin cfg2.N) (p : Fin 2000) (q : Fin 16) :
    (iblk2 V c 1 t : Vec Ideal S2000x16 .f32) (ix2 p q)
      = (V c main_v54 : S100000x16.Idx → EReal) (ix2 ⟨t.val * 2000 + p.val, row_lt t p⟩ q) := by
  obtain ⟨-, -, e10, e11, -⟩ := idx_facts t
  unfold iblk2
  rw [View.read_apply]
  show V c main_v54 _ = V c main_v54 _
  congr 1
  funext a; apply Fin.ext
  match a with
  | ⟨0, _⟩ => show win2_1.index t (0 : Fin 2) * 2000 + 1 * p.val = t.val * 2000 + p.val; omega
  | ⟨1, _⟩ => show win2_1.index t (1 : Fin 2) * 16 + 1 * q.val = q.val; omega

/-- Row p of the column block at point t is row 2000 t + p of the column array. -/
theorem dinv_blk (c : Dev nD) (t : Fin cfg2.N) (p : Fin 2000) :
    (iblk2 V c 2 t : Vec Ideal S2000x1 .f32) (ix2 p (0 : Fin 1))
      = (V c main_v31 : S100000x1.Idx → EReal) (ix2 ⟨t.val * 2000 + p.val, row_lt t p⟩ (0 : Fin 1)) := by
  obtain ⟨-, -, -, -, e20, e21, -⟩ := idx_facts t
  unfold iblk2
  rw [View.read_apply]
  show V c main_v31 _ = V c main_v31 _
  congr 1
  funext a; apply Fin.ext
  match a with
  | ⟨0, _⟩ => show win2_2.index t (0 : Fin 2) * 2000 + 1 * p.val = t.val * 2000 + p.val; omega
  | ⟨1, _⟩ => show win2_2.index t (1 : Fin 2) * 1 + 1 * 0 = 0; omega

/-- Row p, lane q of the output block at point t sits at row 2000 t + p, lane q of the output array. -/
theorem out_emb (t : Fin cfg2.N) (p : Fin 2000) (q : Fin 16) :
    (((cfg2.win 3).blk t).view.emb (ix2 p q) : S100000x16.Idx) = ix2 ⟨t.val * 2000 + p.val, row_lt t p⟩ q := by
  obtain ⟨-, -, -, -, -, -, e30, e31⟩ := idx_facts t
  funext a; apply Fin.ext
  match a with
  | ⟨0, _⟩ => show win2_3.index t (0 : Fin 2) * 2000 + 1 * p.val = t.val * 2000 + p.val; omega
  | ⟨1, _⟩ => show win2_3.index t (1 : Fin 2) * 16 + 1 * q.val = q.val; omega

/-- What point t writes back is block t of relu (dinv * (agg + dinv * M)). -/
theorem flushed_eq (c : Dev nD) (t : Fin cfg2.N) :
    (dat2 (F := Ideal) V c).flushed 3 t
      = ((cfg2.win 3).blk t).view.read (Elt Ideal) (Cert.Spec.hfin (V c main_v66) (V c main_v54) (V c main_v31)) := by
  show (cfg2.win 3).cut (grid2.coords t) ((dat2 V c).after 3 t) = _
  rw [after2_3]
  unfold out2_3
  rw [View.canon_unit_zero hz]
  simp only [View.ld_unit_zero (S := S2000x16) hz, View.ld_unit_zero (S := S2000x1) hz]
  refine funext fun (j : S2000x16.Idx) => ?_
  obtain ⟨p, q, rfl⟩ : ∃ (p : Fin 2000) (q : Fin 16), j = ix2 p q := ⟨j 0, j 1, eq_ix2 j⟩
  show k2_pay1 (iblk2 V c 2 t) (iblk2 V c 0 t) (iblk2 V c 1 t) (ix2 p q)
    = Cert.Spec.hfin (V c main_v66) (V c main_v54) (V c main_v31) (((cfg2.win 3).blk t).view.emb (ix2 p q))
  rw [out_emb t p q, pay_apply, agg_blk V c t p q, m_blk V c t p q, dinv_blk V c t p]
  rfl

/-- An index of the array is in point t's block iff each coordinate is in the block's range on its axis. -/
theorem mem_blk (t : Fin cfg2.N) (i : S100000x16.Idx) :
    i ∈ ((cfg2.win 3).blk t).view.set ↔ ∀ a : Fin 2, win2_3.index t a * S2000x16.size a ≤ (i a).val
      ∧ (i a).val < win2_3.index t a * S2000x16.size a + S2000x16.size a := by
  show i ∈ ((View.whole main_v67).slice (win2_3.rect t)).set ↔ _
  rw [View.set_slice_whole, Rect.mem_set_unit]
  exact Iff.rfl

/-- Row r of the array is in the block of point r / 2000. -/
theorem cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  obtain ⟨t, ht⟩ : ∃ t : Fin cfg2.N, t.val = (i 0).val / 2000 :=
    ⟨⟨(i 0).val / 2000, Nat.lt_of_lt_of_eq (by omega) N_2.symm⟩, rfl⟩
  obtain ⟨-, -, -, -, -, -, e30, e31⟩ := idx_facts t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 16 ≤ (i 1).val ∧ (i 1).val < win2_3.index t (1 : Fin 2) * 16 + 16
    omega

/-- After region 2 the output array is relu (dinv * (agg + dinv * M)). -/
theorem final2 (c : Dev nD) :
    (dat2 (F := Ideal) V c).arrAt 3 cfg2.N = Cert.Spec.hfin (V c main_v66) (V c main_v54) (V c main_v31) :=
  (dat2 (F := Ideal) V c).arrAt_eq_of_cover 3 _ (fun t _ => flushed_eq V c t) cover

end Cert.KernelIdeal.K2

end
-- ==== Proof.K3.lean ====
import proofs.«411721_j41652592837293_3_alg».proof.Proof.Gen.KernelIdeal.Frame
import proofs.«411721_j41652592837293_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.K3
open Cert.KernelIdeal Cert.KernelIdeal.Gen

variable (V : (c : Dev nD) → (b : Ref sig .tc) → Buf (Elt Ideal) ((c : Thread nD τ).loc b))

/-! ## The three products, read at an index

Each product contracts the left operand's second axis with the right operand's first; from the zero accumulator its
entry (e, j) is the plain sum over the shared coordinate. -/

theorem lhs1_0 (i : S5120x16.Idx) (q : dot_S5120x16_S16x16_S5120x16_1_0_0_1_n_n.contr.Idx) :
    (dot_S5120x16_S16x16_S5120x16_1_0_0_1_n_n.lhsIdx i q 0).val = (i 0).val := by
  unfold DotDims.lhsIdx
  rw [dif_neg (show ¬(0 : Fin S5120x16.rank) ∈ dot_S5120x16_S16x16_S5120x16_1_0_0_1_n_n.lhsBatch by decide), dif_pos (show (0 : Fin S5120x16.rank) ∈ dot_S5120x16_S16x16_S5120x16_1_0_0_1_n_n.lhsNonContracting by decide)]
  rfl
theorem lhs1_1 (i : S5120x16.Idx) (q : dot_S5120x16_S16x16_S5120x16_1_0_0_1_n_n.contr.Idx) :
    (dot_S5120x16_S16x16_S5120x16_1_0_0_1_n_n.lhsIdx i q 1).val = (q ⟨0, by decide⟩).val :=
  dot_S5120x16_S16x16_S5120x16_1_0_0_1_n_n.lhsIdx_val_of_single rfl i q
theorem rhs1_0 (i : S5120x16.Idx) (q : dot_S5120x16_S16x16_S5120x16_1_0_0_1_n_n.contr.Idx) :
    (dot_S5120x16_S16x16_S5120x16_1_0_0_1_n_n.rhsIdx i q 0).val = (q ⟨0, by decide⟩).val :=
  dot_S5120x16_S16x16_S5120x16_1_0_0_1_n_n.rhsIdx_val_of_single rfl i q
theorem rhs1_1 (i : S5120x16.Idx) (q : dot_S5120x16_S16x16_S5120x16_1_0_0_1_n_n.contr.Idx) :
    (dot_S5120x16_S16x16_S5120x16_1_0_0_1_n_n.rhsIdx i q 1).val = (i 1).val := by
  unfold DotDims.rhsIdx
  rw [dif_neg (show ¬(1 : Fin S16x16.rank) ∈ dot_S5120x16_S16x16_S5120x16_1_0_0_1_n_n.rhsBatch by decide), dif_pos (show (1 : Fin S16x16.rank) ∈ dot_S5120x16_S16x16_S5120x16_1_0_0_1_n_n.rhsNonContracting by decide)]
  rfl

/-- Entry (e, j) of a [5120,16] by [16,16] product is the sum over the 16 shared coordinates. -/
theorem mm1_apply {φ₁ φ₂ : FTy} (a : FVec Ideal S5120x16 φ₁) (b : FVec Ideal S16x16 φ₂) (e : Fin 5120) (j : Fin 16) :
    matmul dot_S5120x16_S16x16_S5120x16_1_0_0_1_n_n none a b (constant (F := Ideal) S5120x16 .f32 0x00000000#32) (ix2 e j)
      = ∑ k : Fin 16, a (ix2 e k) * b (ix2 k j) := by
  refine (Ideal.matmul_constant_zero_apply dot_S5120x16_S16x16_S5120x16_1_0_0_1_n_n none a b (ix2 e j)).trans ?_
  rw [← Equiv.sum_comp (contrEquiv1 dot_S5120x16_S16x16_S5120x16_1_0_0_1_n_n 16 rfl rfl).symm]
  refine Finset.sum_congr rfl fun k _ => ?_
  have hk := contrEquiv1_symm_val dot_S5120x16_S16x16_S5120x16_1_0_0_1_n_n 16 rfl rfl k
  have el : dot_S5120x16_S16x16_S5120x16_1_0_0_1_n_n.lhsIdx (ix2 e j) ((contrEquiv1 dot_S5120x16_S16x16_S5120x16_1_0_0_1_n_n 16 rfl rfl).symm k) = ix2 e k := funext fun ax => Fin.ext (by
    match ax with
    | ⟨0, _⟩ => exact lhs1_0 _ _
    | ⟨1, _⟩ => exact (lhs1_1 _ _).trans hk)
  have er : dot_S5120x16_S16x16_S5120x16_1_0_0_1_n_n.rhsIdx (ix2 e j) ((contrEquiv1 dot_S5120x16_S16x16_S5120x16_1_0_0_1_n_n 16 rfl rfl).symm k) = ix2 k j := funext fun ax => Fin.ext (by
    match ax with
    | ⟨0, _⟩ => exact (rhs1_0 _ _).trans hk
    | ⟨1, _⟩ => exact rhs1_1 _ _)
  rw [el, er]

theorem lhs2_0 (i : S5120x16.Idx) (q : dot_S5120x5_S5x16_S5120x16_1_0_0_1_n_n.contr.Idx) :
    (dot_S5120x5_S5x16_S5120x16_1_0_0_1_n_n.lhsIdx i q 0).val = (i 0).val := by
  unfold DotDims.lhsIdx
  rw [dif_neg (show ¬(0 : Fin S5120x5.rank) ∈ dot_S5120x5_S5x16_S5120x16_1_0_0_1_n_n.lhsBatch by decide), dif_pos (show (0 : Fin S5120x5.rank) ∈ dot_S5120x5_S5x16_S5120x16_1_0_0_1_n_n.lhsNonContracting by decide)]
  rfl
theorem lhs2_1 (i : S5120x16.Idx) (q : dot_S5120x5_S5x16_S5120x16_1_0_0_1_n_n.contr.Idx) :
    (dot_S5120x5_S5x16_S5120x16_1_0_0_1_n_n.lhsIdx i q 1).val = (q ⟨0, by decide⟩).val :=
  dot_S5120x5_S5x16_S5120x16_1_0_0_1_n_n.lhsIdx_val_of_single rfl i q
theorem rhs2_0 (i : S5120x16.Idx) (q : dot_S5120x5_S5x16_S5120x16_1_0_0_1_n_n.contr.Idx) :
    (dot_S5120x5_S5x16_S5120x16_1_0_0_1_n_n.rhsIdx i q 0).val = (q ⟨0, by decide⟩).val :=
  dot_S5120x5_S5x16_S5120x16_1_0_0_1_n_n.rhsIdx_val_of_single rfl i q
theorem rhs2_1 (i : S5120x16.Idx) (q : dot_S5120x5_S5x16_S5120x16_1_0_0_1_n_n.contr.Idx) :
    (dot_S5120x5_S5x16_S5120x16_1_0_0_1_n_n.rhsIdx i q 1).val = (i 1).val := by
  unfold DotDims.rhsIdx
  rw [dif_neg (show ¬(1 : Fin S5x16.rank) ∈ dot_S5120x5_S5x16_S5120x16_1_0_0_1_n_n.rhsBatch by decide), dif_pos (show (1 : Fin S5x16.rank) ∈ dot_S5120x5_S5x16_S5120x16_1_0_0_1_n_n.rhsNonContracting by decide)]
  rfl

/-- Entry (e, j) of a [5120,5] by [5,16] product is the sum over the 5 shared coordinates. -/
theorem mm2_apply {φ₁ φ₂ : FTy} (a : FVec Ideal S5120x5 φ₁) (b : FVec Ideal S5x16 φ₂) (e : Fin 5120) (j : Fin 16) :
    matmul dot_S5120x5_S5x16_S5120x16_1_0_0_1_n_n none a b (constant (F := Ideal) S5120x16 .f32 0x00000000#32) (ix2 e j)
      = ∑ k : Fin 5, a (ix2 e k) * b (ix2 k j) := by
  refine (Ideal.matmul_constant_zero_apply dot_S5120x5_S5x16_S5120x16_1_0_0_1_n_n none a b (ix2 e j)).trans ?_
  rw [← Equiv.sum_comp (contrEquiv1 dot_S5120x5_S5x16_S5120x16_1_0_0_1_n_n 5 rfl rfl).symm]
  refine Finset.sum_congr rfl fun k _ => ?_
  have hk := contrEquiv1_symm_val dot_S5120x5_S5x16_S5120x16_1_0_0_1_n_n 5 rfl rfl k
  have el : dot_S5120x5_S5x16_S5120x16_1_0_0_1_n_n.lhsIdx (ix2 e j) ((contrEquiv1 dot_S5120x5_S5x16_S5120x16_1_0_0_1_n_n 5 rfl rfl).symm k) = ix2 e k := funext fun ax => Fin.ext (by
    match ax with
    | ⟨0, _⟩ => exact lhs2_0 _ _
    | ⟨1, _⟩ => exact (lhs2_1 _ _).trans hk)
  have er : dot_S5120x5_S5x16_S5120x16_1_0_0_1_n_n.rhsIdx (ix2 e j) ((contrEquiv1 dot_S5120x5_S5x16_S5120x16_1_0_0_1_n_n 5 rfl rfl).symm k) = ix2 k j := funext fun ax => Fin.ext (by
    match ax with
    | ⟨0, _⟩ => exact (rhs2_0 _ _).trans hk
    | ⟨1, _⟩ => exact rhs2_1 _ _)
  rw [el, er]

theorem lhs3_0 (i : S5120x1.Idx) (q : dot_S5120x16_S16x1_S5120x1_1_0_0_1_n_n.contr.Idx) :
    (dot_S5120x16_S16x1_S5120x1_1_0_0_1_n_n.lhsIdx i q 0).val = (i 0).val := by
  unfold DotDims.lhsIdx
  rw [dif_neg (show ¬(0 : Fin S5120x16.rank) ∈ dot_S5120x16_S16x1_S5120x1_1_0_0_1_n_n.lhsBatch by decide), dif_pos (show (0 : Fin S5120x16.rank) ∈ dot_S5120x16_S16x1_S5120x1_1_0_0_1_n_n.lhsNonContracting by decide)]
  rfl
theorem lhs3_1 (i : S5120x1.Idx) (q : dot_S5120x16_S16x1_S5120x1_1_0_0_1_n_n.contr.Idx) :
    (dot_S5120x16_S16x1_S5120x1_1_0_0_1_n_n.lhsIdx i q 1).val = (q ⟨0, by decide⟩).val :=
  dot_S5120x16_S16x1_S5120x1_1_0_0_1_n_n.lhsIdx_val_of_single rfl i q
theorem rhs3_0 (i : S5120x1.Idx) (q : dot_S5120x16_S16x1_S5120x1_1_0_0_1_n_n.contr.Idx) :
    (dot_S5120x16_S16x1_S5120x1_1_0_0_1_n_n.rhsIdx i q 0).val = (q ⟨0, by decide⟩).val :=
  dot_S5120x16_S16x1_S5120x1_1_0_0_1_n_n.rhsIdx_val_of_single rfl i q
theorem rhs3_1 (i : S5120x1.Idx) (q : dot_S5120x16_S16x1_S5120x1_1_0_0_1_n_n.contr.Idx) :
    (dot_S5120x16_S16x1_S5120x1_1_0_0_1_n_n.rhsIdx i q 1).val = (i 1).val := by
  unfold DotDims.rhsIdx
  rw [dif_neg (show ¬(1 : Fin S16x1.rank) ∈ dot_S5120x16_S16x1_S5120x1_1_0_0_1_n_n.rhsBatch by decide), dif_pos (show (1 : Fin S16x1.rank) ∈ dot_S5120x16_S16x1_S5120x1_1_0_0_1_n_n.rhsNonContracting by decide)]
  rfl

/-- Entry (e, 0) of a [5120,16] by [16,1] product is the sum over the 16 shared coordinates. -/
theorem mm3_apply {φ₁ φ₂ : FTy} (a : FVec Ideal S5120x16 φ₁) (b : FVec Ideal S16x1 φ₂) (e : Fin 5120) (j : Fin 1) :
    matmul dot_S5120x16_S16x1_S5120x1_1_0_0_1_n_n none a b (constant (F := Ideal) S5120x1 .f32 0x00000000#32) (ix2 e j)
      = ∑ k : Fin 16, a (ix2 e k) * b (ix2 k j) := by
  refine (Ideal.matmul_constant_zero_apply dot_S5120x16_S16x1_S5120x1_1_0_0_1_n_n none a b (ix2 e j)).trans ?_
  rw [← Equiv.sum_comp (contrEquiv1 dot_S5120x16_S16x1_S5120x1_1_0_0_1_n_n 16 rfl rfl).symm]
  refine Finset.sum_congr rfl fun k _ => ?_
  have hk := contrEquiv1_symm_val dot_S5120x16_S16x1_S5120x1_1_0_0_1_n_n 16 rfl rfl k
  have el : dot_S5120x16_S16x1_S5120x1_1_0_0_1_n_n.lhsIdx (ix2 e j) ((contrEquiv1 dot_S5120x16_S16x1_S5120x1_1_0_0_1_n_n 16 rfl rfl).symm k) = ix2 e k := funext fun ax => Fin.ext (by
    match ax with
    | ⟨0, _⟩ => exact lhs3_0 _ _
    | ⟨1, _⟩ => exact (lhs3_1 _ _).trans hk)
  have er : dot_S5120x16_S16x1_S5120x1_1_0_0_1_n_n.rhsIdx (ix2 e j) ((contrEquiv1 dot_S5120x16_S16x1_S5120x1_1_0_0_1_n_n 16 rfl rfl).symm k) = ix2 k j := funext fun ax => Fin.ext (by
    match ax with
    | ⟨0, _⟩ => exact (rhs3_0 _ _).trans hk
    | ⟨1, _⟩ => exact rhs3_1 _ _)
  rw [el, er]

/-! ## The body's value at an edge of the block -/

/-- The [5120,1] column read as a [5120] vector: entry e is the column's entry (e, 0). -/
theorem column_apply {α : Type} (v : S5120x1.Idx → α) (h : S5120x1.ShapeCasts S5120) (e : Fin 5120) :
    shapeCast S5120 v h (ix1 e) = v (ix2 e (0 : Fin 1)) :=
  shapeCast_apply v h (ix1 e) (ix2 e (0 : Fin 1)) (by
    rw [Shape.rowMajor_val_two, Shape.rowMajor_val_one]
    show e.val * 1 + 0 = e.val
    omega)

/-- What the body computes for edge e of its block: the three products of the edge's source features, destination
    features and attributes with their weight blocks, added in that order, plus the bias row, clipped below at zero,
    then the product with the one-column weight, plus the one-entry bias. -/
theorem pay1_apply (x0 x1 : Vec Ideal S5120x16 .bf16) (x2 : Vec Ideal S5120x5 .bf16) (x3 x4 : Vec Ideal S16x16 .f32)
    (x5 : Vec Ideal S5x16 .f32) (x6 : Vec Ideal S1x16 .f32) (x7 : Vec Ideal S16x1 .f32) (x8 : Vec Ideal S1x1 .f32) (e : Fin 5120) :
    k3_pay1 x0 x1 x2 x3 x4 x5 x6 x7 x8 (ix1 e)
      = (∑ j : Fin 16, max ((((∑ k : Fin 16, x0 (ix2 e k) * x3 (ix2 k j)) + (∑ k : Fin 16, x1 (ix2 e k) * x4 (ix2 k j)))
            + (∑ k : Fin 5, x2 (ix2 e k) * x5 (ix2 k j))) + x6 (ix2 0 j)) Cert.Spec.c0 * x7 (ix2 j 0)) + x8 (ix2 0 0) := by
  unfold k3_pay1
  simp only [shapeCast_self]
  rw [column_apply, addf_apply, mm3_apply, broadcastTo_1b_ab_apply]
  refine congrArg (· + x8 (ix2 0 0)) (Finset.sum_congr rfl fun j _ => ?_)
  rw [truncf_apply, truncf_apply, maximumf_apply, addf_apply, addf_apply, addf_apply, mm1_apply, mm1_apply, mm2_apply,
    broadcastTo_1b_ab_apply, broadcast_apply]
  simp only [truncf_apply]
  rfl

/-! ## From blocks to the array -/

/-- The body's value at edge e of a block is the edge score of the array's edge g, once the three edge blocks are rows
    g of their arrays (the block's row e is the array's row g) and the six weight and bias blocks are their arrays. -/
theorem block_logit (Hs Hd : Cert.Spec.A2 3200000 16) (ea : Cert.Spec.A2 3200000 5) (ws wd : Cert.Spec.A2 16 16)
    (we : Cert.Spec.A2 5 16) (b1 : Cert.Spec.A2 1 16) (w2 : Cert.Spec.A2 16 1) (b2 : Cert.Spec.A2 1 1)
    (x0 x1 : Vec Ideal S5120x16 .bf16) (x2 : Vec Ideal S5120x5 .bf16) (x3 x4 : Vec Ideal S16x16 .f32)
    (x5 : Vec Ideal S5x16 .f32) (x6 : Vec Ideal S1x16 .f32) (x7 : Vec Ideal S16x1 .f32) (x8 : Vec Ideal S1x1 .f32)
    (e : Fin 5120) (g : Fin 3200000)
    (h0 : ∀ k : Fin 16, x0 (ix2 e k) = Hs (ix2 g k)) (h1 : ∀ k : Fin 16, x1 (ix2 e k) = Hd (ix2 g k))
    (h2 : ∀ k : Fin 5, x2 (ix2 e k) = ea (ix2 g k))
    (h3 : x3 = ws) (h4 : x4 = wd) (h5 : x5 = we) (h6 : x6 = b1) (h7 : x7 = w2) (h8 : x8 = b2) :
    k3_pay1 x0 x1 x2 x3 x4 x5 x6 x7 x8 (ix1 e) = Cert.Spec.logitAt Hs Hd ea ws wd we b1 w2 b2 g := by
  rw [pay1_apply, h3, h4, h5, h6, h7, h8]
  simp only [h0, h1, h2]
  rfl

theorem hz1 : (![0] : Fin 1 → Nat) = fun _ => 0 := funext fun a => by fin_cases a; rfl
theorem hz2 : (![0, 0] : Fin 2 → Nat) = fun _ => 0 := funext fun a => by fin_cases a <;> rfl

/-- Where each window's block sits at grid point t: the three edge windows and the output at block t along the edge
    axis, every weight and bias window at its one whole block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 1) = t.val :=
  (by decide +kernel : ∀ t : Fin grid3.N, _)

set_option maxHeartbeats 400000 in
/-- What point t writes back is block t of the edge scores of the nine arrays as the region finds them: edge e of the
    block is edge 5120 t + e of the arrays. -/
theorem flushed_eq (c : Dev nD) (t : Fin cfg3.N) :
    (dat3 (F := Ideal) V c).flushed 9 t = ((cfg3.win 9).blk t).view.read (Elt Ideal)
      (Cert.Spec.logit (V c main_v75) (V c main_v82) (V c main_v83) (V c main_v84) (V c main_v85) (V c main_v86)
          (V c main_v87) (V c main_arg12) (V c main_v88)) := by
  show (cfg3.win 9).cut (grid3.coords t) ((dat3 V c).after 9 t) = _
  rw [after3_9]
  unfold out3_9
  rw [View.canon_unit_zero hz1]
  simp only [View.ld_unit_zero (S := S5120x16) hz2, View.ld_unit_zero (S := S5120x5) hz2, View.ld_unit_zero (S := S16x16) hz2,
    View.ld_unit_zero (S := S5x16) hz2, View.ld_unit_zero (S := S1x16) hz2, View.ld_unit_zero (S := S16x1) hz2,
    View.ld_unit_zero (S := S1x1) hz2]
  obtain ⟨f00, f01, f10, f11, f20, f21, f30, f31, f40, f41, f50, f51, f60, f61, f70, f71, f80, f81, f9⟩ := idx_facts t
  funext j
  show k3_pay1 (iblk3 V c 0 t) (iblk3 V c 1 t) (iblk3 V c 2 t) (iblk3 V c 3 t) (iblk3 V c 4 t) (iblk3 V c 5 t)
      (iblk3 V c 6 t) (iblk3 V c 7 t) (iblk3 V c 8 t) j
    = Cert.Spec.logit (V c main_v75) (V c main_v82) (V c main_v83) (V c main_v84) (V c main_v85) (V c main_v86)
        (V c main_v87) (V c main_arg12) (V c main_v88) (((cfg3.win 9).blk t).view.emb j)
  obtain ⟨e, rfl⟩ : ∃ e : Fin 5120, j = ix1 e := ⟨j 0, eq_ix1 j⟩
  have hg : ((((cfg3.win 9).blk t).view.emb (ix1 e)) 0).val = t.val * 5120 + e.val := by
    show win3_9.index t (0 : Fin 1) * 5120 + 1 * e.val = _
    rw [f9]; omega
  refine block_logit (V c main_v75) (V c main_v82) (V c main_v83) (V c main_v84) (V c main_v85) (V c main_v86)
    (V c main_v87) (V c main_arg12) (V c main_v88) (iblk3 V c 0 t) (iblk3 V c 1 t) (iblk3 V c 2 t) (iblk3 V c 3 t)
    (iblk3 V c 4 t) (iblk3 V c 5 t) (iblk3 V c 6 t) (iblk3 V c 7 t) (iblk3 V c 8 t) e
    ⟨((((cfg3.win 9).blk t).view.emb (ix1 e)) 0).val, ((((cfg3.win 9).blk t).view.emb (ix1 e)) 0).isLt⟩
    (fun k => ?_) (fun k => ?_) (fun k => ?_) (funext fun y => ?_) (funext fun y => ?_) (funext fun y => ?_)
    (funext fun y => ?_) (funext fun y => ?_) (funext fun y => ?_)
  · show V c main_v75 (((cfg3.win 0).blk t).view.emb (ix2 e k)) = V c main_v75 _
    refine congrArg _ (funext fun a => Fin.ext ?_)
    match a with
    | ⟨0, _⟩ => show win3_0.index t (0 : Fin 2) * 5120 + 1 * e.val = _; rw [f00]; exact (by omega : _ = t.val * 5120 + e.val).trans hg.symm
    | ⟨1, _⟩ => show win3_0.index t (1 : Fin 2) * 16 + 1 * k.val = k.val; rw [f01]; omega
  · show V c main_v82 (((cfg3.win 1).blk t).view.emb (ix2 e k)) = V c main_v82 _
    refine congrArg _ (funext fun a => Fin.ext ?_)
    match a with
    | ⟨0, _⟩ => show win3_1.index t (0 : Fin 2) * 5120 + 1 * e.val = _; rw [f10]; exact (by omega : _ = t.val * 5120 + e.val).trans hg.symm
    | ⟨1, _⟩ => show win3_1.index t (1 : Fin 2) * 16 + 1 * k.val = k.val; rw [f11]; omega
  · show V c main_v83 (((cfg3.win 2).blk t).view.emb (ix2 e k)) = V c main_v83 _
    refine congrArg _ (funext fun a => Fin.ext ?_)
    match a with
    | ⟨0, _⟩ => show win3_2.index t (0 : Fin 2) * 5120 + 1 * e.val = _; rw [f20]; exact (by omega : _ = t.val * 5120 + e.val).trans hg.symm
    | ⟨1, _⟩ => show win3_2.index t (1 : Fin 2) * 5 + 1 * k.val = k.val; rw [f21]; omega
  · show V c main_v84 (((cfg3.win 3).blk t).view.emb y) = V c main_v84 y
    refine congrArg _ (funext fun a => Fin.ext ?_)
    match a with
    | ⟨0, _⟩ => show win3_3.index t (0 : Fin 2) * 16 + 1 * (y 0).val = (y 0).val; rw [f30]; omega
    | ⟨1, _⟩ => show win3_3.index t (1 : Fin 2) * 16 + 1 * (y 1).val = (y 1).val; rw [f31]; omega
  · show V c main_v85 (((cfg3.win 4).blk t).view.emb y) = V c main_v85 y
    refine congrArg _ (funext fun a => Fin.ext ?_)
    match a with
    | ⟨0, _⟩ => show win3_4.index t (0 : Fin 2) * 16 + 1 * (y 0).val = (y 0).val; rw [f40]; omega
    | ⟨1, _⟩ => show win3_4.index t (1 : Fin 2) * 16 + 1 * (y 1).val = (y 1).val; rw [f41]; omega
  · show V c main_v86 (((cfg3.win 5).blk t).view.emb y) = V c main_v86 y
    refine congrArg _ (funext fun a => Fin.ext ?_)
    match a with
    | ⟨0, _⟩ => show win3_5.index t (0 : Fin 2) * 5 + 1 * (y 0).val = (y 0).val; rw [f50]; omega
    | ⟨1, _⟩ => show win3_5.index t (1 : Fin 2) * 16 + 1 * (y 1).val = (y 1).val; rw [f51]; omega
  · show V c main_v87 (((cfg3.win 6).blk t).view.emb y) = V c main_v87 y
    refine congrArg _ (funext fun a => Fin.ext ?_)
    match a with
    | ⟨0, _⟩ => show win3_6.index t (0 : Fin 2) * 1 + 1 * (y 0).val = (y 0).val; rw [f60]; omega
    | ⟨1, _⟩ => show win3_6.index t (1 : Fin 2) * 16 + 1 * (y 1).val = (y 1).val; rw [f61]; omega
  · show V c main_arg12 (((cfg3.win 7).blk t).view.emb y) = V c main_arg12 y
    refine congrArg _ (funext fun a => Fin.ext ?_)
    match a with
    | ⟨0, _⟩ => show win3_7.index t (0 : Fin 2) * 16 + 1 * (y 0).val = (y 0).val; rw [f70]; omega
    | ⟨1, _⟩ => show win3_7.index t (1 : Fin 2) * 1 + 1 * (y 1).val = (y 1).val; rw [f71]; omega
  · show V c main_v88 (((cfg3.win 8).blk t).view.emb y) = V c main_v88 y
    refine congrArg _ (funext fun a => Fin.ext ?_)
    match a with
    | ⟨0, _⟩ => show win3_8.index t (0 : Fin 2) * 1 + 1 * (y 0).val = (y 0).val; rw [f80]; omega
    | ⟨1, _⟩ => show win3_8.index t (1 : Fin 2) * 1 + 1 * (y 1).val = (y 1).val; rw [f81]; omega

/-- An edge of the output array is in point t's block iff it lies in the 5120 edges the block starts at. -/
theorem mem_blk (t : Fin cfg3.N) (i : S3200000.Idx) :
    i ∈ ((cfg3.win 9).blk t).view.set ↔ ∀ a : Fin 1, win3_9.index t a * S5120.size a ≤ (i a).val ∧ (i a).val < win3_9.index t a * S5120.size a + S5120.size a := by
  show i ∈ ((View.whole main_v89).slice (win3_9.rect t)).set ↔ _
  rw [View.set_slice_whole, Rect.mem_set_unit]
  exact Iff.rfl

/-- Every edge is written back by some point: edge r by point r / 5120. -/
theorem cover (i : S3200000.Idx) : ∃ t : Fin cfg3.N, (cfg3.win 9).flush t = true ∧ i ∈ ((cfg3.win 9).blk t).view.set := by
  have hi : (i 0).val < 3200000 := (i 0).isLt
  have hN : cfg3.N = 625 := N_3
  have ht : (i 0).val / 5120 < cfg3.N := by rw [hN]; omega
  obtain ⟨-, -, -, -, -, -, -, -, -, -, -, -, -, -, -, -, -, -, f9⟩ := idx_facts ⟨(i 0).val / 5120, ht⟩
  refine ⟨⟨(i 0).val / 5120, ht⟩, flush3_9 _, ?_⟩
  rw [mem_blk]
  intro a
  match a with
  | ⟨0, _⟩ =>
    show win3_9.index ⟨(i 0).val / 5120, ht⟩ (0 : Fin 1) * 5120 ≤ (i 0).val ∧ (i 0).val < win3_9.index ⟨(i 0).val / 5120, ht⟩ (0 : Fin 1) * 5120 + 5120
    rw [f9]
    show (i 0).val / 5120 * 5120 ≤ (i 0).val ∧ (i 0).val < (i 0).val / 5120 * 5120 + 5120
    omega

/-- After region 3 the output array holds the edge scores of the nine arrays the region reads. -/
theorem final3 (c : Dev nD) :
    (dat3 (F := Ideal) V c).arrAt 9 cfg3.N
      = Cert.Spec.logit (V c main_v75) (V c main_v82) (V c main_v83) (V c main_v84) (V c main_v85) (V c main_v86)
          (V c main_v87) (V c main_arg12) (V c main_v88) :=
  (dat3 (F := Ideal) V c).arrAt_eq_of_cover 9 _ (fun t _ => flushed_eq V c t) cover

end Cert.KernelIdeal.K3

end
-- ==== Proof.EncodeMath.lean ====
import proofs.«411721_j41652592837293_3_alg».proof.Proof.Spec
import Idealize.ShloMosaic.PureOps.Ideal.Laws

noncomputable section

open Idealize.ShloMosaic Idealize.ShloMosaic.ValueIdx
open scoped BigOperators

namespace Cert.Spec.Encode
open Cert.Spec

/-! ## Indicators and sums of nonnegative extended reals -/

/-- An indicator of a true condition is 1. -/
theorem ind_pos {p : Prop} [Decidable p] (h : p) : ind p = 1 := if_pos h

/-- An indicator of a false condition is 0. -/
theorem ind_neg {p : Prop} [Decidable p] (h : ¬p) : ind p = 0 := if_neg h

/-- An indicator is nonnegative. -/
theorem ind_nonneg (p : Prop) [Decidable p] : 0 ≤ ind p := by
  by_cases h : p
  · rw [ind_pos h]; exact zero_le_one
  · rw [ind_neg h]

/-- An indicator is the coercion of the real indicator. -/
theorem ind_eq_coe (p : Prop) [Decidable p] : ind p = (((if p then 1 else 0 : ℝ)) : EReal) := by
  by_cases h : p
  · rw [ind_pos h, if_pos h]; exact EReal.coe_one.symm
  · rw [ind_neg h, if_neg h]; exact EReal.coe_zero.symm

/-- A sum of nonnegative extended reals times ANY extended real is the sum of the products: the factor need not be
    finite, because the summands' products all carry the factor's sign and so never meet as opposite infinities. -/
theorem sum_mul_of_nonneg {ι : Type} (s : Finset ι) (f : ι → EReal) (hf : ∀ i, 0 ≤ f i) (e : EReal) :
    (∑ i ∈ s, f i) * e = ∑ i ∈ s, f i * e := by
  classical
  refine Finset.induction_on s ?_ ?_
  · rw [Finset.sum_empty, Finset.sum_empty, zero_mul]
  · intro a s ha ih
    rw [Finset.sum_insert ha, Finset.sum_insert ha,
      EReal.right_distrib_of_nonneg (hf a) (Finset.sum_nonneg fun i _ => hf i), ih]

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-- A sum of indicators is the coercion of the real sum of the real indicators. -/
theorem sum_ind_eq_coe {ι : Type} (s : Finset ι) (p : ι → Prop) [DecidablePred p] :
    ∑ i ∈ s, ind (p i) = (((∑ i ∈ s, if p i then 1 else 0 : ℝ)) : EReal) := by
  rw [coe_sum]
  exact Finset.sum_congr rfl fun i _ => ind_eq_coe (p i)

/-! ## One token -/

/-- A nonnegative token is 0, 1, 2, 3, 4 or at least 5. -/
theorem tok_cases (t : BitVec 32) (h : 0 ≤ t.toInt) :
    t = 0#32 ∨ t = 1#32 ∨ t = 2#32 ∨ t = 3#32 ∨ t = 4#32 ∨ (5 : Int) ≤ t.toInt := by
  by_cases h5 : (5 : Int) ≤ t.toInt
  · exact Or.inr (Or.inr (Or.inr (Or.inr (Or.inr h5))))
  · have hc : t.toInt = 0 ∨ t.toInt = 1 ∨ t.toInt = 2 ∨ t.toInt = 3 ∨ t.toInt = 4 := by omega
    rcases hc with h | h | h | h | h
    · exact Or.inl (BitVec.eq_of_toInt_eq (by rw [h]; rfl))
    · exact Or.inr (Or.inl (BitVec.eq_of_toInt_eq (by rw [h]; rfl)))
    · exact Or.inr (Or.inr (Or.inl (BitVec.eq_of_toInt_eq (by rw [h]; rfl))))
    · exact Or.inr (Or.inr (Or.inr (Or.inl (BitVec.eq_of_toInt_eq (by rw [h]; rfl)))))
    · exact Or.inr (Or.inr (Or.inr (Or.inr (Or.inl (BitVec.eq_of_toInt_eq (by rw [h]; rfl))))))

/-- For one nonnegative token, the five bucket indicators times their rows add up to the row the token reads times
    its mask: exactly one bucket holds the token unless it is the padding token 0, which no bucket holds. -/
theorem bucket_eq (E : Fin 6 → EReal) (t : BitVec 32) (h : 0 ≤ t.toInt) :
    ((((ind (t = 1#32) * E 1 + ind (t = 2#32) * E 2) + ind (t = 3#32) * E 3) + ind (t = 4#32) * E 4)
      + ind ((5 : Int) ≤ t.toInt) * E 5) = E (tokRow t) * ind (t ≠ 0#32) := by
  rcases tok_cases t h with rfl | rfl | rfl | rfl | rfl | h5
  · rw [ind_neg (by decide : ¬ (0#32 = 1#32)), ind_neg (by decide : ¬ (0#32 = 2#32)),
      ind_neg (by decide : ¬ (0#32 = 3#32)), ind_neg (by decide : ¬ (0#32 = 4#32)),
      ind_neg (by decide : ¬ ((5 : Int) ≤ (0#32).toInt)), ind_neg (by decide : ¬ (0#32 ≠ 0#32))]
    simp only [zero_mul, mul_zero, add_zero]
  · have hr : tokRow 1#32 = 1 := by decide
    rw [hr, ind_pos (rfl : 1#32 = 1#32), ind_neg (by decide : ¬ (1#32 = 2#32)),
      ind_neg (by decide : ¬ (1#32 = 3#32)), ind_neg (by decide : ¬ (1#32 = 4#32)),
      ind_neg (by decide : ¬ ((5 : Int) ≤ (1#32).toInt)), ind_pos (by decide : 1#32 ≠ 0#32)]
    simp only [zero_mul, one_mul, mul_one, add_zero]
  · have hr : tokRow 2#32 = 2 := by decide
    rw [hr, ind_neg (by decide : ¬ (2#32 = 1#32)), ind_pos (rfl : 2#32 = 2#32),
      ind_neg (by decide : ¬ (2#32 = 3#32)), ind_neg (by decide : ¬ (2#32 = 4#32)),
      ind_neg (by decide : ¬ ((5 : Int) ≤ (2#32).toInt)), ind_pos (by decide : 2#32 ≠ 0#32)]
    simp only [zero_mul, one_mul, mul_one, add_zero, zero_add]
  · have hr : tokRow 3#32 = 3 := by decide
    rw [hr, ind_neg (by decide : ¬ (3#32 = 1#32)), ind_neg (by decide : ¬ (3#32 = 2#32)),
      ind_pos (rfl : 3#32 = 3#32), ind_neg (by decide : ¬ (3#32 = 4#32)),
      ind_neg (by decide : ¬ ((5 : Int) ≤ (3#32).toInt)), ind_pos (by decide : 3#32 ≠ 0#32)]
    simp only [zero_mul, one_mul, mul_one, add_zero, zero_add]
  · have hr : tokRow 4#32 = 4 := by decide
    rw [hr, ind_neg (by decide : ¬ (4#32 = 1#32)), ind_neg (by decide : ¬ (4#32 = 2#32)),
      ind_neg (by decide : ¬ (4#32 = 3#32)), ind_pos (rfl : 4#32 = 4#32),
      ind_neg (by decide : ¬ ((5 : Int) ≤ (4#32).toInt)), ind_pos (by decide : 4#32 ≠ 0#32)]
    simp only [zero_mul, one_mul, mul_one, add_zero, zero_add]
  · have h0 : t ≠ 0#32 := by rintro rfl; exact absurd h5 (by decide)
    have h1 : ¬ t = 1#32 := by rintro rfl; exact absurd h5 (by decide)
    have h2 : ¬ t = 2#32 := by rintro rfl; exact absurd h5 (by decide)
    have h3 : ¬ t = 3#32 := by rintro rfl; exact absurd h5 (by decide)
    have h4 : ¬ t = 4#32 := by rintro rfl; exact absurd h5 (by decide)
    have hr : tokRow t = 5 := by
      apply Fin.ext
      show min t.toInt.toNat 5 = 5
      omega
    rw [hr, ind_neg h1, ind_neg h2, ind_neg h3, ind_neg h4, ind_pos h5, ind_pos h0]
    simp only [zero_mul, one_mul, mul_one, zero_add]

/-! ## Numerator and denominator of a node's mean -/

/-- The histogram's accumulation is the masked sum of the rows the tokens read: each count times its row is the sum
    over the tokens of indicator times row, the five sums merge into one, and its terms are the buckets of one token. -/
theorem accK_eq (tok : Tok) (embed : A2 6 16) (htok : ∀ i, 0 ≤ (tok i).toInt) (n : Fin 100000) (j : Fin 16) :
    accK tok embed n j
      = ∑ l : Fin 64, embed (ix2 (tokRow (tok (ix2 n l))) j) * ind (tok (ix2 n l) ≠ 0#32) := by
  unfold accK cnt c0
  rw [Ideal.ofBits_zero_f32, zero_add]
  rw [sum_mul_of_nonneg _ _ (fun _ => ind_nonneg _), sum_mul_of_nonneg _ _ (fun _ => ind_nonneg _),
    sum_mul_of_nonneg _ _ (fun _ => ind_nonneg _), sum_mul_of_nonneg _ _ (fun _ => ind_nonneg _),
    sum_mul_of_nonneg _ _ (fun _ => ind_nonneg _)]
  rw [← Finset.sum_add_distrib, ← Finset.sum_add_distrib, ← Finset.sum_add_distrib, ← Finset.sum_add_distrib]
  exact Finset.sum_congr rfl fun l _ => bucket_eq (fun r => embed (ix2 r j)) (tok (ix2 n l)) (htok _)

/-- The f32 word 0x42800000 denotes 64. -/
theorem c64_eq : c64 = ((64 : ℝ) : EReal) := by
  unfold c64
  simp [Ideal.ofBits, Ideal.ieee, -EReal.coe_mul]; norm_num

/-- 64 minus the number of padding tokens is the number of the others: both counts are real, and among the reals
    64 − Σ z = Σ (1 − z) over 64 terms. -/
theorem den_eq (tok : Tok) (n : Fin 100000) :
    c64 - cnt tok (fun t => t = 0#32) n = ∑ l : Fin 64, ind (tok (ix2 n l) ≠ 0#32) := by
  unfold cnt
  rw [c64_eq, sum_ind_eq_coe Finset.univ (fun l : Fin 64 => tok (ix2 n l) = 0#32),
    sum_ind_eq_coe Finset.univ (fun l : Fin 64 => tok (ix2 n l) ≠ 0#32), ← EReal.coe_sub]
  congr 1
  have hl : ∀ l : Fin 64, (if tok (ix2 n l) ≠ 0#32 then (1 : ℝ) else 0)
      = 1 - (if tok (ix2 n l) = 0#32 then (1 : ℝ) else 0) := by
    intro l
    by_cases h : tok (ix2 n l) = 0#32
    · rw [if_pos h, if_neg (not_not.mpr h), sub_self]
    · rw [if_neg h, if_pos h, sub_zero]
  rw [Finset.sum_congr rfl fun l _ => hl l, Finset.sum_sub_distrib, Finset.sum_const, Finset.card_univ,
    Fintype.card_fin]
  norm_num

/-- The histogram form of a node's masked mean is the masked mean. -/
theorem hseqK_eq (tok : Tok) (embed : A2 6 16) (htok : ∀ i, 0 ≤ (tok i).toInt) (n : Fin 100000) (j : Fin 16) :
    hseqK tok embed n j = hseq tok embed n j := by
  unfold hseqK hseq
  rw [accK_eq tok embed htok n j, den_eq tok n]

/-- So the 17 features agree. -/
theorem featK_eq (tok : Tok) (xcov : A2 100000 1) (embed : A2 6 16) (htok : ∀ i, 0 ≤ (tok i).toInt)
    (n : Fin 100000) (k : Fin 17) : featK tok xcov embed n k = feat tok xcov embed n k := by
  unfold featK feat
  by_cases h : k.val < 16
  · rw [dif_pos h, dif_pos h]; exact hseqK_eq tok embed htok n _
  · rw [dif_neg h, dif_neg h]

/-- For nonnegative tokens the histogram form of the node encoding is the masked mean: count-of-bucket times row, added
    over the buckets, is the sum over the 64 tokens of the row each token reads times its mask, and 64 minus the number
    of zero tokens is the number of nonzero tokens. -/
theorem m1K_eq_m1 (tok : Tok) (xcov : A2 100000 1) (embed : A2 6 16) (w1 : A2 17 16) (b1r : A2 1 16)
    (htok : ∀ i, 0 ≤ (tok i).toInt) :
    m1K tok xcov embed w1 b1r = m1 tok xcov embed w1 b1r := by
  have hAt : m1KAt tok xcov embed w1 b1r = m1At tok xcov embed w1 b1r := by
    funext n j
    unfold m1KAt m1At
    congr 1
    exact Finset.sum_congr rfl fun k _ => by rw [featK_eq tok xcov embed htok n k]
  unfold m1K m1
  rw [hAt]

end Cert.Spec.Encode

end
-- ==== Proof.Ref0.lean ====
import proofs.«411721_j41652592837293_3_alg».proof.Proof.Gen.ReferenceIdeal.Read
import proofs.«411721_j41652592837293_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx
open scoped BigOperators

namespace Cert.ReferenceIdeal.R0
open Cert.ReferenceIdeal Cert.ReferenceIdeal.Read

/-! ## Words -/

/-- The mask word: the bit "not equal to zero", converted to a float, is the indicator of "not zero". -/
theorem uitofp_ne (t : BitVec 32) :
    (FloatOps.uitofp (F := Ideal) .f32 (IntOp.cmpi .ne t 0#32) : Ideal .f32) = Cert.Spec.ind (t ≠ 0#32) := by
  unfold Cert.Spec.ind
  by_cases h : t = 0#32
  · subst h
    rw [if_neg (by simp)]
    show (((IntOp.cmpi .ne 0#32 0#32).toNat : ℝ) : EReal) = 0
    simp [IntOp.cmpi]
  · rw [if_pos h]
    have hne : (t != 0#32) = true := bne_iff_ne.mpr h
    have hb : IntOp.cmpi .ne t 0#32 = 1#1 := by simp [IntOp.cmpi, hne]
    show (((IntOp.cmpi .ne t 0#32).toNat : ℝ) : EReal) = 1
    rw [hb]; simp

/-- A word that is nonnegative as a signed integer is not below zero. -/
theorem slt_zero_of_nonneg (t : BitVec 32) (h : 0 ≤ t.toInt) : IntOp.cmpi .slt t 0#32 = 0#1 := by
  have hs : t.slt 0#32 = false := by
    simp only [BitVec.slt, BitVec.toInt_zero, decide_eq_false_iff_not]; omega
  simp [IntOp.cmpi, hs]

/-! ## The table gather at an index -/

/-- The gather of the 6 x 16 table at start indices of shape [100000, 64, 1], read at (n, l, j): the table at the row
    the start word at (n, l, 0) names — read signed and clamped to the last row — and at column j. Axis 0 of the table
    is collapsed and carries the start index; axis 1 is the offset axis, read at the result's last coordinate. -/
theorem gather_embed_apply {α : Type} (x : S6x16.Idx → α) (idx : IVec S100000x64x1 32)
    (n : Fin 100000) (l : Fin 64) (j : Fin 16) :
    Host.gather gather_S6x16_S100000x64x1_S100000x64x16_2_0_n_n_0_2_116 x idx (ix3 n l j)
      = x (ix2 (Cert.Spec.tokRow (idx (ix3 n l (0 : Fin 1)))) j) := by
  unfold Host.gather
  congr 1
  funext a
  refine Fin.ext ?_
  match a with
  | ⟨0, _⟩ =>
    show gather_S6x16_S100000x64x1_S100000x64x16_2_0_n_n_0_2_116.start (ix3 n l j) idx 0
      + gather_S6x16_S100000x64x1_S100000x64x16_2_0_n_n_0_2_116.batchCoord (ix3 n l j) 0
      + gather_S6x16_S100000x64x1_S100000x64x16_2_0_n_n_0_2_116.offCoord (ix3 n l j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S6x16_S100000x64x1_S100000x64x16_2_0_n_n_0_2_116.startIndexMap
      from List.mem_singleton.mpr rfl)]
    have hsi : gather_S6x16_S100000x64x1_S100000x64x16_2_0_n_n_0_2_116.siIdx (ix3 n l j)
        ⟨List.idxOf (0 : Fin 2) gather_S6x16_S100000x64x1_S100000x64x16_2_0_n_n_0_2_116.startIndexMap,
          List.idxOf_lt_length_iff.2 (List.mem_singleton.mpr rfl)⟩ = ix3 n l (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S6x16_S100000x64x1_S100000x64x16_2_0_n_n_0_2_116.start (ix3 n l j) idx 1
      + gather_S6x16_S100000x64x1_S100000x64x16_2_0_n_n_0_2_116.batchCoord (ix3 n l j) 1
      + gather_S6x16_S100000x64x1_S100000x64x16_2_0_n_n_0_2_116.offCoord (ix3 n l j) 1 = j.val
    rw [GatherDims.batchCoord_eq_zero _ _ _ List.not_mem_nil]
    unfold GatherDims.start
    rw [dif_neg (by decide)]
    unfold GatherDims.offCoord
    rw [dif_pos (by decide)]
    simp only [Nat.add_zero, Nat.zero_add]
    rfl

variable (x0 : IVec S100000x64 32) (x1 : FVec Ideal S100000x1 .f32) (x2 : IVec S2x3200000 32) (x3 : FVec Ideal S3200000x5 .f32)
  (x4 : IVec S100000 32) (x5 : FVec Ideal S6x16 .f32) (x6 : FVec Ideal S17x16 .f32) (x7 : FVec Ideal S16 .f32)
  (x8 : FVec Ideal S16x16 .f32) (x9 : FVec Ideal S16 .f32) (x10 : FVec Ideal S37x16 .f32) (x11 : FVec Ideal S16 .f32)
  (x12 : FVec Ideal S16x1 .f32) (x13 : FVec Ideal S1 .f32)

/-! ## The stages, each read at its coordinates -/

/-- For a nonnegative token the wrap of negative indices keeps the token. -/
theorem v4_apply (htok : ∀ i, 0 ≤ (x0 i).toInt) (n : Fin 100000) (l : Fin 64) :
    val_main_v4 (F := Ideal) x0 (ix2 n l) = x0 (ix2 n l) := by
  rw [val_main_v4_apply, val_main_v1_apply, val_main_v0_apply, val_main_c_apply,
    slt_zero_of_nonneg _ (htok _), select_zero]

/-- The mask at (n, l, 0) is the indicator that token (n, l) is not the padding token. -/
theorem mask_apply (n : Fin 100000) (l : Fin 64) :
    val_main_v10 (F := Ideal) x0 (ix3 n l (0 : Fin 1)) = Cert.Spec.ind (x0 (ix2 n l) ≠ 0#32) := by
  have e : idx_main_v10 (ix3 n l (0 : Fin 1)) = ix2 n l :=
    funext fun a => Fin.ext (by match a with | ⟨0, _⟩ => rfl | ⟨1, _⟩ => rfl)
  rw [val_main_v10_apply, val_main_v9_apply, val_main_v8_apply, val_main_v7_apply, val_main_c_1_apply, e]
  exact uitofp_ne _

/-- The number of unmasked tokens of node n. -/
theorem v11_apply (n : Fin 100000) :
    val_main_v11 (F := Ideal) x0 (ix2 n (0 : Fin 1)) = ∑ l : Fin 64, Cert.Spec.ind (x0 (ix2 n l) ≠ 0#32) := by
  rw [val_main_v11_apply, val_main_cst_apply, Ideal.ofBits_def, Ideal.ofBits_zero_f32, zero_add]
  refine Finset.sum_congr rfl fun l _ => ?_
  have e : idx_main_v11 (ix2 n (0 : Fin 1)) l = ix3 n l (0 : Fin 1) :=
    funext fun a => Fin.ext (by match a with | ⟨0, _⟩ => rfl | ⟨1, _⟩ => rfl | ⟨2, _⟩ => rfl)
  rw [e]
  exact mask_apply x0 n l

/-- The divisor: that number, at least 1. -/
theorem v13_apply (n : Fin 100000) :
    val_main_v13 (F := Ideal) x0 (ix2 n (0 : Fin 1))
      = max (∑ l : Fin 64, Cert.Spec.ind (x0 (ix2 n l) ≠ 0#32)) Cert.Spec.c1 := by
  rw [val_main_v13_apply, v11_apply, val_main_v12_apply, val_main_cst_2_apply, Ideal.maximumf_def, Ideal.ofBits_def]
  rfl

/-- The gathered table row of token (n, l), at column j. -/
theorem v6_apply (htok : ∀ i, 0 ≤ (x0 i).toInt) (n : Fin 100000) (l : Fin 64) (j : Fin 16) :
    val_main_v6 (F := Ideal) x0 x5 (ix3 n l j) = x5 (ix2 (Cert.Spec.tokRow (x0 (ix2 n l))) j) := by
  have e : idx_main_v5 (ix3 n l (0 : Fin 1)) = ix2 n l :=
    funext fun a => Fin.ext (by match a with | ⟨0, _⟩ => rfl | ⟨1, _⟩ => rfl)
  unfold val_main_v6
  rw [gather_embed_apply, val_main_v5_apply, e, v4_apply x0 htok]

/-- The masked sum of node n's token rows, at column j. -/
theorem v16_apply (htok : ∀ i, 0 ≤ (x0 i).toInt) (n : Fin 100000) (j : Fin 16) :
    val_main_v16 (F := Ideal) x0 x5 (ix2 n j)
      = ∑ l : Fin 64, (x5 (ix2 (Cert.Spec.tokRow (x0 (ix2 n l))) j) : EReal) * Cert.Spec.ind (x0 (ix2 n l) ≠ 0#32) := by
  rw [val_main_v16_apply, val_main_cst_3_apply, Ideal.ofBits_def, Ideal.ofBits_zero_f32, zero_add]
  refine Finset.sum_congr rfl fun l _ => ?_
  have e : idx_main_v16 (ix2 n j) l = ix3 n l j :=
    funext fun a => Fin.ext (by match a with | ⟨0, _⟩ => rfl | ⟨1, _⟩ => rfl | ⟨2, _⟩ => rfl)
  have e14 : idx_main_v14 (ix3 n l j) = ix3 n l (0 : Fin 1) :=
    funext fun a => Fin.ext (by match a with | ⟨0, _⟩ => rfl | ⟨1, _⟩ => rfl | ⟨2, _⟩ => rfl)
  rw [e, val_main_v15_apply, v6_apply x0 x5 htok, val_main_v14_apply, e14, mask_apply, Ideal.mulf_def]

/-- The masked mean of node n's token rows, at column j. -/
theorem v18_apply (htok : ∀ i, 0 ≤ (x0 i).toInt) (n : Fin 100000) (j : Fin 16) :
    val_main_v18 (F := Ideal) x0 x5 (ix2 n j) = Cert.Spec.hseq x0 x5 n j := by
  have e : idx_main_v17 (ix2 n j) = ix2 n (0 : Fin 1) :=
    funext fun a => Fin.ext (by match a with | ⟨0, _⟩ => rfl | ⟨1, _⟩ => rfl)
  rw [val_main_v18_apply, v16_apply x0 x5 htok, val_main_v17_apply, e, v13_apply, Ideal.hostDivf_def]
  rfl

/-- The 17 features of node n: the 16 masked means, then the covariate (the concatenation along axis 1, read in the
    piece that holds column k). -/
theorem v19_apply (htok : ∀ i, 0 ≤ (x0 i).toInt) (n : Fin 100000) (k : Fin 17) :
    val_main_v19 (F := Ideal) x0 x1 x5 (ix2 n k) = Cert.Spec.feat x0 x1 x5 n k := by
  unfold val_main_v19 Cert.Spec.feat
  by_cases h : k.val < 16
  · rw [dif_pos h]
    refine (concatenate_pair_apply_left (t := S100000x17) (s₁ := S100000x16) (s₂ := S100000x1) 1 _ _ _ (ix2 n k) rfl
      (ix2 n (⟨k.val, h⟩ : Fin 16)) (fun b => by match b with | ⟨0, _⟩ => rfl | ⟨1, _⟩ => rfl)).trans ?_
    exact v18_apply x0 x5 htok n ⟨k.val, h⟩
  · rw [dif_neg h]
    refine concatenate_pair_apply_right (t := S100000x17) (s₁ := S100000x16) (s₂ := S100000x1) 1 _ _ _ (ix2 n k) rfl rfl
      (ix2 n (0 : Fin 1)) (fun b hb => by
        match b, hb with
        | ⟨0, _⟩, _ => rfl
        | ⟨1, _⟩, hb => exact absurd rfl hb) ?_
    show 0 + 16 = k.val
    have := k.isLt
    omega

/-- The reference's first dense layer (stage 52 of its run), for nonnegative tokens, is the specification's. -/
theorem ref_m1 (htok : ∀ i, 0 ≤ (x0 i).toInt) :
    val_main_v52 (F := Ideal) x0 x1 x5 x6 x7 = Cert.Spec.m1 x0 x1 x5 x6 (Cert.Spec.row x7) := by
  funext i
  obtain ⟨n, j, rfl⟩ : ∃ n j, i = ix2 n j := ⟨i 0, i 1, eq_ix2 i⟩
  rw [val_main_v52_apply, val_main_v49_apply, val_main_v51_apply, val_main_v50_apply, Ideal.addf_def]
  show _ = (∑ k : Fin 17, Cert.Spec.feat x0 x1 x5 n k * x6 (ix2 k j)) + x7 (ix1 j)
  refine congrArg₂ (· + ·) (Finset.sum_congr rfl fun k _ => ?_) ?_
  · have el : lidx_main_v49 (ix2 n j) k = ix2 n k :=
      funext fun a => Fin.ext (by match a with | ⟨0, _⟩ => rfl | ⟨1, _⟩ => rfl)
    have er : ridx_main_v49 (ix2 n j) k = ix2 k j :=
      funext fun a => Fin.ext (by match a with | ⟨0, _⟩ => rfl | ⟨1, _⟩ => rfl)
    rw [el, er, v19_apply x0 x1 x5 htok]
  · exact congrArg x7 (funext fun a => Fin.ext (by match a with | ⟨0, _⟩ => rfl))

end Cert.ReferenceIdeal.R0

end
-- ==== Proof.Ref1.lean ====
import proofs.«411721_j41652592837293_3_alg».proof.Proof.Gen.ReferenceIdeal.Read
import proofs.«411721_j41652592837293_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx
open scoped BigOperators

namespace Cert.ReferenceIdeal.R1
open Cert.ReferenceIdeal Cert.ReferenceIdeal.Read

variable (x0 : IVec S100000x64 32) (x1 : FVec Ideal S100000x1 .f32) (x2 : IVec S2x3200000 32) (x3 : FVec Ideal S3200000x5 .f32)
  (x4 : IVec S100000 32) (x5 : FVec Ideal S6x16 .f32) (x6 : FVec Ideal S17x16 .f32) (x7 : FVec Ideal S16 .f32)
  (x8 : FVec Ideal S16x16 .f32) (x9 : FVec Ideal S16 .f32) (x10 : FVec Ideal S37x16 .f32) (x11 : FVec Ideal S16 .f32)
  (x12 : FVec Ideal S16x1 .f32) (x13 : FVec Ideal S1 .f32)

/-! ## Where the broadcasts read

A vector broadcast to a column and the column broadcast across 16 lanes reads, at row `n` and any lane, the vector's
entry `n`; a vector broadcast to a row and the row broadcast down 100000 rows reads, at any row and lane `j`, the
vector's entry `j`; the contraction of row `n` of the left factor with column `j` of the right reads them at `(n, k)`
and `(k, j)`. -/

/-- dinv as the outer factor of the first layer's closing step: entry `n`. -/
theorem idx_v74_v79 (n : Fin 100000) (k : Fin 16) : idx_main_v74 (idx_main_v79 (ix2 n k)) = ix1 n :=
  funext fun a => Fin.ext (by match a with | ⟨0, _⟩ => rfl)

/-- dinv as the inner factor of the first layer's closing step: entry `n`. -/
theorem idx_v75_v76 (n : Fin 100000) (k : Fin 16) : idx_main_v75 (idx_main_v76 (ix2 n k)) = ix1 n :=
  funext fun a => Fin.ext (by match a with | ⟨0, _⟩ => rfl)

/-- dinv as the outer factor of the second layer's closing step: entry `n`. -/
theorem idx_v107_v112 (n : Fin 100000) (k : Fin 16) : idx_main_v107 (idx_main_v112 (ix2 n k)) = ix1 n :=
  funext fun a => Fin.ext (by match a with | ⟨0, _⟩ => rfl)

/-- dinv as the inner factor of the second layer's closing step: entry `n`. -/
theorem idx_v108_v109 (n : Fin 100000) (k : Fin 16) : idx_main_v108 (idx_main_v109 (ix2 n k)) = ix1 n :=
  funext fun a => Fin.ext (by match a with | ⟨0, _⟩ => rfl)

/-- The left factor of the dense layer's contraction is read at `(n, k)`. -/
theorem lidx_v82_at (n : Fin 100000) (j k : Fin 16) : lidx_main_v82 (ix2 n j) k = ix2 n k :=
  funext fun a => Fin.ext (by match a with | ⟨0, _⟩ => rfl | ⟨1, _⟩ => rfl)

/-- The right factor of the dense layer's contraction is read at `(k, j)`. -/
theorem ridx_v82_at (n : Fin 100000) (j k : Fin 16) : ridx_main_v82 (ix2 n j) k = ix2 k j :=
  funext fun a => Fin.ext (by match a with | ⟨0, _⟩ => rfl | ⟨1, _⟩ => rfl)

/-- The bias, broadcast to a row and down the rows, is read at entry `j`. -/
theorem idx_v83_v84 (n : Fin 100000) (j : Fin 16) : idx_main_v83 (idx_main_v84 (ix2 n j)) = ix1 j :=
  funext fun a => Fin.ext (by match a with | ⟨0, _⟩ => rfl)

/-! ## The first graph layer's closing step, and the dense layer after it -/

/-- Stage 81 at `(n, k)` is relu (dinv n * (agg (n, k) + dinv n * M (n, k))). -/
theorem v81_at (n : Fin 100000) (k : Fin 16) :
    val_main_v81 (F := Ideal) x0 x1 x2 x4 x5 x6 x7 (ix2 n k)
      = Cert.Spec.finAt (val_main_v73 (F := Ideal) x0 x1 x2 x4 x5 x6 x7) (val_main_v52 (F := Ideal) x0 x1 x5 x6 x7)
          (Cert.Spec.col (val_main_v48 (F := Ideal) x2 x4)) n k := by
  rw [val_main_v81_apply, val_main_v80_apply, val_main_v79_apply, val_main_v74_apply, val_main_v78_apply,
    val_main_v77_apply, val_main_v76_apply, val_main_v75_apply, val_main_call0_v0_apply, val_main_call0_cst_apply]
  simp only [idx_v74_v79, idx_v75_v76, Ideal.maximumf_def, Ideal.mulf_def, Ideal.addf_def, Ideal.ofBits_def]
  rfl

/-- The reference's second dense layer (stage 85) is the specification's, of its own stages 73 (the aggregate), 52 and 48 (dinv). -/
theorem ref_m2 :
    val_main_v85 (F := Ideal) x0 x1 x2 x4 x5 x6 x7 x8 x9
      = Cert.Spec.m2 (val_main_v73 (F := Ideal) x0 x1 x2 x4 x5 x6 x7) (val_main_v52 (F := Ideal) x0 x1 x5 x6 x7)
          (Cert.Spec.col (val_main_v48 (F := Ideal) x2 x4)) x8 (Cert.Spec.row x9) := by
  funext i
  obtain ⟨n, j, rfl⟩ : ∃ (n : Fin 100000) (j : Fin 16), i = ix2 n j := ⟨i 0, i 1, eq_ix2 i⟩
  rw [val_main_v85_apply, val_main_v82_apply, val_main_v84_apply, val_main_v83_apply]
  simp only [lidx_v82_at, ridx_v82_at, idx_v83_v84, v81_at, Ideal.addf_def]
  rfl

/-! ## The second graph layer's closing step -/

/-- The reference's second graph layer's output (stage 114) is the specification's, of its stages 106, 85 and 48. -/
theorem ref_h :
    val_main_v114 (F := Ideal) x0 x1 x2 x4 x5 x6 x7 x8 x9
      = Cert.Spec.hfin (val_main_v106 (F := Ideal) x0 x1 x2 x4 x5 x6 x7 x8 x9) (val_main_v85 (F := Ideal) x0 x1 x2 x4 x5 x6 x7 x8 x9)
          (Cert.Spec.col (val_main_v48 (F := Ideal) x2 x4)) := by
  funext i
  obtain ⟨n, k, rfl⟩ : ∃ (n : Fin 100000) (k : Fin 16), i = ix2 n k := ⟨i 0, i 1, eq_ix2 i⟩
  rw [val_main_v114_apply, val_main_v113_apply, val_main_v112_apply, val_main_v107_apply, val_main_v111_apply,
    val_main_v110_apply, val_main_v109_apply, val_main_v108_apply, val_main_call1_v0_apply, val_main_call1_cst_apply]
  simp only [idx_v107_v112, idx_v108_v109, Ideal.maximumf_def, Ideal.mulf_def, Ideal.addf_def, Ideal.ofBits_def]
  rfl

end Cert.ReferenceIdeal.R1

end
-- ==== Proof.Ref3.lean ====
import proofs.«411721_j41652592837293_3_alg».proof.Proof.Gen.ReferenceIdeal.Read
import proofs.«411721_j41652592837293_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx
open scoped BigOperators

namespace Cert.ReferenceIdeal.R3
open Cert.ReferenceIdeal Cert.ReferenceIdeal.Read

/-! ## Two facts that do not mention the program -/

/-- A sum over 37 terms is the sum of its first 16, its next 16 and its last 5. -/
theorem sum37 (f : Fin 37 → EReal) :
    ∑ k : Fin 37, f k = ((∑ k : Fin 16, f ⟨k.val, by omega⟩) + (∑ k : Fin 16, f ⟨16 + k.val, by omega⟩))
      + (∑ k : Fin 5, f ⟨32 + k.val, by omega⟩) := by
  have h1 := Fin.sum_univ_add (M := EReal) (a := 16 + 16) (b := 5) f
  have h2 := Fin.sum_univ_add (M := EReal) (a := 16) (b := 16) (fun i => f (Fin.castAdd 5 i))
  rw [h1, h2]
  rfl

section Cat
variable {α : Type}
  (y1 y2 : (⟨2, ![3200000, 16]⟩ : Shape).Idx → α) (y3 : (⟨2, ![3200000, 5]⟩ : Shape).Idx → α)
  (h : Shape.Concatenates ([(⟨⟨2, ![3200000, 16]⟩, y1⟩ : (s : Shape) × (s.Idx → α)), ⟨⟨2, ![3200000, 16]⟩, y2⟩, ⟨⟨2, ![3200000, 5]⟩, y3⟩].map (·.1))
    (⟨2, ![3200000, 37]⟩ : Shape) 1)

/-- Columns 0 … 15 of three arrays joined along the columns are the first array. -/
theorem cat_left (e : Fin 3200000) (k : Fin 16) :
    concatenate (⟨2, ![3200000, 37]⟩ : Shape) 1 [⟨⟨2, ![3200000, 16]⟩, y1⟩, ⟨⟨2, ![3200000, 16]⟩, y2⟩, ⟨⟨2, ![3200000, 5]⟩, y3⟩] h
      (ix2 e ⟨k.val, by omega⟩) = y1 (ix2 e k) := by
  refine concatenate_apply_piece _ _ h _ 0 (by show (0 : Nat) < 3; decide) _ y1 rfl rfl 0 rfl (ix2 e k) (fun b hb => ?_) ?_
  · match b with
    | ⟨0, _⟩ => rfl
    | ⟨1, _⟩ => exact absurd rfl hb
  · show 0 + k.val = k.val
    omega

/-- Columns 16 … 31 are the second array. -/
theorem cat_mid (e : Fin 3200000) (k : Fin 16) :
    concatenate (⟨2, ![3200000, 37]⟩ : Shape) 1 [⟨⟨2, ![3200000, 16]⟩, y1⟩, ⟨⟨2, ![3200000, 16]⟩, y2⟩, ⟨⟨2, ![3200000, 5]⟩, y3⟩] h
      (ix2 e ⟨16 + k.val, by omega⟩) = y2 (ix2 e k) := by
  refine concatenate_apply_piece _ _ h _ 1 (by show (1 : Nat) < 3; decide) _ y2 rfl rfl 16 rfl (ix2 e k) (fun b hb => ?_) ?_
  · match b with
    | ⟨0, _⟩ => rfl
    | ⟨1, _⟩ => exact absurd rfl hb
  · rfl

/-- Columns 32 … 36 are the third array. -/
theorem cat_right (e : Fin 3200000) (k : Fin 5) :
    concatenate (⟨2, ![3200000, 37]⟩ : Shape) 1 [⟨⟨2, ![3200000, 16]⟩, y1⟩, ⟨⟨2, ![3200000, 16]⟩, y2⟩, ⟨⟨2, ![3200000, 5]⟩, y3⟩] h
      (ix2 e ⟨32 + k.val, by omega⟩) = y3 (ix2 e k) := by
  refine concatenate_apply_piece _ _ h _ 2 (by show (2 : Nat) < 3; decide) _ y3 rfl rfl 32 rfl (ix2 e k) (fun b hb => ?_) ?_
  · match b with
    | ⟨0, _⟩ => rfl
    | ⟨1, _⟩ => exact absurd rfl hb
  · rfl

end Cat

/-! ## The reference's stages -/

variable (x0 : IVec S100000x64 32) (x1 : FVec Ideal S100000x1 .f32) (x2 : IVec S2x3200000 32) (x3 : FVec Ideal S3200000x5 .f32)
  (x4 : IVec S100000 32) (x5 : FVec Ideal S6x16 .f32) (x6 : FVec Ideal S17x16 .f32) (x7 : FVec Ideal S16 .f32)
  (x8 : FVec Ideal S16x16 .f32) (x9 : FVec Ideal S16 .f32) (x10 : FVec Ideal S37x16 .f32) (x11 : FVec Ideal S16 .f32)
  (x12 : FVec Ideal S16x1 .f32) (x13 : FVec Ideal S1 .f32)

/-- Stage 129 (the joined features) at a column below 16 is the source node's feature (stage 121). -/
theorem v129_left (e : Fin 3200000) (k : Fin 16) :
    val_main_v129 (F := Ideal) x0 x1 x2 x3 x4 x5 x6 x7 x8 x9 (ix2 e ⟨k.val, by omega⟩)
      = val_main_v121 (F := Ideal) x0 x1 x2 x4 x5 x6 x7 x8 x9 (ix2 e k) := by
  unfold val_main_v129
  exact cat_left _ _ _ _ e k

/-- Stage 129 at a column 16 … 31 is the destination node's feature (stage 128). -/
theorem v129_mid (e : Fin 3200000) (k : Fin 16) :
    val_main_v129 (F := Ideal) x0 x1 x2 x3 x4 x5 x6 x7 x8 x9 (ix2 e ⟨16 + k.val, by omega⟩)
      = val_main_v128 (F := Ideal) x0 x1 x2 x4 x5 x6 x7 x8 x9 (ix2 e k) := by
  unfold val_main_v129
  exact cat_mid _ _ _ _ e k

/-- Stage 129 at a column 32 … 36 is the edge attribute. -/
theorem v129_right (e : Fin 3200000) (k : Fin 5) :
    val_main_v129 (F := Ideal) x0 x1 x2 x3 x4 x5 x6 x7 x8 x9 (ix2 e ⟨32 + k.val, by omega⟩)
      = x3 (ix2 e k) := by
  unfold val_main_v129
  exact cat_right _ _ _ _ e k

/-- One term of the 37-term product sum, in the first block: source feature times a row of the first 16. -/
theorem term_left (e : Fin 3200000) (j k : Fin 16) :
    val_main_v129 (F := Ideal) x0 x1 x2 x3 x4 x5 x6 x7 x8 x9 (lidx_main_v130 (ix2 e j) ⟨k.val, by omega⟩)
        * x10 (ridx_main_v130 (ix2 e j) ⟨k.val, by omega⟩)
      = val_main_v121 (F := Ideal) x0 x1 x2 x4 x5 x6 x7 x8 x9 (ix2 e k) * Cert.Spec.rows x10 0 16 (by decide) (ix2 k j) := by
  have hl : lidx_main_v130 (ix2 e j) (⟨k.val, by omega⟩ : Fin 37) = ix2 e (⟨k.val, by omega⟩ : Fin 37) :=
    funext fun a => Fin.ext (by match a with | ⟨0, _⟩ => rfl | ⟨1, _⟩ => rfl)
  have hr : ridx_main_v130 (ix2 e j) (⟨k.val, by omega⟩ : Fin 37) = ix2 (⟨0 + k.val, by omega⟩ : Fin 37) (⟨j.val, j.isLt⟩ : Fin 16) :=
    funext fun a => Fin.ext (by match a with | ⟨0, _⟩ => exact (Nat.zero_add _).symm | ⟨1, _⟩ => rfl)
  rw [hl, hr, v129_left]
  rfl

/-- One term in the second block: destination feature times a row of the next 16. -/
theorem term_mid (e : Fin 3200000) (j k : Fin 16) :
    val_main_v129 (F := Ideal) x0 x1 x2 x3 x4 x5 x6 x7 x8 x9 (lidx_main_v130 (ix2 e j) ⟨16 + k.val, by omega⟩)
        * x10 (ridx_main_v130 (ix2 e j) ⟨16 + k.val, by omega⟩)
      = val_main_v128 (F := Ideal) x0 x1 x2 x4 x5 x6 x7 x8 x9 (ix2 e k) * Cert.Spec.rows x10 16 16 (by decide) (ix2 k j) := by
  have hl : lidx_main_v130 (ix2 e j) (⟨16 + k.val, by omega⟩ : Fin 37) = ix2 e (⟨16 + k.val, by omega⟩ : Fin 37) :=
    funext fun a => Fin.ext (by match a with | ⟨0, _⟩ => rfl | ⟨1, _⟩ => rfl)
  have hr : ridx_main_v130 (ix2 e j) (⟨16 + k.val, by omega⟩ : Fin 37) = ix2 (⟨16 + k.val, by omega⟩ : Fin 37) (⟨j.val, j.isLt⟩ : Fin 16) :=
    funext fun a => Fin.ext (by match a with | ⟨0, _⟩ => rfl | ⟨1, _⟩ => rfl)
  rw [hl, hr, v129_mid]
  rfl

/-- One term in the third block: edge attribute times a row of the last 5. -/
theorem term_right (e : Fin 3200000) (j : Fin 16) (k : Fin 5) :
    val_main_v129 (F := Ideal) x0 x1 x2 x3 x4 x5 x6 x7 x8 x9 (lidx_main_v130 (ix2 e j) ⟨32 + k.val, by omega⟩)
        * x10 (ridx_main_v130 (ix2 e j) ⟨32 + k.val, by omega⟩)
      = x3 (ix2 e k) * Cert.Spec.rows x10 32 5 (by decide) (ix2 k j) := by
  have hl : lidx_main_v130 (ix2 e j) (⟨32 + k.val, by omega⟩ : Fin 37) = ix2 e (⟨32 + k.val, by omega⟩ : Fin 37) :=
    funext fun a => Fin.ext (by match a with | ⟨0, _⟩ => rfl | ⟨1, _⟩ => rfl)
  have hr : ridx_main_v130 (ix2 e j) (⟨32 + k.val, by omega⟩ : Fin 37) = ix2 (⟨32 + k.val, by omega⟩ : Fin 37) (⟨j.val, j.isLt⟩ : Fin 16) :=
    funext fun a => Fin.ext (by match a with | ⟨0, _⟩ => rfl | ⟨1, _⟩ => rfl)
  rw [hl, hr, v129_right]
  rfl

/-- The first bias, broadcast to every edge, is the bias as a one-row matrix at the column. -/
theorem bias1_at (e : Fin 3200000) (j : Fin 16) :
    val_main_v132 (F := Ideal) x11 (ix2 e j) = Cert.Spec.row x11 (ix2 0 j) := by
  rw [val_main_v132_apply, val_main_v131_apply]
  show x11 _ = x11 _
  congr 1
  funext a
  match a with
  | ⟨0, _⟩ => rfl

/-- The second bias, broadcast to every edge, is the bias as a one-by-one matrix. -/
theorem bias2_at (i : S3200000x1.Idx) :
    val_main_v137 (F := Ideal) x13 i = Cert.Spec.row x13 (ix2 0 0) := by
  rw [val_main_v137_apply, val_main_v136_apply]
  show x13 _ = x13 _
  congr 1
  funext a
  match a with
  | ⟨0, _⟩ => rfl

/-- Stage 134 (the hidden layer after the rectifier) is the specification's hidden layer of stages 121 and 128,
    the edge attributes, the three row blocks of the 37 x 16 matrix and the bias. -/
theorem v134_at (e : Fin 3200000) (j : Fin 16) :
    val_main_v134 (F := Ideal) x0 x1 x2 x3 x4 x5 x6 x7 x8 x9 x10 x11 (ix2 e j)
      = Cert.Spec.hidAt (val_main_v121 (F := Ideal) x0 x1 x2 x4 x5 x6 x7 x8 x9) (val_main_v128 (F := Ideal) x0 x1 x2 x4 x5 x6 x7 x8 x9) x3
          (Cert.Spec.rows x10 0 16 (by decide)) (Cert.Spec.rows x10 16 16 (by decide)) (Cert.Spec.rows x10 32 5 (by decide))
          (Cert.Spec.row x11) e j := by
  rw [val_main_v134_apply, val_main_v133_apply, val_main_v130_apply, val_main_call2_v0_apply, val_main_call2_cst_apply,
    bias1_at, sum37]
  rw [Finset.sum_congr rfl fun k _ => term_left x0 x1 x2 x3 x4 x5 x6 x7 x8 x9 x10 e j k,
    Finset.sum_congr rfl fun k _ => term_mid x0 x1 x2 x3 x4 x5 x6 x7 x8 x9 x10 e j k,
    Finset.sum_congr rfl fun k _ => term_right x0 x1 x2 x3 x4 x5 x6 x7 x8 x9 x10 e j k]
  rfl

/-- The reference's result (stage 139) is the specification's edge score of its stages 121 and 128 (the two gathered
    node features), the edge attributes and the three row blocks of the 37 x 16 matrix. -/
theorem ref_logit :
    val_main_v139 (F := Ideal) x0 x1 x2 x3 x4 x5 x6 x7 x8 x9 x10 x11 x12 x13
      = Cert.Spec.logit (val_main_v121 (F := Ideal) x0 x1 x2 x4 x5 x6 x7 x8 x9) (val_main_v128 (F := Ideal) x0 x1 x2 x4 x5 x6 x7 x8 x9) x3
          (Cert.Spec.rows x10 0 16 (by decide)) (Cert.Spec.rows x10 16 16 (by decide)) (Cert.Spec.rows x10 32 5 (by decide))
          (Cert.Spec.row x11) x12 (Cert.Spec.row x13) := by
  funext i
  obtain ⟨e, rfl⟩ : ∃ e : Fin 3200000, i = ix1 e := ⟨i 0, eq_ix1 i⟩
  have hl : ∀ j : Fin 16, lidx_main_v135 (idx_main_v139 (ix1 e)) j = ix2 e j := fun j =>
    funext fun a => Fin.ext (by
      match a with
      | ⟨0, _⟩ => show e.val / 1 = e.val; exact Nat.div_one _
      | ⟨1, _⟩ => rfl)
  have hr : ∀ j : Fin 16, ridx_main_v135 (idx_main_v139 (ix1 e)) j = ix2 j (0 : Fin 1) := fun j =>
    funext fun a => Fin.ext (by
      match a with
      | ⟨0, _⟩ => rfl
      | ⟨1, _⟩ => rfl)
  rw [val_main_v139_apply, val_main_v138_apply, val_main_v135_apply, bias2_at]
  simp only [hl, hr, v134_at, Ideal.addf_def]
  rfl

end Cert.ReferenceIdeal.R3

end
-- ==== Proof.Chain.lean ====
/-
  The kernel program's buffers, boundary by boundary, as the reference's own stages of the launch arguments: what a
  region leaves is the specification's function of what it was entered with, the specification's function is the
  reference's stage, and the host operations between the regions are the reference's own operations on those stages.
-/
import proofs.«411721_j41652592837293_3_alg».proof.Proof.HostK
import proofs.«411721_j41652592837293_3_alg».proof.Proof.Bridge
import proofs.«411721_j41652592837293_3_alg».proof.Proof.K0
import proofs.«411721_j41652592837293_3_alg».proof.Proof.K1
import proofs.«411721_j41652592837293_3_alg».proof.Proof.K2
import proofs.«411721_j41652592837293_3_alg».proof.Proof.K3
import proofs.«411721_j41652592837293_3_alg».proof.Proof.EncodeMath
import proofs.«411721_j41652592837293_3_alg».proof.Proof.Ref0
import proofs.«411721_j41652592837293_3_alg».proof.Proof.Ref1
import proofs.«411721_j41652592837293_3_alg».proof.Proof.Ref3

set_option maxRecDepth 16384

noncomputable section

open Idealize.ShloMosaic Idealize.ShloMosaic.TcCoe Idealize.SL.Sem Idealize.ShloMosaic.ValueIdx
open Idealize.ShloMosaic.Pipeline (Dat)

namespace Cert.Chain
open Cert.KernelIdeal Cert.KernelIdeal.Gen Cert.KernelIdeal.HostK
open Cert.ReferenceIdeal.Read (val_main_v21 val_main_v23 val_main_v48 val_main_v52 val_main_v73 val_main_v85 val_main_v106 val_main_v114 val_main_v121 val_main_v128 val_main_v139)

variable (m : (ℓ : Loc nD τ sig) → Buf (Elt Ideal) ℓ) (ρ : Dev nD → PrngReg)

/-- The launch arguments on core `c`. -/
abbrev a0 (c : Dev nD) : IVec S100000x64 32 := m ((c : Thread nD τ).loc main_arg0)
abbrev a1 (c : Dev nD) : FVec Ideal S100000x1 .f32 := m ((c : Thread nD τ).loc main_arg1)
abbrev a2 (c : Dev nD) : IVec S2x3200000 32 := m ((c : Thread nD τ).loc main_arg2)
abbrev a3 (c : Dev nD) : FVec Ideal S3200000x5 .f32 := m ((c : Thread nD τ).loc main_arg3)
abbrev a4 (c : Dev nD) : IVec S100000 32 := m ((c : Thread nD τ).loc main_arg4)
abbrev a5 (c : Dev nD) : FVec Ideal S6x16 .f32 := m ((c : Thread nD τ).loc main_arg5)
abbrev a6 (c : Dev nD) : FVec Ideal S17x16 .f32 := m ((c : Thread nD τ).loc main_arg6)
abbrev a7 (c : Dev nD) : FVec Ideal S16 .f32 := m ((c : Thread nD τ).loc main_arg7)
abbrev a8 (c : Dev nD) : FVec Ideal S16x16 .f32 := m ((c : Thread nD τ).loc main_arg8)
abbrev a9 (c : Dev nD) : FVec Ideal S16 .f32 := m ((c : Thread nD τ).loc main_arg9)
abbrev a10 (c : Dev nD) : FVec Ideal S37x16 .f32 := m ((c : Thread nD τ).loc main_arg10)
abbrev a11 (c : Dev nD) : FVec Ideal S16 .f32 := m ((c : Thread nD τ).loc main_arg11)
abbrev a12 (c : Dev nD) : FVec Ideal S16x1 .f32 := m ((c : Thread nD τ).loc main_arg12)
abbrev a13 (c : Dev nD) : FVec Ideal S1 .f32 := m ((c : Thread nD τ).loc main_arg13)

/-! ## Region 0 -/

/-- Region 0 leaves the reference's first dense layer. -/
theorem W2_v1 (htok : ∀ (c : Dev nD) i, 0 ≤ (a0 m c i).toInt) (c : Dev nD) :
    W2 m ρ c (Proc.devRef .tc main_v1) = val_main_v52 (F := Ideal) (a0 m c) (a1 m c) (a5 m c) (a6 m c) (a7 m c) := by
  refine (W2_arr m ρ c 5).trans ?_
  rw [Cert.KernelIdeal.K0.final0 (V1 m ρ) c, V1_arg0, V1_arg1, V1_arg5, V1_arg6, V1_v0]
  exact (Cert.Spec.Encode.m1K_eq_m1 _ _ _ _ _ (htok c)).trans (Cert.ReferenceIdeal.R0.ref_m1 _ _ _ _ _ (htok c)).symm

/-- A change of float format is the identity on the extended reals. -/
theorem truncf_id {s : Shape} (X : FVec Ideal s .f32) (h : FTy.bits .bf16 < FTy.bits .f32) :
    (truncf .bf16 X h : FVec Ideal s .bf16) = X := funext fun _ => rfl

/-! ## Before region 1 -/

theorem V3_v1 (htok : ∀ (c : Dev nD) i, 0 ≤ (a0 m c i).toInt) (c : Dev nD) :
    V3 m ρ c main_v1 = val_main_v52 (F := Ideal) (a0 m c) (a1 m c) (a5 m c) (a6 m c) (a7 m c) := by
  show W3 m ρ c (Proc.devRef .tc main_v1) = _
  over1
  exact W2_v1 m ρ htok c

/-- The first aggregate: the host's gather, product and scatter-add of region 0's output are the reference's. -/
theorem V3_v52 (htok : ∀ (c : Dev nD) i, 0 ≤ (a0 m c i).toInt) (c : Dev nD) :
    V3 m ρ c main_v52 = val_main_v73 (F := Ideal) (a0 m c) (a1 m c) (a2 m c) (a4 m c) (a5 m c) (a6 m c) (a7 m c) := by
  show StableHlo.after hostOps1 (W2 m ρ c) (Proc.devRef .tc main_v52) = _
  rw [Cert.Bridge.host1_v52 (W2 m ρ c), W2_arg2, W2_arg4, W2_v1 m ρ htok c]
  exact (Cert.Bridge.v73_eq _ _ _ _ _ _ _).symm

/-- dinv enters the regions as a column. -/
theorem V3_v31 (c : Dev nD) :
    V3 m ρ c main_v31 = Cert.Spec.col (val_main_v48 (F := Ideal) (a2 m c) (a4 m c)) := by
  show StableHlo.after hostOps1 (W2 m ρ c) (Proc.devRef .tc main_v31) = _
  rw [Cert.Bridge.host1_v31 (W2 m ρ c), W2_arg2, W2_arg4]
  funext i
  obtain ⟨n, u, rfl⟩ : ∃ (n : Fin 100000) (u : Fin 1), i = ix2 n u := ⟨i 0, i 1, eq_ix2 i⟩
  exact Idealize.ShloMosaic.Keepdims.shapeCast_a_a1_apply _ _ n u

/-- The edges' endpoints and the edge coefficient, as computed before region 1. -/
theorem W3_v3 (c : Dev nD) : W3 m ρ c (Proc.devRef .tc main_v3) = val_main_v21 (F := Ideal) (a2 m c) := by
  show StableHlo.after hostOps1 (W2 m ρ c) (Proc.devRef .tc main_v3) = _
  rw [Cert.Bridge.host1_v3 (W2 m ρ c), W2_arg2]
theorem W3_v5 (c : Dev nD) : W3 m ρ c (Proc.devRef .tc main_v5) = val_main_v23 (F := Ideal) (a2 m c) := by
  show StableHlo.after hostOps1 (W2 m ρ c) (Proc.devRef .tc main_v5) = _
  rw [Cert.Bridge.host1_v5 (W2 m ρ c), W2_arg2]
theorem W3_v40 (c : Dev nD) :
    W3 m ρ c (Proc.devRef .tc main_v40) = Cert.ReferenceIdeal.Read.val_main_v61 (F := Ideal) (a2 m c) (a4 m c) := by
  show StableHlo.after hostOps1 (W2 m ρ c) (Proc.devRef .tc main_v40) = _
  rw [Cert.Bridge.host1_v40 (W2 m ρ c), W2_arg2, W2_arg4]

/-! ## Region 1 -/

/-- Region 1 leaves the reference's second dense layer. -/
theorem W4_v54 (htok : ∀ (c : Dev nD) i, 0 ≤ (a0 m c i).toInt) (c : Dev nD) :
    W4 m ρ c (Proc.devRef .tc main_v54) = val_main_v85 (F := Ideal) (a0 m c) (a1 m c) (a2 m c) (a4 m c) (a5 m c) (a6 m c) (a7 m c) (a8 m c) (a9 m c) := by
  refine (W4_arr m ρ c 5).trans ?_
  rw [Cert.KernelIdeal.K1.final1 (V3 m ρ) c, V3_v52 m ρ htok c, V3_v1 m ρ htok c, V3_v31 m ρ c, V3_arg8, V3_v53]
  exact (Cert.ReferenceIdeal.R1.ref_m2 _ _ _ _ _ _ _ _ _).symm

/-! ## Before region 2 -/

theorem V5_v54 (htok : ∀ (c : Dev nD) i, 0 ≤ (a0 m c i).toInt) (c : Dev nD) :
    V5 m ρ c main_v54 = val_main_v85 (F := Ideal) (a0 m c) (a1 m c) (a2 m c) (a4 m c) (a5 m c) (a6 m c) (a7 m c) (a8 m c) (a9 m c) := by
  show W5 m ρ c (Proc.devRef .tc main_v54) = _
  over2
  exact W4_v54 m ρ htok c

theorem V5_v31 (c : Dev nD) :
    V5 m ρ c main_v31 = Cert.Spec.col (val_main_v48 (F := Ideal) (a2 m c) (a4 m c)) := by
  show W5 m ρ c (Proc.devRef .tc main_v31) = _
  over2
  refine (W4_arr m ρ c 2).trans ?_
  refine ((dat1 (V3 m ρ) c).arrAt_in 2 rfl _).trans ?_
  refine (A_eq1 (V3 m ρ) c 2).trans ?_
  exact V3_v31 m ρ c

/-- The second aggregate. -/
theorem V5_v66 (htok : ∀ (c : Dev nD) i, 0 ≤ (a0 m c i).toInt) (c : Dev nD) :
    V5 m ρ c main_v66 = val_main_v106 (F := Ideal) (a0 m c) (a1 m c) (a2 m c) (a4 m c) (a5 m c) (a6 m c) (a7 m c) (a8 m c) (a9 m c) := by
  show StableHlo.after hostOps2 (W4 m ρ c) (Proc.devRef .tc main_v66) = _
  rw [Cert.Bridge.host2_v66 (W4 m ρ c) (a2 m c) (a4 m c) ((W4_v3 m ρ c).trans (W3_v3 m ρ c))
    ((W4_v5 m ρ c).trans (W3_v5 m ρ c)) ((W4_v40 m ρ c).trans (W3_v40 m ρ c)), W4_v54 m ρ htok c]
  exact (Cert.Bridge.v106_eq _ _ _ _ _ _ _ _ _).symm

/-! ## Region 2 -/

/-- Region 2 leaves the reference's node features. -/
theorem W6_v67 (htok : ∀ (c : Dev nD) i, 0 ≤ (a0 m c i).toInt) (c : Dev nD) :
    W6 m ρ c (Proc.devRef .tc main_v67) = val_main_v114 (F := Ideal) (a0 m c) (a1 m c) (a2 m c) (a4 m c) (a5 m c) (a6 m c) (a7 m c) (a8 m c) (a9 m c) := by
  refine (W6_arr m ρ c 3).trans ?_
  rw [Cert.KernelIdeal.K2.final2 (V5 m ρ) c, V5_v66 m ρ htok c, V5_v54 m ρ htok c, V5_v31 m ρ c]
  exact (Cert.ReferenceIdeal.R1.ref_h _ _ _ _ _ _ _ _ _).symm

/-! ## Before region 3 -/

/-- The source nodes' features, gathered. -/
theorem V7_v75 (htok : ∀ (c : Dev nD) i, 0 ≤ (a0 m c i).toInt) (c : Dev nD) :
    V7 m ρ c main_v75 = val_main_v121 (F := Ideal) (a0 m c) (a1 m c) (a2 m c) (a4 m c) (a5 m c) (a6 m c) (a7 m c) (a8 m c) (a9 m c) := by
  show StableHlo.after hostOps3 (W6 m ρ c) (Proc.devRef .tc main_v75) = _
  rw [Cert.Bridge.host3_v75 (W6 m ρ c) (a2 m c) ((W6_v3 m ρ c).trans (W3_v3 m ρ c)), W6_v67 m ρ htok c, truncf_id]
  exact (Cert.Bridge.v121_eq _ _ _ _ _ _ _ _ _).symm

/-- The destination nodes' features, gathered. -/
theorem V7_v82 (htok : ∀ (c : Dev nD) i, 0 ≤ (a0 m c i).toInt) (c : Dev nD) :
    V7 m ρ c main_v82 = val_main_v128 (F := Ideal) (a0 m c) (a1 m c) (a2 m c) (a4 m c) (a5 m c) (a6 m c) (a7 m c) (a8 m c) (a9 m c) := by
  show StableHlo.after hostOps3 (W6 m ρ c) (Proc.devRef .tc main_v82) = _
  rw [Cert.Bridge.host3_v82 (W6 m ρ c) (a2 m c) ((W6_v5 m ρ c).trans (W3_v5 m ρ c)), W6_v67 m ρ htok c, truncf_id]
  exact (Cert.Bridge.v128_eq _ _ _ _ _ _ _ _ _).symm

/-- The edge attributes: a change of float format is the identity on the extended reals. -/
theorem V7_v83 (c : Dev nD) : V7 m ρ c main_v83 = a3 m c := by
  show StableHlo.after hostOps3 (W6 m ρ c) (Proc.devRef .tc main_v83) = _
  after_results_simp
  rw [W6_arg3]
  rfl

theorem V7_v84 (c : Dev nD) : V7 m ρ c main_v84 = Cert.Spec.rows (a10 m c) 0 16 (by decide) := by
  show StableHlo.after hostOps3 (W6 m ρ c) (Proc.devRef .tc main_v84) = _
  after_results_simp
  rw [W6_arg10]
  funext i
  refine extractStridedSlice_apply _ _ _ i _ fun ax => ?_
  match ax with
  | ⟨0, _⟩ => rfl
  | ⟨1, _⟩ => (show (i 1).val = 0 + (i 1).val; omega)

theorem V7_v85 (c : Dev nD) : V7 m ρ c main_v85 = Cert.Spec.rows (a10 m c) 16 16 (by decide) := by
  show StableHlo.after hostOps3 (W6 m ρ c) (Proc.devRef .tc main_v85) = _
  after_results_simp
  rw [W6_arg10]
  funext i
  refine extractStridedSlice_apply _ _ _ i _ fun ax => ?_
  match ax with
  | ⟨0, _⟩ => rfl
  | ⟨1, _⟩ => (show (i 1).val = 0 + (i 1).val; omega)

theorem V7_v86 (c : Dev nD) : V7 m ρ c main_v86 = Cert.Spec.rows (a10 m c) 32 5 (by decide) := by
  show StableHlo.after hostOps3 (W6 m ρ c) (Proc.devRef .tc main_v86) = _
  after_results_simp
  rw [W6_arg10]
  funext i
  refine extractStridedSlice_apply _ _ _ i _ fun ax => ?_
  match ax with
  | ⟨0, _⟩ => rfl
  | ⟨1, _⟩ => (show (i 1).val = 0 + (i 1).val; omega)

theorem V7_v87 (c : Dev nD) : V7 m ρ c main_v87 = Cert.Spec.row (a11 m c) := by
  show StableHlo.after hostOps3 (W6 m ρ c) (Proc.devRef .tc main_v87) = _
  after_results_simp
  rw [W6_arg11]
  funext i
  obtain ⟨u, j, rfl⟩ : ∃ (u : Fin 1) (j : Fin 16), i = ix2 u j := ⟨i 0, i 1, eq_ix2 i⟩
  refine shapeCast_apply _ _ _ _ ?_
  show ((⟨1, ![16]⟩ : Shape).rowMajor (ix1 j)).val = ((⟨2, ![1, 16]⟩ : Shape).rowMajor (ix2 u j)).val
  rw [Shape.rowMajor_val_two, Shape.rowMajor_val_one]
  have hu : u.val = 0 := by omega
  show j.val = u.val * 16 + j.val
  omega

theorem V7_v88 (c : Dev nD) : V7 m ρ c main_v88 = Cert.Spec.row (a13 m c) := by
  show StableHlo.after hostOps3 (W6 m ρ c) (Proc.devRef .tc main_v88) = _
  after_results_simp
  rw [W6_arg13]
  funext i
  obtain ⟨u, j, rfl⟩ : ∃ (u : Fin 1) (j : Fin 1), i = ix2 u j := ⟨i 0, i 1, eq_ix2 i⟩
  refine shapeCast_apply _ _ _ _ ?_
  show ((⟨1, ![1]⟩ : Shape).rowMajor (ix1 j)).val = ((⟨2, ![1, 1]⟩ : Shape).rowMajor (ix2 u j)).val
  rw [Shape.rowMajor_val_two, Shape.rowMajor_val_one]
  have hu : u.val = 0 := by omega
  show j.val = u.val * 1 + j.val
  omega

/-! ## Region 3: the result -/

/-- What the last region leaves in the result array is the reference's result, of the same arguments. -/
theorem result (htok : ∀ (c : Dev nD) i, 0 ≤ (a0 m c i).toInt) (c : Dev nD) :
    (dat3 (V7 m ρ) c).arrAt 9 cfg3.N = val_main_v139 (F := Ideal) (a0 m c) (a1 m c) (a2 m c) (a3 m c) (a4 m c) (a5 m c) (a6 m c) (a7 m c) (a8 m c) (a9 m c) (a10 m c) (a11 m c) (a12 m c) (a13 m c) := by
  rw [Cert.KernelIdeal.K3.final3 (V7 m ρ) c, V7_v75 m ρ htok c, V7_v82 m ρ htok c, V7_v83, V7_v84, V7_v85, V7_v86, V7_v87, V7_arg12, V7_v88]
  exact (Cert.ReferenceIdeal.R3.ref_logit _ _ _ _ _ _ _ _ _ _ _ _ _ _).symm

end Cert.Chain

end
-- ==== Proof.PreDecode.lean ====
import proofs.«411721_j41652592837293_3_alg».proof.Defs
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.PreDecode

/-- A rank-0 array has one index. -/
instance : Subsingleton Cert.Pre_finite_inputs.S_.Idx := ⟨fun a b => funext fun d => d.elim0⟩

/-- The closing conjunct of the predicate's last part, read back: when the part is 1, every token compares
    `>= 0` signed, so its signed value is nonnegative. -/
theorem part3_tok {F : FTy → Type} [FloatOps F] [Cert.Pre_finite_inputs.Facts]
    (a0 : IVec Cert.Pre_finite_inputs.S100000x64 32) (v48 : IVec Cert.Pre_finite_inputs.S_ 1)
    (v49 v50 : FVec F Cert.Pre_finite_inputs.S1 .f32) (j : Cert.Pre_finite_inputs.S_.Idx)
    (h : Cert.Pre_finite_inputs.fn_part3 (F := F) a0 v48 v49 v50 j = 1#1) (i : Cert.Pre_finite_inputs.S100000x64.Idx) :
    0 ≤ (a0 i).toInt := by
  unfold Cert.Pre_finite_inputs.fn_part3 at h
  -- the part is `and` of the earlier conjuncts with the reduction of `tokens >= 0` by `and`
  have h2 := (IntOp.andi_eq_one.1 h).2
  have h3 := Host.reduce_andi_all _ _ _ _ j h2 i
  have h4 := IntOp.cmpi_sge.1 h3
  have h0 : (0#32 : BitVec 32).toInt = 0 := by decide
  simpa only [broadcastInDim, constantI, h0] using h4

/-- Under the precondition every token is nonnegative (its last conjunct: `all (seq_tokens >= 0)`). -/
theorem tok_nonneg [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, 0 ≤ ((m ((c.tc : Thread Cert.KernelIdeal.nD Cert.KernelIdeal.τ).loc Cert.KernelIdeal.main_arg0) : IVec Cert.KernelIdeal.S100000x64 32) i).toInt := by
  intro i
  have h := congrFun (hpre c) ix0
  -- the predicate's chain of parts ends in its last part, at the token array
  unfold Cert.Pre_finite_inputs.fn Cert.Pre_finite_inputs.fn_part1 Cert.Pre_finite_inputs.fn_part2 at h
  exact part3_tok _ _ _ _ ix0 h i

end Cert.PreDecode

end
-- ==== Proof.lean ====
/-
  Edge scores of a two-layer graph network over encoded nodes: the kernel program against its jnp reference, on the
  extended reals.

  Both programs compute, for 100000 nodes and 3200000 edges: a node's masked mean of token embeddings with its
  covariate appended, a dense layer, two graph layers relu (dinv * (agg + dinv * M)) whose aggregates gather, scale
  and scatter-add the dense outputs along the edges, and an edge score from the two end nodes' features and the edge
  attributes through a 37 x 16 matrix, relu and a 16 x 1 matrix.  The kernel program does the dense algebra in four grid
  regions (2000 nodes or 5120 edges a point) and everything indexed by the edges on the host, with the reference's own
  host operations.  Three things differ and are proved equal: the kernel counts tokens per table row (a histogram) where
  the reference gathers a row per token — equal for nonnegative tokens, the added precondition: a negative token wraps
  to a table row in the reference and is dropped by the histogram —; the kernel splits the 37-row product into its three
  row blocks where the reference concatenates the three feature blocks; and the kernel carries dinv as a column and the
  biases as rows.  Changes of float format are the identity on the extended reals.  No finiteness of the float inputs is
  used: the histogram identity needs only that a count is a sum of zeros and ones.

  Spec.lean states the four region functions; K0–K3 read each region's blocks back to them; EncodeMath is the histogram
  identity; Ref0, Ref1, Ref3 read the reference's stages to the same functions; HostK and Chain follow the kernel
  program's buffers from the launch to the result; RunValue is the run with the result array read; PreDecode reads the
  tokens' sign out of the precondition.
-/
import proofs.«411721_j41652592837293_3_alg».proof.Defs
import proofs.«411721_j41652592837293_3_alg».proof.Proof.Gen.Kernel
import proofs.«411721_j41652592837293_3_alg».proof.Proof.Gen.Kernel.Skeleton
import proofs.«411721_j41652592837293_3_alg».proof.Proof.Gen.Kernel.Launch
import proofs.«411721_j41652592837293_3_alg».proof.Proof.Gen.Kernel.Points
import proofs.«411721_j41652592837293_3_alg».proof.Proof.Gen.Kernel.Frame
import proofs.«411721_j41652592837293_3_alg».proof.Proof.Gen.KernelIdeal
import proofs.«411721_j41652592837293_3_alg».proof.Proof.Gen.KernelIdeal.Skeleton
import proofs.«411721_j41652592837293_3_alg».proof.Proof.Gen.KernelIdeal.Launch
import proofs.«411721_j41652592837293_3_alg».proof.Proof.Gen.KernelIdeal.Points
import proofs.«411721_j41652592837293_3_alg».proof.Proof.Gen.KernelIdeal.Frame
import proofs.«411721_j41652592837293_3_alg».proof.Proof.Gen.ReferenceIdeal
import proofs.«411721_j41652592837293_3_alg».proof.Proof.Gen.Pre_finite_inputs
import proofs.«411721_j41652592837293_3_alg».proof.Proof.Gen.ReferenceIdeal.Run
import proofs.«411721_j41652592837293_3_alg».proof.Proof.Gen.ReferenceIdeal.Read
import proofs.«411721_j41652592837293_3_alg».proof.Proof.RunValue
import proofs.«411721_j41652592837293_3_alg».proof.Proof.Chain
import proofs.«411721_j41652592837293_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, under the precondition, both programs end with the result array at the
    reference's last stage of the kernel program's arguments. -/
theorem algebraic : Cert.algebraic_KernelIdeal_ReferenceIdeal := by
  intro m ρ m' ρ' hpre hagree
  have htok : ∀ (c : Dev Cert.KernelIdeal.nD) i, 0 ≤ (Cert.Chain.a0 m c i).toInt :=
    fun c => Cert.PreDecode.tok_nonneg m hpre c
  refine ⟨fun c => Cert.ReferenceIdeal.Read.val_main_v139 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Gen.run_value (F := Ideal) m ρ)
    exact ⟨(h c).1.trans (Cert.Chain.result m ρ htok c), (h c).2⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v139_eq]
    obtain ⟨e0, e1, e2, e3, e4, e5, e6, e7, e8, e9, e10, e11, e12, e13⟩ := hagree c
    rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
